-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg14 : FVec F S128x16 .f32) (main_arg15 : FVec F S16 .f32) (main_v63 : IVec S_ 1) (main_v67 : IVec S_ 1) : IVec S_ 1 :=
  let main_v68 : IVec S_ 1 := andi main_v63 main_v67
  let main_v69 : FVec F S128x16 .f32 := Host.absf main_arg14
  let main_cst_26 : FVec F S_ .f32 := constant S_ .f32 0x7F800000#32
  let main_v70 : FVec F S128x16 .f32 := broadcastInDim S128x16 ![] bcast_S_S128x16 main_cst_26
  let main_v71 : IVec S128x16 1 := cmpf .olt main_v69 main_v70
  let main_c_27 : IVec S_ 1 := constantI S_ 1 1#1
  let main_v72 : IVec S_ 1 := (fun x v => Host.reduce IntOp.andi x v reducesTo_S128x16_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  main_v78

def fn_part3 {F : FTy → Type} [FloatOps F] (main_arg11 : FVec F S16 .f32) (main_arg12 : FVec F S16 .f32) (main_arg13 : FVec F S16 .f32) (main_arg14 : FVec F S128x16 .f32) (main_arg15 : FVec F S16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg14 main_arg15 main_v63 main_v67

def fn_part2 {F : FTy → Type} [FloatOps F] (main_arg7 : FVec F S128 .f32) (main_arg8 : FVec F S128 .f32) (main_arg9 : FVec F S128 .f32) (main_arg10 : FVec F S128x16 .f32) (main_arg11 : FVec F S16 .f32) (main_arg12 : FVec F S16 .f32) (main_arg13 : FVec F S16 .f32) (main_arg14 : FVec F S128x16 .f32) (main_arg15 : FVec F S16 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x16 .f32 := Host.absf main_arg10
  let main_cst_18 : FVec F S_ .f32 := constant S_ .f32 0x7F800000#32
  let main_v50 : FVec F S128x16 .f32 := broadcastInDim S128x16 ![] bcast_S_S128x16 main_cst_18
  fn_part3 (F := F) main_arg11 main_arg12 main_arg13 main_arg14 main_arg15 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x16 .f32) (main_arg11 : FVec F S16 .f32) (main_arg12 : FVec F S16 .f32) (main_arg13 : FVec F S16 .f32) (main_arg14 : FVec F S128x16 .f32) (main_arg15 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x16 .f32) (main_arg11 : FVec F S16 .f32) (main_arg12 : FVec F S16 .f32) (main_arg13 : FVec F S16 .f32) (main_arg14 : FVec F S128x16 .f32) (main_arg15 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S1x16 : Shape := ⟨2, ![1, 16]⟩
abbrev S10000x16 : Shape := ⟨2, ![10000, 16]⟩
abbrev S2000x128 : Shape := ⟨2, ![2000, 128]⟩
abbrev S2000x16 : Shape := ⟨2, ![2000, 16]⟩
abbrev S200x10000 : Shape := ⟨2, ![200, 10000]⟩
abbrev S200x128 : Shape := ⟨2, ![200, 128]⟩
abbrev S200 : Shape := ⟨1, ![200]⟩
abbrev S200x1 : Shape := ⟨2, ![200, 1]⟩
abbrev S1000x10000 : Shape := ⟨2, ![1000, 10000]⟩
abbrev S1000x128 : Shape := ⟨2, ![1000, 128]⟩
abbrev S1000x16 : Shape := ⟨2, ![1000, 16]⟩
abbrev S1000 : Shape := ⟨1, ![1000]⟩
abbrev S1000x1 : Shape := ⟨2, ![1000, 1]⟩

abbrev nBuf : Space → Nat
  | .hbm => 33
  | .vmem => 43
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S128x16, .f32⟩
  | .hbm, ⟨15, _⟩ => ⟨S16, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x16, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S10000x128, .bf16⟩
  | .hbm, ⟨27, _⟩ => ⟨S10000x16, .f32⟩
  | .hbm, ⟨28, _⟩ => ⟨S10000x10000, .bf16⟩
  | .hbm, ⟨29, _⟩ => ⟨S10000x128, .f32⟩
  | .hbm, ⟨30, _⟩ => ⟨S10000x128, .bf16⟩
  | .hbm, ⟨31, _⟩ => ⟨S10000x16, .bf16⟩
  | .hbm, ⟨32, _⟩ => ⟨S10000x16, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x16, .f32⟩
  | .local _ .vmem, ⟨4, _⟩ => ⟨S1x16, .f32⟩
  | .local _ .vmem, ⟨5, _⟩ => ⟨S2000x128, .bf16⟩
  | .local _ .vmem, ⟨6, _⟩ => ⟨S2000x128, .bf16⟩
  | .local _ .vmem, ⟨7, _⟩ => ⟨S2000x16, .f32⟩
  | .local _ .vmem, ⟨8, _⟩ => ⟨S2000x16, .f32⟩
  | .local _ .vmem, ⟨9, _⟩ => ⟨S200x10000, .f32⟩
  | .local _ .vmem, ⟨10, _⟩ => ⟨S200x10000, .f32⟩
  | .local _ .vmem, ⟨11, _⟩ => ⟨S10000x128, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S200x10000, .bf16⟩
  | .local _ .vmem, ⟨17, _⟩ => ⟨S200x10000, .bf16⟩
  | .local _ .vmem, ⟨18, _⟩ => ⟨S200x128, .f32⟩
  | .local _ .vmem, ⟨19, _⟩ => ⟨S200x128, .f32⟩
  | .local _ .vmem, ⟨20, _⟩ => ⟨S200x128, .bf16⟩
  | .local _ .vmem, ⟨21, _⟩ => ⟨S200x128, .bf16⟩
  | .local _ .vmem, ⟨22, _⟩ => ⟨S1000x10000, .bf16⟩
  | .local _ .vmem, ⟨23, _⟩ => ⟨S1000x10000, .bf16⟩
  | .local _ .vmem, ⟨24, _⟩ => ⟨S10000x128, .bf16⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1000x128, .f32⟩
  | .local _ .vmem, ⟨29, _⟩ => ⟨S1000x128, .f32⟩
  | .local _ .vmem, ⟨30, _⟩ => ⟨S128x16, .f32⟩
  | .local _ .vmem, ⟨31, _⟩ => ⟨S1000x16, .bf16⟩
  | .local _ .vmem, ⟨32, _⟩ => ⟨S1000x16, .bf16⟩
  | .local _ .vmem, ⟨33, _⟩ => ⟨S1000x10000, .bf16⟩
  | .local _ .vmem, ⟨34, _⟩ => ⟨S1000x10000, .bf16⟩
  | .local _ .vmem, ⟨35, _⟩ => ⟨S10000x16, .bf16⟩
  | .local _ .vmem, ⟨36, _⟩ => ⟨S1x16, .f32⟩
  | .local _ .vmem, ⟨37, _⟩ => ⟨S1x16, .f32⟩
  | .local _ .vmem, ⟨38, _⟩ => ⟨S1x16, .f32⟩
  | .local _ .vmem, ⟨39, _⟩ => ⟨S1000x16, .f32⟩
  | .local _ .vmem, ⟨40, _⟩ => ⟨S1000x16, .f32⟩
  | .local _ .vmem, ⟨41, _⟩ => ⟨S1000x16, .f32⟩
  | .local _ .vmem, ⟨42, _⟩ => ⟨S1000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v11_0 : Ref sig .tc := ⟨.hbm, 28, rfl⟩
abbrev main_v11_1 : Ref sig .tc := ⟨.hbm, 29, rfl⟩
abbrev main_v11_2 : Ref sig .tc := ⟨.hbm, 30, rfl⟩
abbrev main_v12 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg5_1 : Ref sig .tc := ⟨.vmem, 40, rfl⟩
abbrev cc3_stg6_0 : Ref sig .tc := ⟨.vmem, 41, rfl⟩
abbrev cc3_stg6_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem5_1 : DmaSem sig := 40
abbrev cc3_sem6_0 : DmaSem sig := 41
abbrev cc3_sem6_1 : DmaSem sig := 42

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x10000 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S200x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S200x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x16 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1000x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S128_S1x128 : S128.ShapeCasts S1x128
  shapeCasts_S16_S1x16 : S16.ShapeCasts S1x16
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  reduces_S200x128_S200 : S200x128.Reduces [1] S200
  shapeCasts_S200_S200x1 : S200.ShapeCasts S200x1
  broadcasts_S200x1_S200x128 : S200x1.Broadcasts S200x128
  inb_S200x128_S200x128_0_0 : ∀ a, (![0, 0] : Fin 2 → Nat) a + S200x128.size a ≤ S200x128.size a
  h_S200x128 : 0 < S200x128.numel
  packedbf16_S200x128_S200x128_0_0 : (Rect.unit (s := S200x128) ![0, 0] S200x128.size inb_S200x128_S200x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x16_S1000x16_0_0 : ∀ a, (![0, 0] : Fin 2 → Nat) a + S1000x16.size a ≤ S1000x16.size a
  h_S1000x16 : 0 < S1000x16.numel
  packedbf16_S1000x16_S1000x16_0_0 : (Rect.unit (s := S1000x16) ![0, 0] S1000x16.size inb_S1000x16_S1000x16_0_0).PackedRows (EltTy.packing .bf16)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  broadcasts_S1x16_S1000x16 : S1x16.Broadcasts S1000x16
  reduces_S1000x16_S1000 : S1000x16.Reduces [1] S1000
  broadcasts_S1000x1_S1000x16 : S1000x1.Broadcasts S1000x16
  shapeCasts_S1000x16_S1000x16 : S1000x16.ShapeCasts S1000x16
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S1000x10000_S10000x128_S1000x128_1_0_0_1_n_n_wf : DotDims.WF S1000x10000 S10000x128 S1000x128 [1] [0] [0] [1] [] []
  dot_S1000x128_S128x16_S1000x16_1_0_0_1_n_n_wf : DotDims.WF S1000x128 S128x16 S1000x16 [1] [0] [0] [1] [] []
  dot_S1000x10000_S10000x16_S1000x16_1_0_0_1_n_n_wf : DotDims.WF S1000x10000 S10000x16 S1000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .bf16 = 32 ∨ (Rect.block (s := S10000x128) S2000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x16.size a ≤ S10000x16.size a
  hwx0_5 : ∀ i : grid0.Coords, EltTy.bits .f32 = 32 ∨ (Rect.block (s := S10000x16) S2000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x10000.size a ≤ S10000x10000.size a
  hwx1_6 : ∀ i : grid1.Coords, EltTy.bits .bf16 = 32 ∨ (Rect.block (s := S10000x10000) S200x10000.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S200x128.size a ≤ S10000x128.size a
  hwx1_7 : ∀ i : grid1.Coords, EltTy.bits .f32 = 32 ∨ (Rect.block (s := S10000x128) S200x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S200x128.size a ≤ S10000x128.size a
  hwx1_8 : ∀ i : grid1.Coords, EltTy.bits .bf16 = 32 ∨ (Rect.block (s := S10000x128) S200x128.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S10000x128.size a
  hwx2_5 : ∀ i : grid2.Coords, EltTy.bits .f32 = 32 ∨ (Rect.block (s := S10000x128) S1000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x16.size a ≤ S128x16.size a
  hwx2_6 : ∀ i : grid2.Coords, EltTy.bits .f32 = 32 ∨ (Rect.block (s := S128x16) S128x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x16.size a ≤ S10000x16.size a
  hwx2_7 : ∀ i : grid2.Coords, EltTy.bits .bf16 = 32 ∨ (Rect.block (s := S10000x16) S1000x16.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .bf16 = 32 ∨ (Rect.block (s := S10000x16) S10000x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x16.size a ≤ S10000x16.size a
  hwx3_5 : ∀ i : grid3.Coords, EltTy.bits .f32 = 32 ∨ (Rect.block (s := S10000x16) S1000x16.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x16.size a ≤ S10000x16.size a
  hwx3_6 : ∀ i : grid3.Coords, EltTy.bits .f32 = 32 ∨ (Rect.block (s := S10000x16) S1000x16.size (cc3_transform_6 i) (hinb3_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x16_S1000x16_1_0_0_1_n_n : DotDims S1000x128 S128x16 S1000x16 where
  lhsContracting := [1]
  rhsContracting := [0]
  lhsNonContracting := [0]
  rhsNonContracting := [1]
  lhsBatch := []
  rhsBatch := []
  wf := dot_S1000x128_S128x16_S1000x16_1_0_0_1_n_n_wf
def dot_S1000x10000_S10000x16_S1000x16_1_0_0_1_n_n : DotDims S1000x10000 S10000x16 S1000x16 where
  lhsContracting := [1]
  rhsContracting := [0]
  lhsNonContracting := [0]
  rhsNonContracting := [1]
  lhsBatch := []
  rhsBatch := []
  wf := dot_S1000x10000_S10000x16_S1000x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg14) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S2000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11_0) S200x10000.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11_1) S200x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v11_2) S200x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v11_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11_2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11_1) S1000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S128x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v12) S1000x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v11_0) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v8) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v10_1) S1000x16.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v13) S1000x16.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S_ : Shape := ⟨0, ![]⟩
abbrev S10000 : Shape := ⟨1, ![10000]⟩
abbrev S10000x1 : Shape := ⟨2, ![10000, 1]⟩
abbrev S10000x16 : Shape := ⟨2, ![10000, 16]⟩
abbrev S1x16 : Shape := ⟨2, ![1, 16]⟩

abbrev nBuf : Space → Nat
  | .hbm => 178
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x16, .f32⟩
  | 11 => ⟨S16, .f32⟩
  | 12 => ⟨S16, .f32⟩
  | 13 => ⟨S16, .f32⟩
  | 14 => ⟨S128x16, .f32⟩
  | 15 => ⟨S16, .f32⟩
  | 16 => ⟨S10000x128, .f32⟩
  | 17 => ⟨S10000x128, .f32⟩
  | 18 => ⟨S1x128, .f32⟩
  | 19 => ⟨S10000x128, .f32⟩
  | 20 => ⟨S10000x128, .f32⟩
  | 21 => ⟨S_, .f32⟩
  | 22 => ⟨S10000, .f32⟩
  | 23 => ⟨S10000x1, .f32⟩
  | 24 => ⟨S_, .f32⟩
  | 25 => ⟨S10000x1, .f32⟩
  | 26 => ⟨S10000x1, .f32⟩
  | 27 => ⟨S_, .i32⟩
  | 28 => ⟨S_, .f32⟩
  | 29 => ⟨S10000, .f32⟩
  | 30 => ⟨S10000x1, .f32⟩
  | 31 => ⟨S_, .f32⟩
  | 32 => ⟨S10000x1, .f32⟩
  | 33 => ⟨S10000x1, .f32⟩
  | 34 => ⟨S10000x128, .f32⟩
  | 35 => ⟨S10000x128, .f32⟩
  | 36 => ⟨S10000x128, .f32⟩
  | 37 => ⟨S_, .f32⟩
  | 38 => ⟨S_, .f32⟩
  | 39 => ⟨S_, .f32⟩
  | 40 => ⟨S_, .f32⟩
  | 41 => ⟨S10000, .f32⟩
  | 42 => ⟨S10000x1, .f32⟩
  | 43 => ⟨S10000x1, .f32⟩
  | 44 => ⟨S10000x1, .f32⟩
  | 45 => ⟨S_, .f32⟩
  | 46 => ⟨S_, .i1⟩
  | 47 => ⟨S_, .f32⟩
  | 48 => ⟨S_, .f32⟩
  | 49 => ⟨S10000x1, .f32⟩
  | 50 => ⟨S10000x1, .f32⟩
  | 51 => ⟨S10000x128, .f32⟩
  | 52 => ⟨S10000x128, .f32⟩
  | 53 => ⟨S1x128, .f32⟩
  | 54 => ⟨S10000x128, .f32⟩
  | 55 => ⟨S10000x128, .f32⟩
  | 56 => ⟨S_, .f32⟩
  | 57 => ⟨S10000x1, .f32⟩
  | 58 => ⟨S10000x1, .f32⟩
  | 59 => ⟨S10000x1, .f32⟩
  | 60 => ⟨S10000x128, .f32⟩
  | 61 => ⟨S10000x128, .f32⟩
  | 62 => ⟨S1x128, .f32⟩
  | 63 => ⟨S10000x128, .f32⟩
  | 64 => ⟨S10000x128, .f32⟩
  | 65 => ⟨S_, .f32⟩
  | 66 => ⟨S10000x128, .f32⟩
  | 67 => ⟨S10000x128, .f32⟩
  | 68 => ⟨S10000x128, .f32⟩
  | 69 => ⟨S10000x128, .f32⟩
  | 70 => ⟨S1x128, .f32⟩
  | 71 => ⟨S10000x128, .f32⟩
  | 72 => ⟨S10000x128, .f32⟩
  | 73 => ⟨S_, .f32⟩
  | 74 => ⟨S10000, .f32⟩
  | 75 => ⟨S10000x1, .f32⟩
  | 76 => ⟨S_, .f32⟩
  | 77 => ⟨S10000x1, .f32⟩
  | 78 => ⟨S10000x1, .f32⟩
  | 79 => ⟨S_, .i32⟩
  | 80 => ⟨S_, .f32⟩
  | 81 => ⟨S10000, .f32⟩
  | 82 => ⟨S10000x1, .f32⟩
  | 83 => ⟨S_, .f32⟩
  | 84 => ⟨S10000x1, .f32⟩
  | 85 => ⟨S10000x1, .f32⟩
  | 86 => ⟨S10000x128, .f32⟩
  | 87 => ⟨S10000x128, .f32⟩
  | 88 => ⟨S10000x128, .f32⟩
  | 89 => ⟨S_, .f32⟩
  | 90 => ⟨S_, .f32⟩
  | 91 => ⟨S_, .f32⟩
  | 92 => ⟨S_, .f32⟩
  | 93 => ⟨S10000, .f32⟩
  | 94 => ⟨S10000x1, .f32⟩
  | 95 => ⟨S10000x1, .f32⟩
  | 96 => ⟨S10000x1, .f32⟩
  | 97 => ⟨S_, .f32⟩
  | 98 => ⟨S_, .i1⟩
  | 99 => ⟨S_, .f32⟩
  | 100 => ⟨S_, .f32⟩
  | 101 => ⟨S10000x1, .f32⟩
  | 102 => ⟨S10000x1, .f32⟩
  | 103 => ⟨S10000x128, .f32⟩
  | 104 => ⟨S10000x128, .f32⟩
  | 105 => ⟨S1x128, .f32⟩
  | 106 => ⟨S10000x128, .f32⟩
  | 107 => ⟨S10000x128, .f32⟩
  | 108 => ⟨S_, .f32⟩
  | 109 => ⟨S10000x1, .f32⟩
  | 110 => ⟨S10000x1, .f32⟩
  | 111 => ⟨S10000x1, .f32⟩
  | 112 => ⟨S10000x128, .f32⟩
  | 113 => ⟨S10000x128, .f32⟩
  | 114 => ⟨S1x128, .f32⟩
  | 115 => ⟨S10000x128, .f32⟩
  | 116 => ⟨S10000x128, .f32⟩
  | 117 => ⟨S_, .f32⟩
  | 118 => ⟨S10000x128, .f32⟩
  | 119 => ⟨S10000x128, .f32⟩
  | 120 => ⟨S10000x128, .f32⟩
  | 121 => ⟨S10000x16, .f32⟩
  | 122 => ⟨S10000x16, .f32⟩
  | 123 => ⟨S1x16, .f32⟩
  | 124 => ⟨S10000x16, .f32⟩
  | 125 => ⟨S10000x16, .f32⟩
  | 126 => ⟨S_, .f32⟩
  | 127 => ⟨S10000, .f32⟩
  | _ => ⟨S10000x128, .f32⟩

abbrev hbmTy0_1 (i : Nat) : BufTy := match i % 128 with
  | 0 => ⟨S10000x1, .f32⟩
  | 1 => ⟨S_, .f32⟩
  | 2 => ⟨S10000x1, .f32⟩
  | 3 => ⟨S10000x1, .f32⟩
  | 4 => ⟨S_, .i32⟩
  | 5 => ⟨S_, .f32⟩
  | 6 => ⟨S10000, .f32⟩
  | 7 => ⟨S10000x1, .f32⟩
  | 8 => ⟨S_, .f32⟩
  | 9 => ⟨S10000x1, .f32⟩
  | 10 => ⟨S10000x1, .f32⟩
  | 11 => ⟨S10000x16, .f32⟩
  | 12 => ⟨S10000x16, .f32⟩
  | 13 => ⟨S10000x16, .f32⟩
  | 14 => ⟨S_, .f32⟩
  | 15 => ⟨S_, .f32⟩
  | 16 => ⟨S_, .f32⟩
  | 17 => ⟨S_, .f32⟩
  | 18 => ⟨S10000, .f32⟩
  | 19 => ⟨S10000x1, .f32⟩
  | 20 => ⟨S10000x1, .f32⟩
  | 21 => ⟨S10000x1, .f32⟩
  | 22 => ⟨S_, .f32⟩
  | 23 => ⟨S_, .i1⟩
  | 24 => ⟨S_, .f32⟩
  | 25 => ⟨S_, .f32⟩
  | 26 => ⟨S10000x1, .f32⟩
  | 27 => ⟨S10000x1, .f32⟩
  | 28 => ⟨S10000x16, .f32⟩
  | 29 => ⟨S10000x16, .f32⟩
  | 30 => ⟨S1x16, .f32⟩
  | 31 => ⟨S10000x16, .f32⟩
  | 32 => ⟨S10000x16, .f32⟩
  | 33 => ⟨S_, .f32⟩
  | 34 => ⟨S10000x1, .f32⟩
  | 35 => ⟨S10000x1, .f32⟩
  | 36 => ⟨S10000x1, .f32⟩
  | 37 => ⟨S10000x16, .f32⟩
  | 38 => ⟨S10000x16, .f32⟩
  | 39 => ⟨S1x16, .f32⟩
  | 40 => ⟨S10000x16, .f32⟩
  | 41 => ⟨S10000x16, .f32⟩
  | 42 => ⟨S10000x16, .f32⟩
  | 43 => ⟨S1x16, .f32⟩
  | 44 => ⟨S10000x16, .f32⟩
  | 45 => ⟨S10000x16, .f32⟩
  | 46 => ⟨S_, .f32⟩
  | 47 => ⟨S10000x16, .f32⟩
  | 48 => ⟨S10000x16, .f32⟩
  | 49 => ⟨S10000x16, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_1 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_call1_cst : Ref sig .tc := ⟨.hbm, 65, rfl⟩
abbrev main_call1_v0 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_2 : Ref sig .tc := ⟨.hbm, 73, rfl⟩
abbrev main_v29 : Ref sig .tc := ⟨.hbm, 74, rfl⟩
abbrev main_v30 : Ref sig .tc := ⟨.hbm, 75, rfl⟩
abbrev main_cst_3 : Ref sig .tc := ⟨.hbm, 76, rfl⟩
abbrev main_v31 : Ref sig .tc := ⟨.hbm, 77, rfl⟩
abbrev main_v32 : Ref sig .tc := ⟨.hbm, 78, rfl⟩
abbrev main_c_4 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_cst_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_cst_1 : Ref sig .tc := ⟨.hbm, 90, rfl⟩
abbrev main_call2_v8 : Ref sig .tc := ⟨.hbm, 91, rfl⟩
abbrev main_call2_cst_2 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_cst_3 : Ref sig .tc := ⟨.hbm, 97, rfl⟩
abbrev main_call2_v13 : Ref sig .tc := ⟨.hbm, 98, rfl⟩
abbrev main_call2_cst_4 : Ref sig .tc := ⟨.hbm, 99, rfl⟩
abbrev main_call2_call0_v0 : Ref sig .tc := ⟨.hbm, 100, rfl⟩
abbrev main_call2_call0_v1 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_cst_5 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_call3_cst : Ref sig .tc := ⟨.hbm, 117, rfl⟩
abbrev main_call3_v0 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_cst_6 : Ref sig .tc := ⟨.hbm, 126, rfl⟩
abbrev main_v54 : Ref sig .tc := ⟨.hbm, 127, rfl⟩
abbrev main_v55 : Ref sig .tc := ⟨.hbm, 128, rfl⟩
abbrev main_cst_7 : Ref sig .tc := ⟨.hbm, 129, rfl⟩
abbrev main_v56 : Ref sig .tc := ⟨.hbm, 130, rfl⟩
abbrev main_v57 : Ref sig .tc := ⟨.hbm, 131, rfl⟩
abbrev main_c_8 : Ref sig .tc := ⟨.hbm, 132, rfl⟩
abbrev main_call4_cst : Ref sig .tc := ⟨.hbm, 133, rfl⟩
abbrev main_call4_v0 : Ref sig .tc := ⟨.hbm, 134, rfl⟩
abbrev main_call4_v1 : Ref sig .tc := ⟨.hbm, 135, rfl⟩
abbrev main_call4_cst_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_v5 : Ref sig .tc := ⟨.hbm, 140, rfl⟩
abbrev main_call4_v6 : Ref sig .tc := ⟨.hbm, 141, rfl⟩
abbrev main_call4_v7 : Ref sig .tc := ⟨.hbm, 142, rfl⟩
abbrev main_call4_cst_1 : Ref sig .tc := ⟨.hbm, 143, rfl⟩
abbrev main_call4_v8 : Ref sig .tc := ⟨.hbm, 144, rfl⟩
abbrev main_call4_cst_2 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_v12 : Ref sig .tc := ⟨.hbm, 149, rfl⟩
abbrev main_call4_cst_3 : Ref sig .tc := ⟨.hbm, 150, rfl⟩
abbrev main_call4_v13 : Ref sig .tc := ⟨.hbm, 151, rfl⟩
abbrev main_call4_cst_4 : Ref sig .tc := ⟨.hbm, 152, rfl⟩
abbrev main_call4_call0_v0 : Ref sig .tc := ⟨.hbm, 153, rfl⟩
abbrev main_call4_call0_v1 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_cst_9 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_cst_10 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  bcast_S10000x1_S10000x16_0_1 : S10000x1.BroadcastsInDim S10000x16 (![0, 1] : Fin 2 → Fin S10000x16.rank)
  bcast_S_S10000x16 : S_.BroadcastsInDim S10000x16 (![] : Fin 0 → Fin S10000x16.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Spec.lean ====
/-
  The mathematics both programs compute, as functions of plainly indexed arrays of extended reals.

  A three-layer residual graph network over a dense adjacency `adj` (N × N) and node features `x` (N × F):
    u₁ = x · W_in,            h₁ = relu (LN (adj · u₁ + b_in)),
    u₂ = h₁ · W_h,            h₂ = relu (LN (adj · u₂ + b_h)) + h₁,
    u₃ = h₂ · W_out,          out = LN (adj · u₃ + b_out) + 0.1 · (x · W_skip + b_skip),
  where LN is the row-wise layer normalisation  g · (a − mean a) / √(var a + ε) + β  with the biased variance.

  The two programs differ in ONE place: one multiplies by the reciprocal square root, `t · rsqrt v`, where the other
  divides by the square root, `t / √v`. On the extended reals these agree whenever `0 < v` (also at `v = ⊤`, where both
  are `0`), and `v = var a + ε` is positive for every row `a` whatsoever: a variance is a sum of squares over a
  positive count, squares of extended reals are never negative, and ε is a positive real.
-/
import Idealize.ShloMosaic.PureOps.Ideal
import Idealize.ShloMosaic.Lib.ValueIdx

noncomputable section

namespace Cert.Spec

open Idealize.ShloMosaic Idealize.ShloMosaic.ValueIdx

/-! ## The literals, as the extended reals their words denote -/

/-- 128.0 -/
abbrev c128 : EReal := Ideal.ofBits .f32 0x43000000#32
/-- 16.0 -/
abbrev c16 : EReal := Ideal.ofBits .f32 0x41800000#32
/-- the f32 nearest 1e-5 -/
abbrev ceps : EReal := Ideal.ofBits .f32 0x3727C5AC#32
/-- the f32 nearest 0.1 -/
abbrev c01 : EReal := Ideal.ofBits .f32 0x3DCCCCCD#32
/-- +0.0 -/
abbrev c0 : EReal := Ideal.ofBits .f32 0x00000000#32

/-! ## Arrays read at plain coordinates -/

/-- A rank-2 array as a function of its two coordinates. -/
abbrev cur2 {n0 n1 : Nat} (X : (⟨2, ![n0, n1]⟩ : Shape).Idx → EReal) : Fin n0 → Fin n1 → EReal := fun p q => X (ix2 p q)
/-- A rank-1 array as a function of its coordinate. -/
abbrev cur1 {n : Nat} (X : (⟨1, ![n]⟩ : Shape).Idx → EReal) : Fin n → EReal := fun p => X (ix1 p)
/-- The single row of a [1, n] array. -/
abbrev row {n : Nat} (X : (⟨2, ![1, n]⟩ : Shape).Idx → EReal) : Fin n → EReal := fun q => X (ix2 0 q)

/-! ## The stages -/

/-- The matrix product. -/
def mm {n k m : Nat} (A : Fin n → Fin k → EReal) (B : Fin k → Fin m → EReal) : Fin n → Fin m → EReal :=
  fun i j => ∑ l : Fin k, A i l * B l j

/-- The mean of a row, its sum divided by the count `nn` (given as the extended real of the count's literal). -/
def mean {k : Nat} (nn : EReal) (a : Fin k → EReal) : EReal := Ideal.div (∑ l : Fin k, a l) nn

/-- The biased variance of a row. -/
def var {k : Nat} (nn : EReal) (a : Fin k → EReal) : EReal :=
  Ideal.div (∑ l : Fin k, (a l - mean nn a) * (a l - mean nn a)) nn

/-- Layer normalisation of the row `a` at column `j`, dividing by the square root. -/
def ln {k : Nat} (nn : EReal) (a g b : Fin k → EReal) (j : Fin k) : EReal :=
  Ideal.div (g j * (a j - mean nn a)) (Ideal.sqrt (var nn a + ceps)) + b j

/-- The same, multiplying by the reciprocal square root. -/
def lnK {k : Nat} (nn : EReal) (a g b : Fin k → EReal) (j : Fin k) : EReal :=
  g j * (a j - mean nn a) * Ideal.rsqrt (var nn a + ceps) + b j

/-- A graph convolution's pre-activation: `adj · u + b`. -/
def pre {n k m : Nat} (adj : Fin n → Fin k → EReal) (u : Fin k → Fin m → EReal) (b : Fin m → EReal) : Fin n → Fin m → EReal :=
  fun i j => mm adj u i j + b j

/-- The first layer's activations. -/
def h1 {n k m : Nat} (adj : Fin n → Fin k → EReal) (u : Fin k → Fin m → EReal) (b g be : Fin m → EReal) : Fin n → Fin m → EReal :=
  fun i j => max (ln c128 (pre adj u b i) g be j) c0

/-- The hidden residual block's activations. -/
def h2 {n k m : Nat} (adj : Fin n → Fin k → EReal) (u : Fin k → Fin m → EReal) (b g be : Fin m → EReal)
    (r : Fin n → Fin m → EReal) : Fin n → Fin m → EReal :=
  fun i j => max (ln c128 (pre adj u b i) g be j) c0 + r i j

/-- The scaled skip connection. -/
def skip {n k m : Nat} (x : Fin n → Fin k → EReal) (W : Fin k → Fin m → EReal) (b : Fin m → EReal) : Fin n → Fin m → EReal :=
  fun i j => c01 * (mm x W i j + b j)

/-- The output layer. -/
def outL {n k m : Nat} (adj : Fin n → Fin k → EReal) (u : Fin k → Fin m → EReal) (b g be : Fin m → EReal)
    (s : Fin n → Fin m → EReal) : Fin n → Fin m → EReal :=
  fun i j => ln c16 (pre adj u b i) g be j + s i j

/-- The whole network. -/
def net (x : Fin 10000 → Fin 128 → EReal) (adj : Fin 10000 → Fin 10000 → EReal)
    (W_in : Fin 128 → Fin 128 → EReal) (b_in g_in be_in : Fin 128 → EReal)
    (W_h : Fin 128 → Fin 128 → EReal) (b_h g_h be_h : Fin 128 → EReal)
    (W_out : Fin 128 → Fin 16 → EReal) (b_out g_out be_out : Fin 16 → EReal)
    (W_skip : Fin 128 → Fin 16 → EReal) (b_skip : Fin 16 → EReal) : Fin 10000 → Fin 16 → EReal :=
  outL adj (mm (h2 adj (mm (h1 adj (mm x W_in) b_in g_in be_in) W_h) b_h g_h be_h (h1 adj (mm x W_in) b_in g_in be_in)) W_out)
    b_out g_out be_out (skip x W_skip b_skip)

/-! ## The literals' values -/

theorem c128_eq : c128 = ((128 : ℝ) : EReal) := by
  simp [Ideal.ofBits, Ideal.ieee, -EReal.coe_mul]; norm_num

theorem c16_eq : c16 = ((16 : ℝ) : EReal) := by
  simp [Ideal.ofBits, Ideal.ieee, -EReal.coe_mul]; norm_num

theorem c0_eq : c0 = 0 := by
  simp [Ideal.ofBits, Ideal.ieee]

theorem ceps_pos : ∃ e : ℝ, 0 < e ∧ ceps = (e : EReal) := by
  refine ⟨(10995116 : ℝ) * (2 : ℝ) ^ (-40 : Int), by positivity, ?_⟩
  simp [Ideal.ofBits, Ideal.ieee, -EReal.coe_mul]

/-! ## The one law -/

/-- Multiplying by the reciprocal square root is dividing by the square root, at every positive extended real. -/
theorem mul_rsqrt_eq_div_sqrt (t v : EReal) (hv : 0 < v) : t * Ideal.rsqrt v = Ideal.div t (Ideal.sqrt v) := by
  induction v using EReal.rec with
  | bot => exact absurd hv (not_lt_of_gt EReal.bot_lt_zero)
  | coe r =>
    -- a positive real: both sides are `t · (√r)⁻¹`
    have hr : 0 < r := EReal.coe_pos.mp hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]
  | top =>
    -- at `⊤` the reciprocal root is `0`, and so is `⊤⁻¹`
    rw [Ideal.rsqrt_top, Ideal.sqrt_top, Ideal.div, if_neg EReal.top_ne_zero, EReal.inv_top]

/-- The square of an extended real is never negative: `⊥ · ⊥ = ⊤ · ⊤ = ⊤`. -/
theorem ereal_mul_self_nonneg (d : EReal) : 0 ≤ d * d := by
  induction d using EReal.rec with
  | bot => rw [EReal.bot_mul_bot]; exact le_top
  | coe r => rw [← EReal.coe_mul]; exact EReal.coe_nonneg.mpr (mul_self_nonneg r)
  | top => rw [EReal.top_mul_top]; exact le_top

/-- A variance is never negative when the count is a positive real. -/
theorem var_nonneg {k : Nat} (nn : EReal) (hnn : ∃ r : ℝ, 0 < r ∧ nn = (r : EReal)) (a : Fin k → EReal) :
    0 ≤ var nn a := by
  obtain ⟨r, hr, rfl⟩ := hnn
  unfold var
  rw [Ideal.div_coe hr.ne']
  exact EReal.mul_nonneg (Finset.sum_nonneg fun l _ => ereal_mul_self_nonneg _) (EReal.coe_nonneg.mpr (one_div_pos.mpr hr).le)

/-- A variance plus ε is positive, whatever the row holds, when the count is a positive real. -/
theorem var_add_eps_pos {k : Nat} (nn : EReal) (hnn : ∃ r : ℝ, 0 < r ∧ nn = (r : EReal)) (a : Fin k → EReal) :
    0 < var nn a + ceps := by
  obtain ⟨e, he, hce⟩ := ceps_pos
  rw [hce]
  exact lt_of_lt_of_le (EReal.coe_pos.mpr he) (le_add_of_nonneg_left (var_nonneg nn hnn a))

/-- The two spellings of layer normalisation agree. -/
theorem lnK_eq_ln {k : Nat} (nn : EReal) (hnn : ∃ r : ℝ, 0 < r ∧ nn = (r : EReal)) (a g b : Fin k → EReal) (j : Fin k) :
    lnK nn a g b j = ln nn a g b j := by
  unfold lnK ln
  rw [mul_rsqrt_eq_div_sqrt _ _ (var_add_eps_pos nn hnn a)]

theorem c128_pos : ∃ r : ℝ, 0 < r ∧ c128 = (r : EReal) := ⟨128, by norm_num, c128_eq⟩
theorem c16_pos : ∃ r : ℝ, 0 < r ∧ c16 = (r : EReal) := ⟨16, by norm_num, c16_eq⟩

/-! ## The counts against zero

The count is computed as `n − float(0)` and tested `> 0` before it divides; for both counts the test holds. -/

theorem c0_lt_c128 : c0 < c128 := by
  rw [c0_eq, c128_eq]; exact EReal.coe_pos.mpr (by norm_num)

theorem c0_lt_c16 : c0 < c16 := by
  rw [c0_eq, c16_eq]; exact EReal.coe_pos.mpr (by norm_num)

theorem c128_sub_zero : c128 - (0 : EReal) = c128 := sub_zero _

theorem c16_sub_zero : c16 - (0 : EReal) = c16 := sub_zero _

/-- The signed integer `0`, read as a float, is `0`. -/
theorem sitofp_zero : (FloatOps.sitofp (F := Ideal) .f32 (0#32 : BitVec 32)) = (0 : EReal) := by
  show (((0#32 : BitVec 32).toInt : ℝ) : EReal) = 0
  simp

theorem cmp_gt_c128 :
    FloatOps.cmpf (F := Ideal) (φ := .f32) .ogt (c128 - FloatOps.sitofp (F := Ideal) .f32 (0#32 : BitVec 32)) c0 = 1#1 := by
  rw [sitofp_zero, sub_zero]
  show Ideal.cmp .ogt c128 c0 = 1#1
  simp [Ideal.cmp, c0_lt_c128]

theorem cmp_gt_c16 :
    FloatOps.cmpf (F := Ideal) (φ := .f32) .ogt (c16 - FloatOps.sitofp (F := Ideal) .f32 (0#32 : BitVec 32)) c0 = 1#1 := by
  rw [sitofp_zero, sub_zero]
  show Ideal.cmp .ogt c16 c0 = 1#1
  simp [Ideal.cmp, c0_lt_c16]

end Cert.Spec

end
-- ==== Proof.KReg0.lean ====
/-
  Region 0 of the idealized kernel, read as values. Over a grid of five blocks of 2000 rows, the body multiplies the block
  of x by W_in (stored after a change of float format: the identity on the extended reals) and by W_skip, adds the bias
  row b_skip to the second product and scales it by the literal 0.1. A block product into a zero accumulator is the plain
  sum over the shared coordinate; row r of block t is row 2000·t + r of the array; the five blocks tile the rows. So after
  the region the two output arrays hold  x · W_in  and  0.1 · (x · W_skip + b_skip), entry by entry, for any entry contents.
-/
import proofs.«111547_g5291399708710_cont_9to1_m_243_4_alg».proof.Proof.Gen.KernelIdeal.Frame
import proofs.«111547_g5291399708710_cont_9to1_m_243_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen

-- the buffer contents the region is entered with: any
variable (V : (c : Dev nD) → (b : Ref sig .tc) → Buf (Elt Ideal) ((c : Thread nD τ).loc b))

/-! ## The two products of the body, read at an index -/

theorem hz : (![0, 0] : Fin 2 → Nat) = fun _ => 0 := funext fun a => by fin_cases a <;> rfl

/-- The left operand's row coordinate is the result's row. -/
theorem lhs_u_0 (j : S2000x128.Idx) (k : dot_S2000x128_S128x128_S2000x128_1_0_0_1_n_n.contr.Idx) :
    ((dot_S2000x128_S128x128_S2000x128_1_0_0_1_n_n.lhsIdx j k) 0).val = (j 0).val := by
  simp [DotDims.lhsIdx, dot_S2000x128_S128x128_S2000x128_1_0_0_1_n_n]; rfl

/-- The left operand's column coordinate is the contracted coordinate. -/
theorem lhs_u_1 (j : S2000x128.Idx) (k : dot_S2000x128_S128x128_S2000x128_1_0_0_1_n_n.contr.Idx) :
    ((dot_S2000x128_S128x128_S2000x128_1_0_0_1_n_n.lhsIdx j k) 1).val = (k ⟨0, by decide⟩).val := by
  simp [DotDims.lhsIdx, dot_S2000x128_S128x128_S2000x128_1_0_0_1_n_n]; rfl

/-- The right operand's row coordinate is the contracted coordinate. -/
theorem rhs_u_0 (j : S2000x128.Idx) (k : dot_S2000x128_S128x128_S2000x128_1_0_0_1_n_n.contr.Idx) :
    ((dot_S2000x128_S128x128_S2000x128_1_0_0_1_n_n.rhsIdx j k) 0).val = (k ⟨0, by decide⟩).val := by
  simp [DotDims.rhsIdx, dot_S2000x128_S128x128_S2000x128_1_0_0_1_n_n]; rfl

/-- The right operand's column coordinate is the result's column. -/
theorem rhs_u_1 (j : S2000x128.Idx) (k : dot_S2000x128_S128x128_S2000x128_1_0_0_1_n_n.contr.Idx) :
    ((dot_S2000x128_S128x128_S2000x128_1_0_0_1_n_n.rhsIdx j k) 1).val = (j 1).val := by
  simp [DotDims.rhsIdx, dot_S2000x128_S128x128_S2000x128_1_0_0_1_n_n]; rfl

/-- The first product into the zero accumulator, at an entry: the sum over the shared coordinate. -/
theorem mm_u_apply (x : FVec Ideal S2000x128 .f32) (w : FVec Ideal S128x128 .f32) (r : Fin 2000) (q : Fin 128) :
    matmul dot_S2000x128_S128x128_S2000x128_1_0_0_1_n_n none x w (constant (F := Ideal) S2000x128 .f32 0x00000000#32) (ix2 r q)
      = ∑ l : Fin 128, x (ix2 r l) * w (ix2 l q) := by
  show FloatOps.matmul _ none x w _ (ix2 r q) = _
  rw [Ideal.matmul_constant_zero_apply,
    ← Equiv.sum_comp (contrEquiv1 dot_S2000x128_S128x128_S2000x128_1_0_0_1_n_n 128 rfl rfl).symm]
  refine Finset.sum_congr rfl fun l _ => ?_
  have hl := contrEquiv1_symm_val dot_S2000x128_S128x128_S2000x128_1_0_0_1_n_n 128 rfl rfl l
  have e1 : dot_S2000x128_S128x128_S2000x128_1_0_0_1_n_n.lhsIdx (ix2 r q) ((contrEquiv1 _ 128 rfl rfl).symm l) = ix2 r l := by
    funext ax; apply Fin.ext
    match ax with
    | ⟨0, _⟩ => exact lhs_u_0 _ _
    | ⟨1, _⟩ => exact (lhs_u_1 _ _).trans hl
  have e2 : dot_S2000x128_S128x128_S2000x128_1_0_0_1_n_n.rhsIdx (ix2 r q) ((contrEquiv1 _ 128 rfl rfl).symm l) = ix2 l q := by
    funext ax; apply Fin.ext
    match ax with
    | ⟨0, _⟩ => exact (rhs_u_0 _ _).trans hl
    | ⟨1, _⟩ => exact rhs_u_1 _ _
  rw [e1, e2]

/-- The left operand's row coordinate is the result's row. -/
theorem lhs_s_0 (j : S2000x16.Idx) (k : dot_S2000x128_S128x16_S2000x16_1_0_0_1_n_n.contr.Idx) :
    ((dot_S2000x128_S128x16_S2000x16_1_0_0_1_n_n.lhsIdx j k) 0).val = (j 0).val := by
  simp [DotDims.lhsIdx, dot_S2000x128_S128x16_S2000x16_1_0_0_1_n_n]; rfl

/-- The left operand's column coordinate is the contracted coordinate. -/
theorem lhs_s_1 (j : S2000x16.Idx) (k : dot_S2000x128_S128x16_S2000x16_1_0_0_1_n_n.contr.Idx) :
    ((dot_S2000x128_S128x16_S2000x16_1_0_0_1_n_n.lhsIdx j k) 1).val = (k ⟨0, by decide⟩).val := by
  simp [DotDims.lhsIdx, dot_S2000x128_S128x16_S2000x16_1_0_0_1_n_n]; rfl

/-- The right operand's row coordinate is the contracted coordinate. -/
theorem rhs_s_0 (j : S2000x16.Idx) (k : dot_S2000x128_S128x16_S2000x16_1_0_0_1_n_n.contr.Idx) :
    ((dot_S2000x128_S128x16_S2000x16_1_0_0_1_n_n.rhsIdx j k) 0).val = (k ⟨0, by decide⟩).val := by
  simp [DotDims.rhsIdx, dot_S2000x128_S128x16_S2000x16_1_0_0_1_n_n]; rfl

/-- The right operand's column coordinate is the result's column. -/
theorem rhs_s_1 (j : S2000x16.Idx) (k : dot_S2000x128_S128x16_S2000x16_1_0_0_1_n_n.contr.Idx) :
    ((dot_S2000x128_S128x16_S2000x16_1_0_0_1_n_n.rhsIdx j k) 1).val = (j 1).val := by
  simp [DotDims.rhsIdx, dot_S2000x128_S128x16_S2000x16_1_0_0_1_n_n]; rfl

/-- The second product into the zero accumulator, at an entry. -/
theorem mm_s_apply (x : FVec Ideal S2000x128 .f32) (w : FVec Ideal S128x16 .f32) (r : Fin 2000) (q : Fin 16) :
    matmul dot_S2000x128_S128x16_S2000x16_1_0_0_1_n_n none x w (constant (F := Ideal) S2000x16 .f32 0x00000000#32) (ix2 r q)
      = ∑ l : Fin 128, x (ix2 r l) * w (ix2 l q) := by
  show FloatOps.matmul _ none x w _ (ix2 r q) = _
  rw [Ideal.matmul_constant_zero_apply,
    ← Equiv.sum_comp (contrEquiv1 dot_S2000x128_S128x16_S2000x16_1_0_0_1_n_n 128 rfl rfl).symm]
  refine Finset.sum_congr rfl fun l _ => ?_
  have hl := contrEquiv1_symm_val dot_S2000x128_S128x16_S2000x16_1_0_0_1_n_n 128 rfl rfl l
  have e1 : dot_S2000x128_S128x16_S2000x16_1_0_0_1_n_n.lhsIdx (ix2 r q) ((contrEquiv1 _ 128 rfl rfl).symm l) = ix2 r l := by
    funext ax; apply Fin.ext
    match ax with
    | ⟨0, _⟩ => exact lhs_s_0 _ _
    | ⟨1, _⟩ => exact (lhs_s_1 _ _).trans hl
  have e2 : dot_S2000x128_S128x16_S2000x16_1_0_0_1_n_n.rhsIdx (ix2 r q) ((contrEquiv1 _ 128 rfl rfl).symm l) = ix2 l q := by
    funext ax; apply Fin.ext
    match ax with
    | ⟨0, _⟩ => exact (rhs_s_0 _ _).trans hl
    | ⟨1, _⟩ => exact rhs_s_1 _ _
  rw [e1, e2]

/-! ## The body's two stored values at an entry of the block -/

/-- The first stored value: the block of x times W_in (narrowing is the identity on the extended reals). -/
theorem pay1_apply (x : Vec Ideal S2000x128 .f32) (w : Vec Ideal S128x128 .f32) (r : Fin 2000) (q : Fin 128) :
    k0_pay1 (F := Ideal) x w (ix2 r q) = ∑ l : Fin 128, x (ix2 r l) * w (ix2 l q) := by
  unfold k0_pay1
  exact mm_u_apply x w r q

/-- The second stored value: 0.1 · (block of x times W_skip, plus the bias row). -/
theorem pay2_apply (x : Vec Ideal S2000x128 .f32) (w : Vec Ideal S128x16 .f32) (b : Vec Ideal S1x16 .f32) (r : Fin 2000) (q : Fin 16) :
    k0_pay2 (F := Ideal) x w b (ix2 r q) = Spec.c01 * ((∑ l : Fin 128, x (ix2 r l) * w (ix2 l q)) + b (ix2 0 q)) := by
  unfold k0_pay2
  show Spec.c01 * (matmul dot_S2000x128_S128x16_S2000x16_1_0_0_1_n_n none x w (constant (F := Ideal) S2000x16 .f32 0x00000000#32) (ix2 r q)
      + broadcastTo S2000x16 (shapeCast S1x16 b shapeCasts_S1x16_S1x16) broadcasts_S1x16_S2000x16 (ix2 r q)) = _
  rw [mm_s_apply, shapeCast_self]
  exact congrArg (fun z => Spec.c01 * (_ + z)) (broadcastTo_1b_ab_apply b broadcasts_S1x16_S2000x16 r q)

/-! ## The region's blocks as rows of the arrays -/

/-- The index maps over the five grid points: the row-blocked windows sit at block row t, the whole-array ones at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The block of x at point t is rows 2000·t … 2000·t + 1999 of x. -/
theorem iblk_x (c : Dev nD) (t : Fin cfg0.N) (r : Fin 2000) (l : Fin 128) (k : S10000x128.Idx)
    (hk0 : (k 0).val = t.val * 2000 + r.val) (hk1 : (k 1).val = l.val) :
    (iblk0 V c 0 t : Vec Ideal S2000x128 .f32) (ix2 r l) = (V c main_arg0 : S10000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * r.val = (k 0).val; rw [e0, hk0]; omega
  | ⟨1, _⟩ => show win0_0.index t (1 : Fin 2) * 128 + 1 * l.val = (k 1).val; rw [e1, hk1]; omega

/-- The block of W_in at every point is W_in. -/
theorem iblk_win (c : Dev nD) (t : Fin cfg0.N) (l : Fin 128) (q : Fin 128) :
    (iblk0 V c 1 t : Vec Ideal S128x128 .f32) (ix2 l q) = (V c main_arg2 : S128x128.Idx → EReal) (ix2 l q) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * l.val = l.val; rw [e0]; omega
  | ⟨1, _⟩ => show win0_1.index t (1 : Fin 2) * 128 + 1 * q.val = q.val; rw [e1]; omega

/-- The block of W_skip at every point is W_skip. -/
theorem iblk_wskip (c : Dev nD) (t : Fin cfg0.N) (l : Fin 128) (q : Fin 16) :
    (iblk0 V c 2 t : Vec Ideal S128x16 .f32) (ix2 l q) = (V c main_arg14 : S128x16.Idx → EReal) (ix2 l q) := by
  obtain ⟨-, -, -, -, e0, e1, -⟩ := idx_facts t
  unfold iblk0
  rw [View.read_apply]
  show V c main_arg14 _ = V c main_arg14 _
  congr 1
  funext a
  apply Fin.ext
  match a with
  | ⟨0, _⟩ => show win0_2.index t (0 : Fin 2) * 128 + 1 * l.val = l.val; rw [e0]; omega
  | ⟨1, _⟩ => show win0_2.index t (1 : Fin 2) * 16 + 1 * q.val = q.val; rw [e1]; omega

/-- The block of the bias row at every point is the bias row. -/
theorem iblk_b (c : Dev nD) (t : Fin cfg0.N) (z : Fin 1) (q : Fin 16) :
    (iblk0 V c 3 t : Vec Ideal S1x16 .f32) (ix2 z q) = (V c main_v9 : S1x16.Idx → EReal) (ix2 z q) := by
  obtain ⟨-, -, -, -, -, -, e0, e1, -⟩ := idx_facts t
  unfold iblk0
  rw [View.read_apply]
  show V c main_v9 _ = V c main_v9 _
  congr 1
  funext a
  apply Fin.ext
  match a with
  | ⟨0, _⟩ => show win0_3.index t (0 : Fin 2) * 1 + 1 * z.val = z.val; rw [e0]; omega
  | ⟨1, _⟩ => show win0_3.index t (1 : Fin 2) * 16 + 1 * q.val = q.val; rw [e1]; omega

/-- There are five grid points. -/
theorem t_lt (t : Fin cfg0.N) : t.val < 5 := by
  have h := t.isLt
  have hN : cfg0.N = 5 := N_0
  omega

/-- An entry of the first output's block at point t sits at row 2000·t + r of the array. -/
theorem emb_u1 (t : Fin cfg0.N) (r : Fin 2000) (q : Fin 128) (k : S10000x128.Idx)
    (hk0 : (k 0).val = t.val * 2000 + r.val) (hk1 : (k 1).val = q.val) :
    ((cfg0.win 4).blk t).view.emb (ix2 r q) = k := by
  obtain ⟨-, -, -, -, -, -, -, -, e0, e1, -⟩ := idx_facts t
  funext a
  apply Fin.ext
  match a with
  | ⟨0, _⟩ => show win0_4.index t (0 : Fin 2) * 2000 + 1 * r.val = (k 0).val; rw [e0, hk0]; omega
  | ⟨1, _⟩ => show win0_4.index t (1 : Fin 2) * 128 + 1 * q.val = (k 1).val; rw [e1, hk1]; omega

/-- An entry of the second output's block at point t sits at row 2000·t + r of the array. -/
theorem emb_skip (t : Fin cfg0.N) (r : Fin 2000) (q : Fin 16) (k : S10000x16.Idx)
    (hk0 : (k 0).val = t.val * 2000 + r.val) (hk1 : (k 1).val = q.val) :
    ((cfg0.win 5).blk t).view.emb (ix2 r q) = k := by
  obtain ⟨-, -, -, -, -, -, -, -, -, -, e0, e1⟩ := idx_facts t
  funext a
  apply Fin.ext
  match a with
  | ⟨0, _⟩ => show win0_5.index t (0 : Fin 2) * 2000 + 1 * r.val = (k 0).val; rw [e0, hk0]; omega
  | ⟨1, _⟩ => show win0_5.index t (1 : Fin 2) * 16 + 1 * q.val = (k 1).val; rw [e1, hk1]; omega

/-! ## The two output arrays as functions of the whole input arrays -/

/-- The product x · W_in, index by index. -/
def G_u1 (c : Dev nD) : S10000x128.Idx → EReal := fun i =>
  Spec.mm (Spec.cur2 (n0 := 10000) (n1 := 128) (V c main_arg0)) (Spec.cur2 (n0 := 128) (n1 := 128) (V c main_arg2))
    (i 0 : Fin 10000) (i 1 : Fin 128)

/-- The scaled skip connection, index by index. -/
def G_skip (c : Dev nD) : S10000x16.Idx → EReal := fun i =>
  Spec.skip (Spec.cur2 (n0 := 10000) (n1 := 128) (V c main_arg0)) (Spec.cur2 (n0 := 128) (n1 := 16) (V c main_arg14))
    (Spec.row (n := 16) (V c main_v9)) (i 0 : Fin 10000) (i 1 : Fin 16)

/-- The row of the array that entry r of block t is. -/
def rowOf (t : Fin cfg0.N) (r : Fin 2000) : Fin 10000 := ⟨t.val * 2000 + r.val, by have := t_lt t; have := r.isLt; omega⟩

/-- What point t writes back to the first output is block t of x · W_in. -/
theorem flushed_u1 (c : Dev nD) (t : Fin cfg0.N) :
    (dat0 V c).flushed 4 t = ((cfg0.win 4).blk t).view.read (Elt Ideal) (G_u1 V c) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz]
  funext j
  obtain ⟨r, q, rfl⟩ : ∃ (r : Fin 2000) (q : Fin 128), j = ix2 r q := ⟨j 0, j 1, eq_ix2 j⟩
  rw [View.read_apply, emb_u1 t r q (ix2 (rowOf t r) q) rfl rfl]
  show k0_pay1 (F := Ideal) (iblk0 V c 0 t) (iblk0 V c 1 t) (ix2 r q) = _
  refine (pay1_apply (iblk0 V c 0 t) (iblk0 V c 1 t) r q).trans ?_
  show _ = Spec.mm (Spec.cur2 (n0 := 10000) (n1 := 128) (V c main_arg0)) (Spec.cur2 (n0 := 128) (n1 := 128) (V c main_arg2)) (rowOf t r) q
  unfold Spec.mm
  refine Finset.sum_congr rfl fun l _ => ?_
  rw [iblk_x V c t r l (ix2 (rowOf t r) l) rfl rfl, iblk_win V c t l q]

/-- What point t writes back to the second output is block t of the scaled skip connection. -/
theorem flushed_skip (c : Dev nD) (t : Fin cfg0.N) :
    (dat0 V c).flushed 5 t = ((cfg0.win 5).blk t).view.read (Elt Ideal) (G_skip V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x16) hz, View.ld_unit_zero (S := S1x16) hz]
  funext j
  obtain ⟨r, q, rfl⟩ : ∃ (r : Fin 2000) (q : Fin 16), j = ix2 r q := ⟨j 0, j 1, eq_ix2 j⟩
  rw [View.read_apply, emb_skip t r q (ix2 (rowOf t r) q) rfl rfl]
  show k0_pay2 (F := Ideal) (iblk0 V c 0 t) (iblk0 V c 2 t) (iblk0 V c 3 t) (ix2 r q) = _
  refine (pay2_apply (iblk0 V c 0 t) (iblk0 V c 2 t) (iblk0 V c 3 t) r q).trans ?_
  show _ = Spec.skip (Spec.cur2 (n0 := 10000) (n1 := 128) (V c main_arg0)) (Spec.cur2 (n0 := 128) (n1 := 16) (V c main_arg14))
      (Spec.row (n := 16) (V c main_v9)) (rowOf t r) q
  unfold Spec.skip Spec.mm
  rw [iblk_b V c t 0 q]
  refine congrArg (fun z => Spec.c01 * (z + _)) (Finset.sum_congr rfl fun l _ => ?_)
  rw [iblk_x V c t r l (ix2 (rowOf t r) l) rfl rfl, iblk_wskip V c t l q]

/-! ## The blocks cover the arrays -/

/-- An index of the first output is in point t's block iff each coordinate is in the block's range. -/
theorem mem_blk_u1 (t : Fin cfg0.N) (i : S10000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole (Pipeline.arrRef spec0 4)).slice (win0_4.rect t)).set ↔ _
  rw [View.set_slice_whole, Rect.mem_set_unit]
  exact Iff.rfl

/-- An index of the second output is in point t's block iff each coordinate is in the block's range. -/
theorem mem_blk_skip (t : Fin cfg0.N) (i : S10000x16.Idx) :
    i ∈ ((cfg0.win 5).blk t).view.set ↔ ∀ a : Fin 2, win0_5.index t a * S2000x16.size a ≤ (i a).val ∧ (i a).val < win0_5.index t a * S2000x16.size a + S2000x16.size a := by
  show i ∈ ((View.whole (Pipeline.arrRef spec0 5)).slice (win0_5.rect t)).set ↔ _
  rw [View.set_slice_whole, Rect.mem_set_unit]
  exact Iff.rfl

/-- Row p of the first output is written back by point p / 2000. -/
theorem cover_u1 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 5 := N_0
  let t : Fin cfg0.N := ⟨(i 0).val / 2000, by rw [hN]; omega⟩
  have ht : t.val = (i 0).val / 2000 := rfl
  obtain ⟨-, -, -, -, -, -, -, -, e0, e1, -⟩ := idx_facts t
  refine ⟨t, flush0_4 t, ?_⟩
  rw [mem_blk_u1]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- Row p of the second output is written back by point p / 2000. -/
theorem cover_skip (i : S10000x16.Idx) :
    ∃ t : Fin cfg0.N, (cfg0.win 5).flush t = true ∧ i ∈ ((cfg0.win 5).blk t).view.set := by
  have hi0 : (i 0).val < 10000 := (i 0).isLt
  have hi1 : (i 1).val < 16 := (i 1).isLt
  have hN : cfg0.N = 5 := N_0
  let t : Fin cfg0.N := ⟨(i 0).val / 2000, by rw [hN]; omega⟩
  have ht : t.val = (i 0).val / 2000 := rfl
  obtain ⟨-, -, -, -, -, -, -, -, -, -, e0, e1⟩ := idx_facts t
  refine ⟨t, flush0_5 t, ?_⟩
  rw [mem_blk_skip]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 16 ≤ (i 1).val ∧ (i 1).val < win0_5.index t (1 : Fin 2) * 16 + 16; omega

/-! ## The arrays after the region -/

/-- After the first region its first output array holds the product x · W_in. -/
theorem arr_u1 (c : Dev nD) (p : Fin 10000) (q : Fin 128) :
    (dat0 V c).arrAt 4 cfg0.N (ix2 p q)
      = Spec.mm (Spec.cur2 (n0 := 10000) (n1 := 128) (V c main_arg0)) (Spec.cur2 (n0 := 128) (n1 := 128) (V c main_arg2)) p q := by
  have h := (dat0 V c).arrAt_eq_of_cover 4 (G_u1 V c) (fun t _ => flushed_u1 V c t) cover_u1
  rw [h]
  rfl

/-- After the first region its second output array holds the scaled skip connection 0.1 · (x · W_skip + b_skip). -/
theorem arr_skip (c : Dev nD) (p : Fin 10000) (q : Fin 16) :
    (dat0 V c).arrAt 5 cfg0.N (ix2 p q)
      = Spec.skip (Spec.cur2 (n0 := 10000) (n1 := 128) (V c main_arg0)) (Spec.cur2 (n0 := 128) (n1 := 16) (V c main_arg14))
          (Spec.row (n := 16) (V c main_v9)) p q := by
  have h := (dat0 V c).arrAt_eq_of_cover 5 (G_skip V c) (fun t _ => flushed_skip V c t) cover_skip
  rw [h]
  rfl

end Cert.KernelIdeal.Reg0

end
-- ==== Proof.KReg1.lean ====
/-
  Region 1 of the idealized kernel, read as values. Over a grid of fifty blocks of 200 rows, the body copies the block of
  the adjacency (a change of float format: the identity on the extended reals), multiplies it by u₁, adds the bias row,
  normalises each row (mean and biased variance over the 128 lanes, the centred row scaled by g times the reciprocal
  square root of variance + ε, plus β), rectifies, and multiplies the result by W_h. The reciprocal-root spelling equals
  the division by the square root because a variance plus ε is positive. Row r of block t is row 200·t + r of the array
  and the fifty blocks tile the rows, so the three output arrays hold the adjacency, h₁ = relu (LN (adj · u₁ + b_in)) and
  h₁ · W_h, entry by entry, for any entry contents.
-/
import proofs.«111547_g5291399708710_cont_9to1_m_243_4_alg».proof.Proof.Gen.KernelIdeal.Frame
import proofs.«111547_g5291399708710_cont_9to1_m_243_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen

/-! ## The two block products' operand indices, axis by axis -/

theorem lhsA_0 (j : S200x128.Idx) (k : dot_S200x10000_S10000x128_S200x128_1_0_0_1_n_n.contr.Idx) :
    (dot_S200x10000_S10000x128_S200x128_1_0_0_1_n_n.lhsIdx j k 0 : ℕ) = j 0 := by
  simp [DotDims.lhsIdx, dot_S200x10000_S10000x128_S200x128_1_0_0_1_n_n]; rfl
theorem lhsA_1 (j : S200x128.Idx) (k : dot_S200x10000_S10000x128_S200x128_1_0_0_1_n_n.contr.Idx) :
    (dot_S200x10000_S10000x128_S200x128_1_0_0_1_n_n.lhsIdx j k 1 : ℕ) = k ⟨0, by decide⟩ := by
  simp [DotDims.lhsIdx, dot_S200x10000_S10000x128_S200x128_1_0_0_1_n_n]; rfl
theorem rhsA_0 (j : S200x128.Idx) (k : dot_S200x10000_S10000x128_S200x128_1_0_0_1_n_n.contr.Idx) :
    (dot_S200x10000_S10000x128_S200x128_1_0_0_1_n_n.rhsIdx j k 0 : ℕ) = k ⟨0, by decide⟩ := by
  simp [DotDims.rhsIdx, dot_S200x10000_S10000x128_S200x128_1_0_0_1_n_n]; rfl
theorem rhsA_1 (j : S200x128.Idx) (k : dot_S200x10000_S10000x128_S200x128_1_0_0_1_n_n.contr.Idx) :
    (dot_S200x10000_S10000x128_S200x128_1_0_0_1_n_n.rhsIdx j k 1 : ℕ) = j 1 := by
  simp [DotDims.rhsIdx, dot_S200x10000_S10000x128_S200x128_1_0_0_1_n_n]; rfl

/-- The adjacency block times the feature array, read at an entry: the sum over the contracted coordinate. -/
theorem mmA_apply (x0 : FVec Ideal S200x10000 .bf16) (x1 : FVec Ideal S10000x128 .bf16) (r : Fin 200) (l : Fin 128) :
    FloatOps.matmul dot_S200x10000_S10000x128_S200x128_1_0_0_1_n_n none x0 x1 (constant (F := Ideal) S200x128 .f32 0x00000000#32) (ix2 r l)
      = ∑ k : Fin 10000, x0 (ix2 r k) * x1 (ix2 k l) := by
  rw [Ideal.matmul_constant_zero_apply,
    ← Equiv.sum_comp (contrEquiv1 dot_S200x10000_S10000x128_S200x128_1_0_0_1_n_n 10000 rfl rfl).symm]
  refine Finset.sum_congr rfl fun k _ => ?_
  have ck := contrEquiv1_symm_val dot_S200x10000_S10000x128_S200x128_1_0_0_1_n_n 10000 rfl rfl k
  have el : dot_S200x10000_S10000x128_S200x128_1_0_0_1_n_n.lhsIdx (ix2 r l)
      ((contrEquiv1 dot_S200x10000_S10000x128_S200x128_1_0_0_1_n_n 10000 rfl rfl).symm k) = ix2 r k := by
    funext a; apply Fin.ext
    match a with
    | ⟨0, _⟩ => exact lhsA_0 _ _
    | ⟨1, _⟩ => exact (lhsA_1 _ _).trans ck
  have er : dot_S200x10000_S10000x128_S200x128_1_0_0_1_n_n.rhsIdx (ix2 r l)
      ((contrEquiv1 dot_S200x10000_S10000x128_S200x128_1_0_0_1_n_n 10000 rfl rfl).symm k) = ix2 k l := by
    funext a; apply Fin.ext
    match a with
    | ⟨0, _⟩ => exact (rhsA_0 _ _).trans ck
    | ⟨1, _⟩ => exact rhsA_1 _ _
  rw [el, er]

theorem lhsB_0 (j : S200x128.Idx) (k : dot_S200x128_S128x128_S200x128_1_0_0_1_n_n.contr.Idx) :
    (dot_S200x128_S128x128_S200x128_1_0_0_1_n_n.lhsIdx j k 0 : ℕ) = j 0 := by
  simp [DotDims.lhsIdx, dot_S200x128_S128x128_S200x128_1_0_0_1_n_n]; rfl
theorem lhsB_1 (j : S200x128.Idx) (k : dot_S200x128_S128x128_S200x128_1_0_0_1_n_n.contr.Idx) :
    (dot_S200x128_S128x128_S200x128_1_0_0_1_n_n.lhsIdx j k 1 : ℕ) = k ⟨0, by decide⟩ := by
  simp [DotDims.lhsIdx, dot_S200x128_S128x128_S200x128_1_0_0_1_n_n]; rfl
theorem rhsB_0 (j : S200x128.Idx) (k : dot_S200x128_S128x128_S200x128_1_0_0_1_n_n.contr.Idx) :
    (dot_S200x128_S128x128_S200x128_1_0_0_1_n_n.rhsIdx j k 0 : ℕ) = k ⟨0, by decide⟩ := by
  simp [DotDims.rhsIdx, dot_S200x128_S128x128_S200x128_1_0_0_1_n_n]; rfl
theorem rhsB_1 (j : S200x128.Idx) (k : dot_S200x128_S128x128_S200x128_1_0_0_1_n_n.contr.Idx) :
    (dot_S200x128_S128x128_S200x128_1_0_0_1_n_n.rhsIdx j k 1 : ℕ) = j 1 := by
  simp [DotDims.rhsIdx, dot_S200x128_S128x128_S200x128_1_0_0_1_n_n]; rfl

/-- The activation block times the weight array, read at an entry. -/
theorem mmB_apply (x0 : FVec Ideal S200x128 .f32) (x1 : FVec Ideal S128x128 .f32) (r : Fin 200) (l : Fin 128) :
    FloatOps.matmul dot_S200x128_S128x128_S200x128_1_0_0_1_n_n none x0 x1 (constant (F := Ideal) S200x128 .f32 0x00000000#32) (ix2 r l)
      = ∑ k : Fin 128, x0 (ix2 r k) * x1 (ix2 k l) := by
  rw [Ideal.matmul_constant_zero_apply,
    ← Equiv.sum_comp (contrEquiv1 dot_S200x128_S128x128_S200x128_1_0_0_1_n_n 128 rfl rfl).symm]
  refine Finset.sum_congr rfl fun k _ => ?_
  have ck := contrEquiv1_symm_val dot_S200x128_S128x128_S200x128_1_0_0_1_n_n 128 rfl rfl k
  have el : dot_S200x128_S128x128_S200x128_1_0_0_1_n_n.lhsIdx (ix2 r l)
      ((contrEquiv1 dot_S200x128_S128x128_S200x128_1_0_0_1_n_n 128 rfl rfl).symm k) = ix2 r k := by
    funext a; apply Fin.ext
    match a with
    | ⟨0, _⟩ => exact lhsB_0 _ _
    | ⟨1, _⟩ => exact (lhsB_1 _ _).trans ck
  have er : dot_S200x128_S128x128_S200x128_1_0_0_1_n_n.rhsIdx (ix2 r l)
      ((contrEquiv1 dot_S200x128_S128x128_S200x128_1_0_0_1_n_n 128 rfl rfl).symm k) = ix2 k l := by
    funext a; apply Fin.ext
    match a with
    | ⟨0, _⟩ => exact (rhsB_0 _ _).trans ck
    | ⟨1, _⟩ => exact rhsB_1 _ _
  rw [el, er]

/-! ## The keepdims column forms, read at an index -/

section Column
variable {α : Type}

/-- An [a] array cast to [a, 1] reads, at (p, 0), the operand at p. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- The reciprocal square root of a vector, read at an index. -/
theorem rsqrt_apply {s : Shape} {φ : FTy} (a : FVec Ideal s φ) (i : s.Idx) : rsqrt a i = Ideal.rsqrt (a i) := rfl

/-- A row sum of a [200, 128] block, read at a row: the sum over the row's entries. -/
theorem rowsum_apply (src : FVec Ideal S200x128 .f32) (hφ : FKind.Formats .f32)
    (hacc : @Eq (BitVec FTy.f32.bits) 0x00000000#32 0x00000000#32) (r : Fin 200) :
    multiReduction (F := Ideal) .add [1] S200 src 0x00000000#32 reduces_S200x128_S200 hφ hacc (ix1 r)
      = ∑ l : Fin 128, src (ix2 r l) := by
  refine (Ideal.multiReduction_add_single src 0x00000000#32 reduces_S200x128_S200 hφ hacc (ix1 r)).trans ?_
  show ∑ l : Fin 128, src (reduces_S200x128_S200.lift (ix1 r) l) = _
  refine Finset.sum_congr rfl fun l _ => congrArg src ?_
  funext a
  match a with
  | ⟨0, _⟩ => rfl
  | ⟨1, _⟩ => rfl

/-- The same with the reduced axes as a variable. -/
theorem rowsum_apply' (src : FVec Ideal S200x128 .f32) (ax : List (Fin S200x128.rank)) (hax : ax = [1])
    (h : S200x128.Reduces ax S200) (hφ : FKind.Formats .f32)
    (hacc : @Eq (BitVec FTy.f32.bits) 0x00000000#32 0x00000000#32) (r : Fin 200) :
    multiReduction (F := Ideal) .add ax S200 src 0x00000000#32 h hφ hacc (ix1 r)
      = ∑ l : Fin 128, src (ix2 r l) := by
  subst hax
  exact rowsum_apply src hφ hacc r

/-! ## The body's arithmetic at an entry -/

/-- The first layer's activations at row r and lane j of a row block: the rectified layer normalisation (in its
    reciprocal-root spelling) of the row of adj · u + b. -/
theorem pay3_apply (x0 : Vec Ideal S200x10000 .f32) (x1 : Vec Ideal S10000x128 .bf16) (x2 x3 x4 : Vec Ideal S1x128 .f32)
    (r : Fin 200) (j : Fin 128) :
    k1_pay3 x0 x1 x2 x3 x4 (ix2 r j)
      = max (Spec.lnK Spec.c128 (fun l => (∑ k : Fin 10000, x0 (ix2 r k) * x1 (ix2 k l)) + x2 (ix2 (0 : Fin 1) l))
          (fun l => x3 (ix2 (0 : Fin 1) l)) (fun l => x4 (ix2 (0 : Fin 1) l)) j) Spec.c0 := by
  unfold k1_pay3 k1_pay2
  simp only [shapeCast_self, addf_apply, subf_apply, mulf_apply, divf_apply, maximumf_apply, broadcast_apply, rsqrt_apply,
    broadcastTo_1b_ab_apply, broadcastTo_a1_ab_apply, shapeCast_a_a1_apply, rowsum_apply' _ _ rfl, mmA_apply, truncf_apply]
  unfold Spec.lnK Spec.var Spec.mean
  rfl

/-- The second product of the body at an entry: the activations' row against a column of the weights (the change of
    float format after it is the identity on extended reals). -/
theorem pay1_apply (h : FVec Ideal S200x128 .f32) (x5 : Vec Ideal S128x128 .f32) (r : Fin 200) (j : Fin 128) :
    k1_pay1 h x5 (ix2 r j) = ∑ k : Fin 128, h (ix2 r k) * x5 (ix2 k j) := by
  unfold k1_pay1
  simp only [truncf_apply, mmB_apply]

/-! ## From blocks to the arrays -/

-- the buffer contents the region is entered with: any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's and the three outputs' row block is the point's number,
    every other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The array row that row r of point t's row block is. -/
def rowOf (t : Fin cfg1.N) (r : Fin 200) : Fin 10000 :=
  ⟨200 * t.val + r.val, by have h : t.val < 50 := lt_of_lt_of_eq t.isLt N_1; have := r.isLt; omega⟩

theorem rowOf_val (t : Fin cfg1.N) (r : Fin 200) : (rowOf t r).val = 200 * t.val + r.val := rfl

/-! ### The input blocks, read at an entry -/

theorem iblk0_apply (c : Dev nD) (t : Fin cfg1.N) (r : Fin 200) (l : Fin 10000) :
    (iblk1 V c 0 t : Vec Ideal S200x10000 .f32) (ix2 r l) = V c main_arg1 (ix2 (rowOf t r) l) := by
  obtain ⟨e0, e1, -⟩ := idx_facts t
  unfold iblk1
  rw [View.read_apply]
  show V c main_arg1 _ = V c main_arg1 _
  congr 1
  funext a
  apply Fin.ext
  match a with
  | ⟨0, _⟩ => show win1_0.index t 0 * 200 + 1 * r.val = 200 * t.val + r.val; rw [e0]; omega
  | ⟨1, _⟩ => show win1_0.index t 1 * 10000 + 1 * l.val = l.val; rw [e1]; omega

theorem iblk1_apply (c : Dev nD) (t : Fin cfg1.N) (k : Fin 10000) (l : Fin 128) :
    (iblk1 V c 1 t : Vec Ideal S10000x128 .bf16) (ix2 k l) = V c main_v10_0 (ix2 k l) := by
  obtain ⟨-, -, e0, e1, -⟩ := idx_facts t
  unfold iblk1
  rw [View.read_apply]
  show V c main_v10_0 _ = V c main_v10_0 _
  congr 1
  funext a
  apply Fin.ext
  match a with
  | ⟨0, _⟩ => show win1_1.index t 0 * 10000 + 1 * k.val = k.val; rw [e0]; omega
  | ⟨1, _⟩ => show win1_1.index t 1 * 128 + 1 * l.val = l.val; rw [e1]; omega

theorem iblk2_apply (c : Dev nD) (t : Fin cfg1.N) (k : Fin 1) (l : Fin 128) :
    (iblk1 V c 2 t : Vec Ideal S1x128 .f32) (ix2 k l) = V c main_v0 (ix2 k l) := by
  obtain ⟨-, -, -, -, e0, e1, -⟩ := idx_facts t
  unfold iblk1
  rw [View.read_apply]
  show V c main_v0 _ = V c main_v0 _
  congr 1
  funext a
  apply Fin.ext
  match a with
  | ⟨0, _⟩ => show win1_2.index t 0 * 1 + 1 * k.val = k.val; rw [e0]; omega
  | ⟨1, _⟩ => show win1_2.index t 1 * 128 + 1 * l.val = l.val; rw [e1]; omega

theorem iblk3_apply (c : Dev nD) (t : Fin cfg1.N) (k : Fin 1) (l : Fin 128) :
    (iblk1 V c 3 t : Vec Ideal S1x128 .f32) (ix2 k l) = V c main_v1 (ix2 k l) := by
  obtain ⟨-, -, -, -, -, -, e0, e1, -⟩ := idx_facts t
  unfold iblk1
  rw [View.read_apply]
  show V c main_v1 _ = V c main_v1 _
  congr 1
  funext a
  apply Fin.ext
  match a with
  | ⟨0, _⟩ => show win1_3.index t 0 * 1 + 1 * k.val = k.val; rw [e0]; omega
  | ⟨1, _⟩ => show win1_3.index t 1 * 128 + 1 * l.val = l.val; rw [e1]; omega

theorem iblk4_apply (c : Dev nD) (t : Fin cfg1.N) (k : Fin 1) (l : Fin 128) :
    (iblk1 V c 4 t : Vec Ideal S1x128 .f32) (ix2 k l) = V c main_v2 (ix2 k l) := by
  obtain ⟨-, -, -, -, -, -, -, -, e0, e1, -⟩ := idx_facts t
  unfold iblk1
  rw [View.read_apply]
  show V c main_v2 _ = V c main_v2 _
  congr 1
  funext a
  apply Fin.ext
  match a with
  | ⟨0, _⟩ => show win1_4.index t 0 * 1 + 1 * k.val = k.val; rw [e0]; omega
  | ⟨1, _⟩ => show win1_4.index t 1 * 128 + 1 * l.val = l.val; rw [e1]; omega

theorem iblk5_apply (c : Dev nD) (t : Fin cfg1.N) (k : Fin 128) (l : Fin 128) :
    (iblk1 V c 5 t : Vec Ideal S128x128 .f32) (ix2 k l) = V c main_arg6 (ix2 k l) := by
  obtain ⟨-, -, -, -, -, -, -, -, -, -, e0, e1, -⟩ := idx_facts t
  unfold iblk1
  rw [View.read_apply]
  show V c main_arg6 _ = V c main_arg6 _
  congr 1
  funext a
  apply Fin.ext
  match a with
  | ⟨0, _⟩ => show win1_5.index t 0 * 128 + 1 * k.val = k.val; rw [e0]; omega
  | ⟨1, _⟩ => show win1_5.index t 1 * 128 + 1 * l.val = l.val; rw [e1]; omega

/-! ### The first layer's activations at an entry of a row block -/

/-- Row r of point t's block of the body's activations is row rowOf t r of the first layer's. -/
theorem h_entry (c : Dev nD) (t : Fin cfg1.N) (r : Fin 200) (q : Fin 128) :
    k1_pay3 (iblk1 V c 0 t) (iblk1 V c 1 t) (iblk1 V c 2 t) (iblk1 V c 3 t) (iblk1 V c 4 t) (ix2 r q)
      = Spec.h1 (Spec.cur2 (n0 := 10000) (n1 := 10000) (V c main_arg1)) (Spec.cur2 (n0 := 10000) (n1 := 128) (V c main_v10_0))
          (Spec.row (n := 128) (V c main_v0)) (Spec.row (n := 128) (V c main_v1)) (Spec.row (n := 128) (V c main_v2)) (rowOf t r) q := by
  rw [pay3_apply (iblk1 V c 0 t) (iblk1 V c 1 t) (iblk1 V c 2 t) (iblk1 V c 3 t) (iblk1 V c 4 t) r q,
    Spec.lnK_eq_ln _ Spec.c128_pos]
  simp only [iblk0_apply, iblk1_apply, iblk2_apply, iblk3_apply, iblk4_apply]
  rfl

/-! ### Where a row block's entries sit in the output arrays -/

theorem emb6 (t : Fin cfg1.N) (r : Fin 200) (l : Fin 10000) :
    ((cfg1.win 6).blk t).view.emb (ix2 r l) = ix2 (rowOf t r) l := by
  obtain ⟨-, -, -, -, -, -, -, -, -, -, -, -, e0, e1, -⟩ := idx_facts t
  funext a
  apply Fin.ext
  match a with
  | ⟨0, _⟩ => show win1_6.index t 0 * 200 + 1 * r.val = 200 * t.val + r.val; rw [e0]; omega
  | ⟨1, _⟩ => show win1_6.index t 1 * 10000 + 1 * l.val = l.val; rw [e1]; omega

theorem emb7 (t : Fin cfg1.N) (r : Fin 200) (l : Fin 128) :
    ((cfg1.win 7).blk t).view.emb (ix2 r l) = ix2 (rowOf t r) l := by
  obtain ⟨-, -, -, -, -, -, -, -, -, -, -, -, -, -, e0, e1, -⟩ := idx_facts t
  funext a
  apply Fin.ext
  match a with
  | ⟨0, _⟩ => show win1_7.index t 0 * 200 + 1 * r.val = 200 * t.val + r.val; rw [e0]; omega
  | ⟨1, _⟩ => show win1_7.index t 1 * 128 + 1 * l.val = l.val; rw [e1]; omega

theorem emb8 (t : Fin cfg1.N) (r : Fin 200) (l : Fin 128) :
    ((cfg1.win 8).blk t).view.emb (ix2 r l) = ix2 (rowOf t r) l := by
  obtain ⟨-, -, -, -, -, -, -, -, -, -, -, -, -, -, -, -, e0, e1⟩ := idx_facts t
  funext a
  apply Fin.ext
  match a with
  | ⟨0, _⟩ => show win1_8.index t 0 * 200 + 1 * r.val = 200 * t.val + r.val; rw [e0]; omega
  | ⟨1, _⟩ => show win1_8.index t 1 * 128 + 1 * l.val = l.val; rw [e1]; omega

/-! ### What the three output arrays end holding -/

/-- The adjacency. -/
abbrev G6 (c : Dev nD) : S10000x10000.Idx → EReal := fun i => V c main_arg1 i

/-- The first layer's activations. -/
abbrev G7 (c : Dev nD) : S10000x128.Idx → EReal := fun i =>
  Spec.h1 (Spec.cur2 (n0 := 10000) (n1 := 10000) (V c main_arg1)) (Spec.cur2 (n0 := 10000) (n1 := 128) (V c main_v10_0))
          (Spec.row (n := 128) (V c main_v0)) (Spec.row (n := 128) (V c main_v1)) (Spec.row (n := 128) (V c main_v2)) (i 0) (i 1)

/-- Those activations times W_h. -/
abbrev G8 (c : Dev nD) : S10000x128.Idx → EReal := fun i =>
  Spec.mm (Spec.h1 (Spec.cur2 (n0 := 10000) (n1 := 10000) (V c main_arg1)) (Spec.cur2 (n0 := 10000) (n1 := 128) (V c main_v10_0))
          (Spec.row (n := 128) (V c main_v0)) (Spec.row (n := 128) (V c main_v1)) (Spec.row (n := 128) (V c main_v2)))
    (Spec.cur2 (n0 := 128) (n1 := 128) (V c main_arg6)) (i 0) (i 1)

/-! ### What each point writes back -/

theorem flushed6_eq (c : Dev nD) (t : Fin cfg1.N) :
    (dat1 V c).flushed 6 t = ((cfg1.win 6).blk t).view.read (Elt Ideal) (G6 V c) := by
  show (cfg1.win 6).cut (grid1.coords t) ((dat1 V c).after 6 t) = _
  rw [after1_6]
  unfold out1_6
  rw [View.canon_unit_zero hz]
  simp only [View.ld_unit_zero (S := S200x10000) hz]
  funext j
  obtain ⟨r, l, rfl⟩ : ∃ (r : Fin 200) (l : Fin 10000), j = ix2 r l := ⟨j 0, j 1, eq_ix2 j⟩
  rw [View.read_apply]
  show iblk1 V c 0 t (ix2 r l) = V c main_arg1 (((cfg1.win 6).blk t).view.emb (ix2 r l))
  rw [emb6]
  exact iblk0_apply V c t r l

theorem flushed7_eq (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7]
  unfold out1_7
  rw [View.canon_unit_zero hz]
  simp only [View.ld_unit_zero (S := S200x10000) hz, View.ld_unit_zero (S := S10000x128) hz,
    View.ld_unit_zero (S := S1x128) hz]
  funext j
  obtain ⟨r, l, rfl⟩ : ∃ (r : Fin 200) (l : Fin 128), j = ix2 r l := ⟨j 0, j 1, eq_ix2 j⟩
  rw [View.read_apply]
  show k1_pay3 (iblk1 V c 0 t) (iblk1 V c 1 t) (iblk1 V c 2 t) (iblk1 V c 3 t) (iblk1 V c 4 t) (ix2 r l)
    = G7 V c (((cfg1.win 7).blk t).view.emb (ix2 r l))
  rw [emb7, h_entry]

theorem flushed8_eq (c : Dev nD) (t : Fin cfg1.N) :
    (dat1 V c).flushed 8 t = ((cfg1.win 8).blk t).view.read (Elt Ideal) (G8 V c) := by
  show (cfg1.win 8).cut (grid1.coords t) ((dat1 V c).after 8 t) = _
  rw [after1_8]
  unfold out1_8
  rw [View.canon_unit_zero hz]
  simp only [View.ld_unit_zero (S := S200x10000) hz, View.ld_unit_zero (S := S10000x128) hz,
    View.ld_unit_zero (S := S1x128) hz, View.ld_unit_zero (S := S128x128) hz]
  funext j
  obtain ⟨r, l, rfl⟩ : ∃ (r : Fin 200) (l : Fin 128), j = ix2 r l := ⟨j 0, j 1, eq_ix2 j⟩
  rw [View.read_apply]
  show k1_pay1 (k1_pay3 (iblk1 V c 0 t) (iblk1 V c 1 t) (iblk1 V c 2 t) (iblk1 V c 3 t) (iblk1 V c 4 t)) (iblk1 V c 5 t) (ix2 r l)
    = G8 V c (((cfg1.win 8).blk t).view.emb (ix2 r l))
  rw [emb8, pay1_apply (k1_pay3 (iblk1 V c 0 t) (iblk1 V c 1 t) (iblk1 V c 2 t) (iblk1 V c 3 t) (iblk1 V c 4 t)) (iblk1 V c 5 t) r l]
  show _ = ∑ k : Fin 128, Spec.h1 (Spec.cur2 (n0 := 10000) (n1 := 10000) (V c main_arg1)) (Spec.cur2 (n0 := 10000) (n1 := 128) (V c main_v10_0))
          (Spec.row (n := 128) (V c main_v0)) (Spec.row (n := 128) (V c main_v1)) (Spec.row (n := 128) (V c main_v2)) (rowOf t r) k * V c main_arg6 (ix2 k l)
  refine Finset.sum_congr rfl fun k _ => ?_
  rw [h_entry, iblk5_apply]

/-! ### The row blocks cover the arrays -/

theorem mem_blk6 (t : Fin cfg1.N) (i : S10000x10000.Idx) :
    i ∈ ((cfg1.win 6).blk t).view.set ↔ ∀ a : Fin 2, win1_6.index t a * S200x10000.size a ≤ (i a).val ∧ (i a).val < win1_6.index t a * S200x10000.size a + S200x10000.size a := by
  show i ∈ ((View.whole main_v11_0).slice (win1_6.rect t)).set ↔ _
  rw [View.set_slice_whole, Rect.mem_set_unit]
  exact Iff.rfl

theorem mem_blk7 (t : Fin cfg1.N) (i : S10000x128.Idx) :
    i ∈ ((cfg1.win 7).blk t).view.set ↔ ∀ a : Fin 2, win1_7.index t a * S200x128.size a ≤ (i a).val ∧ (i a).val < win1_7.index t a * S200x128.size a + S200x128.size a := by
  show i ∈ ((View.whole main_v11_1).slice (win1_7.rect t)).set ↔ _
  rw [View.set_slice_whole, Rect.mem_set_unit]
  exact Iff.rfl

theorem mem_blk8 (t : Fin cfg1.N) (i : S10000x128.Idx) :
    i ∈ ((cfg1.win 8).blk t).view.set ↔ ∀ a : Fin 2, win1_8.index t a * S200x128.size a ≤ (i a).val ∧ (i a).val < win1_8.index t a * S200x128.size a + S200x128.size a := by
  show i ∈ ((View.whole main_v11_2).slice (win1_8.rect t)).set ↔ _
  rw [View.set_slice_whole, Rect.mem_set_unit]
  exact Iff.rfl

/-- The point whose row block holds array row p. -/
def ptOf (p : Nat) (hp : p < 10000) : Fin cfg1.N := ⟨p / 200, by rw [show cfg1.N = 50 from N_1]; omega⟩

theorem cover6 (i : S10000x10000.Idx) :
    ∃ t : Fin cfg1.N, (cfg1.win 6).flush t = true ∧ i ∈ ((cfg1.win 6).blk t).view.set := by
  have hi0 : (i 0).val < 10000 := (i 0).isLt
  have hi1 : (i 1).val < 10000 := (i 1).isLt
  obtain ⟨-, -, -, -, -, -, -, -, -, -, -, -, e0, e1, -⟩ := idx_facts (ptOf (i 0).val hi0)
  refine ⟨ptOf (i 0).val hi0, flush1_6 _, ?_⟩
  rw [mem_blk6]
  intro a
  match a with
  | ⟨0, _⟩ =>
    show win1_6.index (ptOf (i 0).val hi0) 0 * 200 ≤ (i 0).val ∧ (i 0).val < win1_6.index (ptOf (i 0).val hi0) 0 * 200 + 200
    rw [e0]
    show (i 0).val / 200 * 200 ≤ (i 0).val ∧ (i 0).val < (i 0).val / 200 * 200 + 200
    omega
  | ⟨1, _⟩ =>
    show win1_6.index (ptOf (i 0).val hi0) 1 * 10000 ≤ (i 1).val ∧ (i 1).val < win1_6.index (ptOf (i 0).val hi0) 1 * 10000 + 10000
    rw [e1]
    omega

theorem cover7 (i : S10000x128.Idx) :
    ∃ t : Fin cfg1.N, (cfg1.win 7).flush t = true ∧ i ∈ ((cfg1.win 7).blk t).view.set := by
  have hi0 : (i 0).val < 10000 := (i 0).isLt
  have hi1 : (i 1).val < 128 := (i 1).isLt
  obtain ⟨-, -, -, -, -, -, -, -, -, -, -, -, -, -, e0, e1, -⟩ := idx_facts (ptOf (i 0).val hi0)
  refine ⟨ptOf (i 0).val hi0, flush1_7 _, ?_⟩
  rw [mem_blk7]
  intro a
  match a with
  | ⟨0, _⟩ =>
    show win1_7.index (ptOf (i 0).val hi0) 0 * 200 ≤ (i 0).val ∧ (i 0).val < win1_7.index (ptOf (i 0).val hi0) 0 * 200 + 200
    rw [e0]
    show (i 0).val / 200 * 200 ≤ (i 0).val ∧ (i 0).val < (i 0).val / 200 * 200 + 200
    omega
  | ⟨1, _⟩ =>
    show win1_7.index (ptOf (i 0).val hi0) 1 * 128 ≤ (i 1).val ∧ (i 1).val < win1_7.index (ptOf (i 0).val hi0) 1 * 128 + 128
    rw [e1]
    omega

theorem cover8 (i : S10000x128.Idx) :
    ∃ t : Fin cfg1.N, (cfg1.win 8).flush t = true ∧ i ∈ ((cfg1.win 8).blk t).view.set := by
  have hi0 : (i 0).val < 10000 := (i 0).isLt
  have hi1 : (i 1).val < 128 := (i 1).isLt
  obtain ⟨-, -, -, -, -, -, -, -, -, -, -, -, -, -, -, -, e0, e1⟩ := idx_facts (ptOf (i 0).val hi0)
  refine ⟨ptOf (i 0).val hi0, flush1_8 _, ?_⟩
  rw [mem_blk8]
  intro a
  match a with
  | ⟨0, _⟩ =>
    show win1_8.index (ptOf (i 0).val hi0) 0 * 200 ≤ (i 0).val ∧ (i 0).val < win1_8.index (ptOf (i 0).val hi0) 0 * 200 + 200
    rw [e0]
    show (i 0).val / 200 * 200 ≤ (i 0).val ∧ (i 0).val < (i 0).val / 200 * 200 + 200
    omega
  | ⟨1, _⟩ =>
    show win1_8.index (ptOf (i 0).val hi0) 1 * 128 ≤ (i 1).val ∧ (i 1).val < win1_8.index (ptOf (i 0).val hi0) 1 * 128 + 128
    rw [e1]
    omega

/-! ### The arrays after the region -/

/-- The second region's first output array is the adjacency it read (a change of float format only). -/
theorem arr_adjq (c : Dev nD) (p q : Fin 10000) :
    (dat1 V c).arrAt 6 cfg1.N (ix2 p q) = V c main_arg1 (ix2 p q) := by
  rw [(dat1 V c).arrAt_eq_of_cover 6 (G6 V c) (fun t _ => flushed6_eq V c t) cover6]

/-- Its second output array holds the first layer's activations. -/
theorem arr_h1 (c : Dev nD) (p : Fin 10000) (q : Fin 128) :
    (dat1 V c).arrAt 7 cfg1.N (ix2 p q)
      = Spec.h1 (Spec.cur2 (n0 := 10000) (n1 := 10000) (V c main_arg1)) (Spec.cur2 (n0 := 10000) (n1 := 128) (V c main_v10_0))
          (Spec.row (n := 128) (V c main_v0)) (Spec.row (n := 128) (V c main_v1)) (Spec.row (n := 128) (V c main_v2)) p q := by
  rw [(dat1 V c).arrAt_eq_of_cover 7 (G7 V c) (fun t _ => flushed7_eq V c t) cover7]

/-- Its third output array holds those activations times W_h. -/
theorem arr_u2 (c : Dev nD) (p : Fin 10000) (q : Fin 128) :
    (dat1 V c).arrAt 8 cfg1.N (ix2 p q)
      = Spec.mm (Spec.h1 (Spec.cur2 (n0 := 10000) (n1 := 10000) (V c main_arg1)) (Spec.cur2 (n0 := 10000) (n1 := 128) (V c main_v10_0))
          (Spec.row (n := 128) (V c main_v0)) (Spec.row (n := 128) (V c main_v1)) (Spec.row (n := 128) (V c main_v2)))
          (Spec.cur2 (n0 := 128) (n1 := 128) (V c main_arg6)) p q := by
  rw [(dat1 V c).arrAt_eq_of_cover 8 (G8 V c) (fun t _ => flushed8_eq V c t) cover8]

end Cert.KernelIdeal.Reg1

end
-- ==== Proof.KReg2.lean ====
/-
  Region 2 of the idealized kernel, read as values. Over a grid of ten blocks of 1000 rows, the body multiplies the block
  of the copied adjacency by u₂, adds the bias row, normalises each row over its 128 lanes (reciprocal-root spelling, equal
  to the division by the square root since a variance plus ε is positive), rectifies, adds the block of h₁ and multiplies
  by W_out. Row r of block t is row 1000·t + r and the ten blocks tile the rows, so the output array holds
  (relu (LN (adj · u₂ + b_h)) + h₁) · W_out, entry by entry, for any entry contents.
-/
import proofs.«111547_g5291399708710_cont_9to1_m_243_4_alg».proof.Proof.Gen.KernelIdeal.Frame
import proofs.«111547_g5291399708710_cont_9to1_m_243_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.SL.Sem Idealize.ShloMosaic.ValueIdx
open Idealize.ShloMosaic.Pipeline (Dat)
open Cert.KernelIdeal Cert.KernelIdeal.Gen

/-! ## The two block products' operand indices, axis by axis -/

theorem lhsA_0 (j : S1000x128.Idx) (k : dot_S1000x10000_S10000x128_S1000x128_1_0_0_1_n_n.contr.Idx) :
    (dot_S1000x10000_S10000x128_S1000x128_1_0_0_1_n_n.lhsIdx j k 0 : ℕ) = j 0 := by
  simp [DotDims.lhsIdx, dot_S1000x10000_S10000x128_S1000x128_1_0_0_1_n_n]; rfl
theorem lhsA_1 (j : S1000x128.Idx) (k : dot_S1000x10000_S10000x128_S1000x128_1_0_0_1_n_n.contr.Idx) :
    (dot_S1000x10000_S10000x128_S1000x128_1_0_0_1_n_n.lhsIdx j k 1 : ℕ) = k ⟨0, by decide⟩ := by
  simp [DotDims.lhsIdx, dot_S1000x10000_S10000x128_S1000x128_1_0_0_1_n_n]; rfl
theorem rhsA_0 (j : S1000x128.Idx) (k : dot_S1000x10000_S10000x128_S1000x128_1_0_0_1_n_n.contr.Idx) :
    (dot_S1000x10000_S10000x128_S1000x128_1_0_0_1_n_n.rhsIdx j k 0 : ℕ) = k ⟨0, by decide⟩ := by
  simp [DotDims.rhsIdx, dot_S1000x10000_S10000x128_S1000x128_1_0_0_1_n_n]; rfl
theorem rhsA_1 (j : S1000x128.Idx) (k : dot_S1000x10000_S10000x128_S1000x128_1_0_0_1_n_n.contr.Idx) :
    (dot_S1000x10000_S10000x128_S1000x128_1_0_0_1_n_n.rhsIdx j k 1 : ℕ) = j 1 := by
  simp [DotDims.rhsIdx, dot_S1000x10000_S10000x128_S1000x128_1_0_0_1_n_n]; rfl

theorem lhsB_0 (j : S1000x16.Idx) (k : dot_S1000x128_S128x16_S1000x16_1_0_0_1_n_n.contr.Idx) :
    (dot_S1000x128_S128x16_S1000x16_1_0_0_1_n_n.lhsIdx j k 0 : ℕ) = j 0 := by
  simp [DotDims.lhsIdx, dot_S1000x128_S128x16_S1000x16_1_0_0_1_n_n]; rfl
theorem lhsB_1 (j : S1000x16.Idx) (k : dot_S1000x128_S128x16_S1000x16_1_0_0_1_n_n.contr.Idx) :
    (dot_S1000x128_S128x16_S1000x16_1_0_0_1_n_n.lhsIdx j k 1 : ℕ) = k ⟨0, by decide⟩ := by
  simp [DotDims.lhsIdx, dot_S1000x128_S128x16_S1000x16_1_0_0_1_n_n]; rfl
theorem rhsB_0 (j : S1000x16.Idx) (k : dot_S1000x128_S128x16_S1000x16_1_0_0_1_n_n.contr.Idx) :
    (dot_S1000x128_S128x16_S1000x16_1_0_0_1_n_n.rhsIdx j k 0 : ℕ) = k ⟨0, by decide⟩ := by
  simp [DotDims.rhsIdx, dot_S1000x128_S128x16_S1000x16_1_0_0_1_n_n]; rfl
theorem rhsB_1 (j : S1000x16.Idx) (k : dot_S1000x128_S128x16_S1000x16_1_0_0_1_n_n.contr.Idx) :
    (dot_S1000x128_S128x16_S1000x16_1_0_0_1_n_n.rhsIdx j k 1 : ℕ) = j 1 := by
  simp [DotDims.rhsIdx, dot_S1000x128_S128x16_S1000x16_1_0_0_1_n_n]; rfl

/-! ## The two block products, read at an entry -/

/-- The adjacency block times the feature array, read at an entry: the sum over the contracted coordinate. -/
theorem mmA_apply (x : FVec Ideal S1000x10000 .bf16) (y : FVec Ideal S10000x128 .bf16) (r : Fin 1000) (l : Fin 128) :
    FloatOps.matmul dot_S1000x10000_S10000x128_S1000x128_1_0_0_1_n_n none x y (constant (F := Ideal) S1000x128 .f32 0x00000000#32) (ix2 r l)
      = ∑ k : Fin 10000, x (ix2 r k) * y (ix2 k l) := by
  rw [Ideal.matmul_constant_zero_apply,
    ← Equiv.sum_comp (contrEquiv1 dot_S1000x10000_S10000x128_S1000x128_1_0_0_1_n_n 10000 rfl rfl).symm]
  refine Finset.sum_congr rfl fun k _ => ?_
  have ck := contrEquiv1_symm_val dot_S1000x10000_S10000x128_S1000x128_1_0_0_1_n_n 10000 rfl rfl k
  have el : dot_S1000x10000_S10000x128_S1000x128_1_0_0_1_n_n.lhsIdx (ix2 r l)
      ((contrEquiv1 dot_S1000x10000_S10000x128_S1000x128_1_0_0_1_n_n 10000 rfl rfl).symm k) = ix2 r k := by
    funext a; apply Fin.ext
    match a with
    | ⟨0, _⟩ => exact lhsA_0 _ _
    | ⟨1, _⟩ => exact (lhsA_1 _ _).trans ck
  have er : dot_S1000x10000_S10000x128_S1000x128_1_0_0_1_n_n.rhsIdx (ix2 r l)
      ((contrEquiv1 dot_S1000x10000_S10000x128_S1000x128_1_0_0_1_n_n 10000 rfl rfl).symm k) = ix2 k l := by
    funext a; apply Fin.ext
    match a with
    | ⟨0, _⟩ => exact (rhsA_0 _ _).trans ck
    | ⟨1, _⟩ => exact rhsA_1 _ _
  rw [el, er]

/-- The activation block times the output weights, read at an entry: the sum over the hidden coordinate. -/
theorem mmB_apply (x : FVec Ideal S1000x128 .f32) (y : FVec Ideal S128x16 .f32) (r : Fin 1000) (l : Fin 16) :
    FloatOps.matmul dot_S1000x128_S128x16_S1000x16_1_0_0_1_n_n none x y (constant (F := Ideal) S1000x16 .f32 0x00000000#32) (ix2 r l)
      = ∑ k : Fin 128, x (ix2 r k) * y (ix2 k l) := by
  rw [Ideal.matmul_constant_zero_apply,
    ← Equiv.sum_comp (contrEquiv1 dot_S1000x128_S128x16_S1000x16_1_0_0_1_n_n 128 rfl rfl).symm]
  refine Finset.sum_congr rfl fun k _ => ?_
  have ck := contrEquiv1_symm_val dot_S1000x128_S128x16_S1000x16_1_0_0_1_n_n 128 rfl rfl k
  have el : dot_S1000x128_S128x16_S1000x16_1_0_0_1_n_n.lhsIdx (ix2 r l)
      ((contrEquiv1 dot_S1000x128_S128x16_S1000x16_1_0_0_1_n_n 128 rfl rfl).symm k) = ix2 r k := by
    funext a; apply Fin.ext
    match a with
    | ⟨0, _⟩ => exact lhsB_0 _ _
    | ⟨1, _⟩ => exact (lhsB_1 _ _).trans ck
  have er : dot_S1000x128_S128x16_S1000x16_1_0_0_1_n_n.rhsIdx (ix2 r l)
      ((contrEquiv1 dot_S1000x128_S128x16_S1000x16_1_0_0_1_n_n 128 rfl rfl).symm k) = ix2 k l := by
    funext a; apply Fin.ext
    match a with
    | ⟨0, _⟩ => exact (rhsB_0 _ _).trans ck
    | ⟨1, _⟩ => exact rhsB_1 _ _
  rw [el, er]

/-! ## The keepdims column forms, read at an index -/

section Column
variable {α : Type}

/-- An `[a]` array cast to `[a, 1]` reads, at `(p, 0)`, the operand at `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- The reciprocal square root of a vector, read at an index. -/
theorem rsqrt_apply {s : Shape} {φ : FTy} (a : FVec Ideal s φ) (i : s.Idx) : rsqrt a i = Ideal.rsqrt (a i) := rfl

/-- A row sum of a [1000, 128] block, read at a row: the sum over the row's entries. -/
theorem rowsum_apply (src : FVec Ideal S1000x128 .f32) (hφ : FKind.Formats .f32)
    (hacc : (0x00000000#32 : BitVec 32) = 0x00000000#32) (r : Fin 1000) :
    multiReduction (F := Ideal) .add [1] S1000 src 0x00000000#32 reduces_S1000x128_S1000 hφ hacc (ix1 r)
      = ∑ l : Fin 128, src (ix2 r l) := by
  refine (Ideal.multiReduction_add_single src 0x00000000#32 reduces_S1000x128_S1000 hφ hacc (ix1 r)).trans ?_
  show ∑ l : Fin 128, src (reduces_S1000x128_S1000.lift (ix1 r) l) = _
  refine Finset.sum_congr rfl fun l _ => congrArg src ?_
  funext a
  match a with
  | ⟨0, _⟩ => rfl
  | ⟨1, _⟩ => rfl

/-! ## The body's arithmetic, stage by stage -/

/-- The pre-activation block: the adjacency block times the features, plus the bias row. -/
def preBlk (x0 : Vec Ideal S1000x10000 .bf16) (x1 : Vec Ideal S10000x128 .bf16) (x2 : Vec Ideal S1x128 .f32) : FVec Ideal S1000x128 .f32 :=
  addf (matmul dot_S1000x10000_S10000x128_S1000x128_1_0_0_1_n_n none (shapeCast S1000x10000 x0 shapeCasts_S1000x10000_S1000x10000 : FVec Ideal S1000x10000 .bf16)
      (shapeCast S10000x128 x1 shapeCasts_S10000x128_S10000x128 : FVec Ideal S10000x128 .bf16) (constant S1000x128 .f32 0x00000000#32))
    (broadcastTo S1000x128 (shapeCast S1x128 x2 shapeCasts_S1x128_S1x128) broadcasts_S1x128_S1000x128)

/-- The column of row means of a block. -/
def meanCol (a : FVec Ideal S1000x128 .f32) : FVec Ideal S1000x1 .f32 :=
  divf (shapeCast S1000x1 (multiReduction .add [1] S1000 a 0x00000000#32 reduces_S1000x128_S1000 (.inl rfl) rfl) shapeCasts_S1000_S1000x1)
    (broadcast S1000x1 (Scalar.ofBits .f32 0x43000000#32))

/-- The block with each row's mean taken off. -/
def cent (a : FVec Ideal S1000x128 .f32) : FVec Ideal S1000x128 .f32 :=
  subf a (broadcastTo S1000x128 (meanCol a) broadcasts_S1000x1_S1000x128)

/-- The column of row variances of a block. -/
def varCol (a : FVec Ideal S1000x128 .f32) : FVec Ideal S1000x1 .f32 :=
  divf (shapeCast S1000x1 (multiReduction .add [1] S1000 (mulf (cent a) (cent a)) 0x00000000#32 reduces_S1000x128_S1000 (.inl rfl) rfl) shapeCasts_S1000_S1000x1)
    (broadcast S1000x1 (Scalar.ofBits .f32 0x43000000#32))

/-- Layer normalisation of every row of a block, then the maximum with zero. -/
def lnRelu (a : FVec Ideal S1000x128 .f32) (g be : Vec Ideal S1x128 .f32) : FVec Ideal S1000x128 .f32 :=
  maximumf
    (addf
      (mulf (mulf (broadcastTo S1000x128 (shapeCast S1x128 g shapeCasts_S1x128_S1x128) broadcasts_S1x128_S1000x128) (cent a))
        (broadcastTo S1000x128 (rsqrt (addf (varCol a) (broadcast S1000x1 (Scalar.ofBits .f32 0x3727C5AC#32)))) broadcasts_S1000x1_S1000x128))
      (broadcastTo S1000x128 (shapeCast S1x128 be shapeCasts_S1x128_S1x128) broadcasts_S1x128_S1000x128))
    (broadcast S1000x128 (Scalar.ofBits .f32 0x00000000#32))

/-- The body's activations are those stages composed, plus the residual block. -/
theorem pay2_eq (x0 : Vec Ideal S1000x10000 .bf16) (x1 : Vec Ideal S10000x128 .bf16) (x2 x3 x4 : Vec Ideal S1x128 .f32)
    (x5 : Vec Ideal S1000x128 .f32) :
    k2_pay2 x0 x1 x2 x3 x4 x5 = addf (lnRelu (preBlk x0 x1 x2) x3 x4) (shapeCast S1000x128 x5 shapeCasts_S1000x128_S1000x128) := rfl

/-- The pre-activation at `(r, l)`. -/
theorem preBlk_apply (x0 : Vec Ideal S1000x10000 .bf16) (x1 : Vec Ideal S10000x128 .bf16) (x2 : Vec Ideal S1x128 .f32)
    (r : Fin 1000) (l : Fin 128) :
    preBlk x0 x1 x2 (ix2 r l) = (∑ k : Fin 10000, x0 (ix2 r k) * x1 (ix2 k l)) + x2 (ix2 (0 : Fin 1) l) := by
  unfold preBlk
  rw [addf_apply, shapeCast_self, shapeCast_self, shapeCast_self, broadcastTo_1b_ab_apply]
  exact congrArg (fun z => z + x2 (ix2 (0 : Fin 1) l)) (mmA_apply x0 x1 r l)

/-- A row's mean. -/
theorem meanCol_apply (a : FVec Ideal S1000x128 .f32) (r : Fin 1000) (z : Fin 1) :
    meanCol a (ix2 r z) = Spec.mean Spec.c128 (fun l => a (ix2 r l)) := by
  unfold meanCol
  rw [divf_apply, shapeCast_a_a1_apply, rowsum_apply]
  rfl

/-- A row with its mean taken off. -/
theorem cent_apply (a : FVec Ideal S1000x128 .f32) (r : Fin 1000) (l : Fin 128) :
    cent a (ix2 r l) = a (ix2 r l) - Spec.mean Spec.c128 (fun l => a (ix2 r l)) := by
  unfold cent
  rw [subf_apply, broadcastTo_a1_ab_apply _ _ r l, meanCol_apply]

/-- A row's variance. -/
theorem varCol_apply (a : FVec Ideal S1000x128 .f32) (r : Fin 1000) (z : Fin 1) :
    varCol a (ix2 r z) = Spec.var Spec.c128 (fun l => a (ix2 r l)) := by
  unfold varCol
  rw [divf_apply, shapeCast_a_a1_apply, rowsum_apply]
  simp only [mulf_apply, cent_apply]
  rfl

/-- The normalised, rectified block at `(r, q)`. -/
theorem lnRelu_apply (a : FVec Ideal S1000x128 .f32) (g be : Vec Ideal S1x128 .f32) (r : Fin 1000) (q : Fin 128) :
    lnRelu a g be (ix2 r q)
      = max (Spec.lnK Spec.c128 (fun l => a (ix2 r l)) (fun l => g (ix2 (0 : Fin 1) l)) (fun l => be (ix2 (0 : Fin 1) l)) q) Spec.c0 := by
  unfold lnRelu
  rw [maximumf_apply, addf_apply, mulf_apply, mulf_apply, broadcastTo_1b_ab_apply, broadcastTo_1b_ab_apply,
    broadcastTo_a1_ab_apply _ _ r q, shapeCast_self, shapeCast_self, cent_apply]
  show max (g (ix2 0 q) * _ * Ideal.rsqrt (varCol a (ix2 r 0) + Spec.ceps) + be (ix2 0 q)) Spec.c0 = _
  rw [varCol_apply]
  rfl

/-- The hidden block's activations with the residual, at row `r` and lane `j` of a row block: the rectified
    layer normalisation (in its reciprocal-root spelling) of the row of `adj · u + b`, plus the residual's entry. -/
theorem pay2_apply (x0 : Vec Ideal S1000x10000 .bf16) (x1 : Vec Ideal S10000x128 .bf16) (x2 x3 x4 : Vec Ideal S1x128 .f32)
    (x5 : Vec Ideal S1000x128 .f32) (r : Fin 1000) (j : Fin 128) :
    k2_pay2 x0 x1 x2 x3 x4 x5 (ix2 r j)
      = max (Spec.lnK Spec.c128 (fun l => (∑ k : Fin 10000, x0 (ix2 r k) * x1 (ix2 k l)) + x2 (ix2 (0 : Fin 1) l))
          (fun l => x3 (ix2 (0 : Fin 1) l)) (fun l => x4 (ix2 (0 : Fin 1) l)) j) Spec.c0 + x5 (ix2 r j) := by
  rw [pay2_eq, addf_apply, lnRelu_apply, shapeCast_self]
  simp only [preBlk_apply]

/-- The stored block, at row `r` and column `q`: the activation block's row times the output weights' column
    (narrowing is the identity on the extended reals). -/
theorem pay1_apply (h : FVec Ideal S1000x128 .f32) (w : Vec Ideal S128x16 .f32) (r : Fin 1000) (q : Fin 16) :
    k2_pay1 h w (ix2 r q) = ∑ l : Fin 128, h (ix2 r l) * w (ix2 l q) := by
  unfold k2_pay1
  exact mmB_apply h w r q

/-! ## The region's blocks as rows of the arrays -/

-- the buffer contents the region is entered with: any
variable (V : (c : Dev nD) → (b : Ref sig .tc) → Buf (Elt Ideal) ((c : Thread nD τ).loc b))

theorem hz : (![0, 0] : Fin 2 → Nat) = fun _ => 0 := funext fun a => by fin_cases a <;> rfl

/-! The index maps over the ten grid points: the row-blocked windows sit at block row t, the whole-array ones at the origin. -/

theorem idx_facts_0 : ∀ t : Fin cfg2.N, win2_0.index t (0 : Fin 2) = t.val ∧ win2_0.index t (1 : Fin 2) = 0 :=
  (by decide +kernel : ∀ t : Fin grid2.N, _)
theorem idx_facts_1 : ∀ t : Fin cfg2.N, win2_1.index t (0 : Fin 2) = 0 ∧ win2_1.index t (1 : Fin 2) = 0 :=
  (by decide +kernel : ∀ t : Fin grid2.N, _)
theorem idx_facts_2 : ∀ t : Fin cfg2.N, win2_2.index t (0 : Fin 2) = 0 ∧ win2_2.index t (1 : Fin 2) = 0 :=
  (by decide +kernel : ∀ t : Fin grid2.N, _)
theorem idx_facts_3 : ∀ t : Fin cfg2.N, win2_3.index t (0 : Fin 2) = 0 ∧ win2_3.index t (1 : Fin 2) = 0 :=
  (by decide +kernel : ∀ t : Fin grid2.N, _)
theorem idx_facts_4 : ∀ t : Fin cfg2.N, win2_4.index t (0 : Fin 2) = 0 ∧ win2_4.index t (1 : Fin 2) = 0 :=
  (by decide +kernel : ∀ t : Fin grid2.N, _)
theorem idx_facts_5 : ∀ t : Fin cfg2.N, win2_5.index t (0 : Fin 2) = t.val ∧ win2_5.index t (1 : Fin 2) = 0 :=
  (by decide +kernel : ∀ t : Fin grid2.N, _)
theorem idx_facts_6 : ∀ t : Fin cfg2.N, win2_6.index t (0 : Fin 2) = 0 ∧ win2_6.index t (1 : Fin 2) = 0 :=
  (by decide +kernel : ∀ t : Fin grid2.N, _)
theorem idx_facts_7 : ∀ t : Fin cfg2.N, win2_7.index t (0 : Fin 2) = t.val ∧ win2_7.index t (1 : Fin 2) = 0 :=
  (by decide +kernel : ∀ t : Fin grid2.N, _)

/-- The adjacency block at point t is rows 1000·t … 1000·t + 999 of the adjacency. -/
theorem blk_adj (c : Dev nD) (t : Fin cfg2.N) (r : Fin 1000) (p : Fin 10000) (hp : p.val = t.val * 1000 + r.val) (k : Fin 10000) :
    (iblk2 V c 0 t : Vec Ideal S1000x10000 .bf16) (ix2 r k) = (V c main_v11_0 : S10000x10000.Idx → EReal) (ix2 p k) := by
  obtain ⟨e0, e1⟩ := idx_facts_0 t
  unfold iblk2
  rw [View.read_apply]
  show V c main_v11_0 _ = V c main_v11_0 _
  congr 1
  funext a
  apply Fin.ext
  match a with
  | ⟨0, _⟩ => show win2_0.index t (0 : Fin 2) * 1000 + 1 * r.val = p.val; rw [e0, hp]; omega
  | ⟨1, _⟩ => show win2_0.index t (1 : Fin 2) * 10000 + 1 * k.val = k.val; rw [e1]; omega

/-- The feature block at every point is the whole feature array. -/
theorem blk_u (c : Dev nD) (t : Fin cfg2.N) (r : Fin 10000) (k : Fin 128) :
    (iblk2 V c 1 t : Vec Ideal S10000x128 .bf16) (ix2 r k) = (V c main_v11_2 : S10000x128.Idx → EReal) (ix2 r k) := by
  obtain ⟨e0, e1⟩ := idx_facts_1 t
  unfold iblk2
  rw [View.read_apply]
  show V c main_v11_2 _ = V c main_v11_2 _
  congr 1
  funext a
  apply Fin.ext
  match a with
  | ⟨0, _⟩ => show win2_1.index t (0 : Fin 2) * 10000 + 1 * r.val = r.val; rw [e0]; omega
  | ⟨1, _⟩ => show win2_1.index t (1 : Fin 2) * 128 + 1 * k.val = k.val; rw [e1]; omega

/-- The bias row at every point is the bias row. -/
theorem blk_b (c : Dev nD) (t : Fin cfg2.N) (r : Fin 1) (k : Fin 128) :
    (iblk2 V c 2 t : Vec Ideal S1x128 .f32) (ix2 r k) = (V c main_v3 : S1x128.Idx → EReal) (ix2 r k) := by
  obtain ⟨e0, e1⟩ := idx_facts_2 t
  unfold iblk2
  rw [View.read_apply]
  show V c main_v3 _ = V c main_v3 _
  congr 1
  funext a
  apply Fin.ext
  match a with
  | ⟨0, _⟩ => show win2_2.index t (0 : Fin 2) * 1 + 1 * r.val = r.val; rw [e0]; omega
  | ⟨1, _⟩ => show win2_2.index t (1 : Fin 2) * 128 + 1 * k.val = k.val; rw [e1]; omega

/-- The scale row at every point is the scale row. -/
theorem blk_g (c : Dev nD) (t : Fin cfg2.N) (r : Fin 1) (k : Fin 128) :
    (iblk2 V c 3 t : Vec Ideal S1x128 .f32) (ix2 r k) = (V c main_v4 : S1x128.Idx → EReal) (ix2 r k) := by
  obtain ⟨e0, e1⟩ := idx_facts_3 t
  unfold iblk2
  rw [View.read_apply]
  show V c main_v4 _ = V c main_v4 _
  congr 1
  funext a
  apply Fin.ext
  match a with
  | ⟨0, _⟩ => show win2_3.index t (0 : Fin 2) * 1 + 1 * r.val = r.val; rw [e0]; omega
  | ⟨1, _⟩ => show win2_3.index t (1 : Fin 2) * 128 + 1 * k.val = k.val; rw [e1]; omega

/-- The shift row at every point is the shift row. -/
theorem blk_be (c : Dev nD) (t : Fin cfg2.N) (r : Fin 1) (k : Fin 128) :
    (iblk2 V c 4 t : Vec Ideal S1x128 .f32) (ix2 r k) = (V c main_v5 : S1x128.Idx → EReal) (ix2 r k) := by
  obtain ⟨e0, e1⟩ := idx_facts_4 t
  unfold iblk2
  rw [View.read_apply]
  show V c main_v5 _ = V c main_v5 _
  congr 1
  funext a
  apply Fin.ext
  match a with
  | ⟨0, _⟩ => show win2_4.index t (0 : Fin 2) * 1 + 1 * r.val = r.val; rw [e0]; omega
  | ⟨1, _⟩ => show win2_4.index t (1 : Fin 2) * 128 + 1 * k.val = k.val; rw [e1]; omega

/-- The residual block at point t is rows 1000·t … 1000·t + 999 of the residual array. -/
theorem blk_res (c : Dev nD) (t : Fin cfg2.N) (r : Fin 1000) (p : Fin 10000) (hp : p.val = t.val * 1000 + r.val) (k : Fin 128) :
    (iblk2 V c 5 t : Vec Ideal S1000x128 .f32) (ix2 r k) = (V c main_v11_1 : S10000x128.Idx → EReal) (ix2 p k) := by
  obtain ⟨e0, e1⟩ := idx_facts_5 t
  unfold iblk2
  rw [View.read_apply]
  show V c main_v11_1 _ = V c main_v11_1 _
  congr 1
  funext a
  apply Fin.ext
  match a with
  | ⟨0, _⟩ => show win2_5.index t (0 : Fin 2) * 1000 + 1 * r.val = p.val; rw [e0, hp]; omega
  | ⟨1, _⟩ => show win2_5.index t (1 : Fin 2) * 128 + 1 * k.val = k.val; rw [e1]; omega

/-- The output weights' block at every point is the output weights. -/
theorem blk_w (c : Dev nD) (t : Fin cfg2.N) (r : Fin 128) (k : Fin 16) :
    (iblk2 V c 6 t : Vec Ideal S128x16 .f32) (ix2 r k) = (V c main_arg10 : S128x16.Idx → EReal) (ix2 r k) := by
  obtain ⟨e0, e1⟩ := idx_facts_6 t
  unfold iblk2
  rw [View.read_apply]
  show V c main_arg10 _ = V c main_arg10 _
  congr 1
  funext a
  apply Fin.ext
  match a with
  | ⟨0, _⟩ => show win2_6.index t (0 : Fin 2) * 128 + 1 * r.val = r.val; rw [e0]; omega
  | ⟨1, _⟩ => show win2_6.index t (1 : Fin 2) * 16 + 1 * k.val = k.val; rw [e1]; omega

/-! ## What a point writes back -/

/-- The region's result as one function of the arrays it is entered with, index by index. -/
def u3 (c : Dev nD) : S10000x16.Idx → Elt Ideal .bf16 := fun i =>
  Spec.mm (Spec.h2 (Spec.cur2 (n0 := 10000) (n1 := 10000) (V c main_v11_0)) (Spec.cur2 (n0 := 10000) (n1 := 128) (V c main_v11_2))
          (Spec.row (n := 128) (V c main_v3)) (Spec.row (n := 128) (V c main_v4)) (Spec.row (n := 128) (V c main_v5))
          (Spec.cur2 (n0 := 10000) (n1 := 128) (V c main_v11_1)))
          (Spec.cur2 (n0 := 128) (n1 := 16) (V c main_arg10)) (Fin.mk (i 0).val (idx2_lt0 i)) (Fin.mk (i 1).val (idx2_lt1 i))

/-- That function at an index with given coordinates. -/
theorem u3_at (c : Dev nD) (i : S10000x16.Idx) (p : Fin 10000) (q : Fin 16) (h0 : (i 0).val = p.val) (h1 : (i 1).val = q.val) :
    u3 V c i = Spec.mm (Spec.h2 (Spec.cur2 (n0 := 10000) (n1 := 10000) (V c main_v11_0)) (Spec.cur2 (n0 := 10000) (n1 := 128) (V c main_v11_2))
          (Spec.row (n := 128) (V c main_v3)) (Spec.row (n := 128) (V c main_v4)) (Spec.row (n := 128) (V c main_v5))
          (Spec.cur2 (n0 := 10000) (n1 := 128) (V c main_v11_1)))
          (Spec.cur2 (n0 := 128) (n1 := 16) (V c main_arg10)) p q := by
  obtain rfl : i = ix2 p q := by
    funext a; apply Fin.ext
    match a with
    | ⟨0, _⟩ => exact h0
    | ⟨1, _⟩ => exact h1
  rfl

/-- The hidden activations computed from the blocks at point t, at row r of the block, are row 1000·t + r of the
    specification's hidden activations: the reciprocal-root spelling agrees with the division because a variance plus ε
    is positive. -/
theorem pay2_row (c : Dev nD) (t : Fin cfg2.N) (r : Fin 1000) (p : Fin 10000) (hp : p.val = t.val * 1000 + r.val) (l : Fin 128) :
    k2_pay2 (iblk2 V c 0 t) (iblk2 V c 1 t) (iblk2 V c 2 t) (iblk2 V c 3 t) (iblk2 V c 4 t) (iblk2 V c 5 t) (ix2 r l)
      = Spec.h2 (Spec.cur2 (n0 := 10000) (n1 := 10000) (V c main_v11_0)) (Spec.cur2 (n0 := 10000) (n1 := 128) (V c main_v11_2))
          (Spec.row (n := 128) (V c main_v3)) (Spec.row (n := 128) (V c main_v4)) (Spec.row (n := 128) (V c main_v5))
          (Spec.cur2 (n0 := 10000) (n1 := 128) (V c main_v11_1)) p l := by
  refine (pay2_apply (iblk2 V c 0 t) (iblk2 V c 1 t) (iblk2 V c 2 t) (iblk2 V c 3 t) (iblk2 V c 4 t) (iblk2 V c 5 t) r l).trans ?_
  unfold Spec.h2
  rw [← Spec.lnK_eq_ln Spec.c128 Spec.c128_pos]
  simp only [blk_adj V c t r p hp, blk_u V c t, blk_b V c t, blk_g V c t, blk_be V c t, blk_res V c t r p hp]
  rfl

/-- The stored block at point t, at row r and column q, is the function at any index with coordinates (1000·t + r, q). -/
theorem stored_at (c : Dev nD) (t : Fin cfg2.N) (r : Fin 1000) (q : Fin 16) (i : S10000x16.Idx)
    (h0 : (i 0).val = t.val * 1000 + r.val) (h1 : (i 1).val = q.val) :
    k2_pay1 (k2_pay2 (iblk2 V c 0 t) (iblk2 V c 1 t) (iblk2 V c 2 t) (iblk2 V c 3 t) (iblk2 V c 4 t) (iblk2 V c 5 t)) (iblk2 V c 6 t) (ix2 r q) = u3 V c i := by
  have hN : grid2.N = 10 := N_2
  have ht : t.val < grid2.N := t.isLt
  have hp : t.val * 1000 + r.val < 10000 := by have := r.isLt; omega
  rw [u3_at V c i ⟨t.val * 1000 + r.val, hp⟩ q h0 h1]
  refine (pay1_apply (k2_pay2 (iblk2 V c 0 t) (iblk2 V c 1 t) (iblk2 V c 2 t) (iblk2 V c 3 t) (iblk2 V c 4 t) (iblk2 V c 5 t)) (iblk2 V c 6 t) r q).trans ?_
  unfold Spec.mm
  refine Finset.sum_congr rfl fun l _ => ?_
  rw [pay2_row V c t r ⟨t.val * 1000 + r.val, hp⟩ rfl l, blk_w V c t l q]

/-- What point t writes back is block t of that function. -/
theorem flushed_eq (c : Dev nD) (t : Fin cfg2.N) :
    (dat2 V c).flushed 7 t = ((cfg2.win 7).blk t).view.read (Elt Ideal) (u3 V c) := by
  show (cfg2.win 7).cut (grid2.coords t) ((dat2 V c).after 7 t) = _
  rw [after2_7]
  unfold out2_7
  rw [View.canon_unit_zero hz]
  simp only [View.ld_unit_zero (S := S1000x10000) hz, View.ld_unit_zero (S := S10000x128) hz, View.ld_unit_zero (S := S1x128) hz,
    View.ld_unit_zero (S := S1000x128) hz, View.ld_unit_zero (S := S128x16) hz]
  obtain ⟨e0, e1⟩ := idx_facts_7 t
  funext j
  obtain ⟨r, q, rfl⟩ : ∃ (r : Fin 1000) (q : Fin 16), j = ix2 r q := ⟨j 0, j 1, eq_ix2 (n0 := 1000) (n1 := 16) j⟩
  show k2_pay1 (k2_pay2 (iblk2 V c 0 t) (iblk2 V c 1 t) (iblk2 V c 2 t) (iblk2 V c 3 t) (iblk2 V c 4 t) (iblk2 V c 5 t)) (iblk2 V c 6 t) (ix2 r q) = u3 V c (((cfg2.win 7).blk t).view.emb (ix2 r q))
  exact stored_at V c t r q _
    (by show win2_7.index t (0 : Fin 2) * 1000 + 1 * r.val = _; omega)
    (by show win2_7.index t (1 : Fin 2) * 16 + 1 * q.val = _; omega)

/-- An index of the array is in point t's block iff each coordinate is in the block's range on its axis. -/
theorem mem_blk (t : Fin cfg2.N) (i : S10000x16.Idx) :
    i ∈ ((cfg2.win 7).blk t).view.set ↔ ∀ a : Fin 2, win2_7.index t a * S1000x16.size a ≤ (i a).val ∧ (i a).val < win2_7.index t a * S1000x16.size a + S1000x16.size a := by
  show i ∈ ((View.whole main_v12).slice (win2_7.rect t)).set ↔ _
  rw [View.set_slice_whole, Rect.mem_set_unit]
  exact Iff.rfl

/-- Every index of the array is in the block of the point its row falls in. -/
theorem cover (i : S10000x16.Idx) : ∃ t : Fin cfg2.N, (cfg2.win 7).flush t = true ∧ i ∈ ((cfg2.win 7).blk t).view.set := by
  have hi0 : (i 0).val < 10000 := idx2_lt0 i
  have hi1 : (i 1).val < 16 := idx2_lt1 i
  have hN : grid2.N = 10 := N_2
  obtain ⟨t, ht⟩ : ∃ t : Fin cfg2.N, t.val = (i 0).val / 1000 :=
    ⟨⟨(i 0).val / 1000, by show (i 0).val / 1000 < grid2.N; rw [hN]; omega⟩, rfl⟩
  obtain ⟨e0, e1⟩ := idx_facts_7 t
  refine ⟨t, flush2_7 t, ?_⟩
  rw [mem_blk]
  intro a
  match a with
  | ⟨0, _⟩ => show win2_7.index t (0 : Fin 2) * 1000 ≤ (i 0).val ∧ (i 0).val < win2_7.index t (0 : Fin 2) * 1000 + 1000; rw [e0, ht]; omega
  | ⟨1, _⟩ => show win2_7.index t (1 : Fin 2) * 16 ≤ (i 1).val ∧ (i 1).val < win2_7.index t (1 : Fin 2) * 16 + 16; rw [e1]; omega

/-- The third region's output array holds the hidden block's activations (with the residual) times W_out. -/
theorem arr_u3 (c : Dev nD) (p : Fin 10000) (q : Fin 16) :
    (dat2 V c).arrAt 7 cfg2.N (ix2 p q)
      = Spec.mm (Spec.h2 (Spec.cur2 (n0 := 10000) (n1 := 10000) (V c main_v11_0)) (Spec.cur2 (n0 := 10000) (n1 := 128) (V c main_v11_2))
          (Spec.row (n := 128) (V c main_v3)) (Spec.row (n := 128) (V c main_v4)) (Spec.row (n := 128) (V c main_v5))
          (Spec.cur2 (n0 := 10000) (n1 := 128) (V c main_v11_1)))
          (Spec.cur2 (n0 := 128) (n1 := 16) (V c main_arg10)) p q :=
  (congrFun ((dat2 V c).arrAt_eq_of_cover 7 (u3 V c) (fun t _ => flushed_eq V c t) cover) (ix2 p q)).trans
    (u3_at V c (ix2 p q) p q rfl rfl)

end Cert.KernelIdeal.Reg2

end
-- ==== Proof.KReg3.lean ====
/-
  Region 3 of the idealized kernel, read as values. Over a grid of ten blocks of 1000 rows, the body multiplies the block
  of the copied adjacency by u₃, adds the bias row, normalises each row over its 16 lanes (reciprocal-root spelling, equal
  to the division by the square root since a variance plus ε is positive) and adds the block of the scaled skip
  connection. Row r of block t is row 1000·t + r and the ten blocks tile the rows, so the output array holds
  LN (adj · u₃ + b_out) + skip, entry by entry, for any entry contents.
-/
import proofs.«111547_g5291399708710_cont_9to1_m_243_4_alg».proof.Proof.Gen.KernelIdeal.Frame
import proofs.«111547_g5291399708710_cont_9to1_m_243_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Idealize.ShloMosaic Idealize.ShloMosaic.TcCoe Idealize.SL.Sem Idealize.ShloMosaic.ValueIdx
open Idealize.ShloMosaic.Pipeline (Dat)
open Cert.KernelIdeal Cert.KernelIdeal.Gen

/-! ## Layout operations read at an index: the column forms -/

section Layout
variable {α : Type}

/-- A length-`a` vector viewed as an `[a, 1]` column reads, at `(p, u)`, the vector at `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) := by
  refine shapeCast_apply v h (ix2 p u) (ix1 p) ?_
  rw [Shape.rowMajor_val_one, Shape.rowMajor_val_two]
  show p.val = p.val * 1 + u.val
  have := u.isLt; omega

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum and the product read at an index -/

/-- The sum over the 16 lanes of row `r`. -/
theorem rowSum_apply (v : FVec Ideal S1000x16 .f32) (r : Fin 1000) :
    multiReduction .add [1] S1000 v 0x00000000#32 reduces_S1000x16_S1000 (.inl rfl) rfl (ix1 r) = ∑ k : Fin 16, v (ix2 r k) := by
  refine (Ideal.multiReduction_add_single v 0x00000000#32 reduces_S1000x16_S1000 (.inl rfl) rfl (ix1 r)).trans ?_
  refine Finset.sum_congr rfl fun k _ => congrArg v ?_
  funext a
  match a with
  | ⟨0, _⟩ => rfl
  | ⟨1, _⟩ => rfl

/-- The left operand's row coordinate is the result's row. -/
theorem lhs_mm_0 (j : S1000x16.Idx) (k : dot_S1000x10000_S10000x16_S1000x16_1_0_0_1_n_n.contr.Idx) :
    (dot_S1000x10000_S10000x16_S1000x16_1_0_0_1_n_n.lhsIdx j k (0 : Fin 2)).val = (j (0 : Fin 2)).val := by
  unfold DotDims.lhsIdx
  rw [dif_neg (show ¬(0 : Fin S1000x10000.rank) ∈ dot_S1000x10000_S10000x16_S1000x16_1_0_0_1_n_n.lhsBatch by decide),
    dif_pos (show (0 : Fin S1000x10000.rank) ∈ dot_S1000x10000_S10000x16_S1000x16_1_0_0_1_n_n.lhsNonContracting by decide)]
  rfl

/-- The left operand's column coordinate is the contracted coordinate. -/
theorem lhs_mm_1 (j : S1000x16.Idx) (k : dot_S1000x10000_S10000x16_S1000x16_1_0_0_1_n_n.contr.Idx) :
    (dot_S1000x10000_S10000x16_S1000x16_1_0_0_1_n_n.lhsIdx j k (1 : Fin 2)).val = (k ⟨0, by decide⟩).val :=
  DotDims.lhsIdx_val_of_single _ (cl := (1 : Fin 2)) rfl j k

/-- The right operand's row coordinate is the contracted coordinate. -/
theorem rhs_mm_0 (j : S1000x16.Idx) (k : dot_S1000x10000_S10000x16_S1000x16_1_0_0_1_n_n.contr.Idx) :
    (dot_S1000x10000_S10000x16_S1000x16_1_0_0_1_n_n.rhsIdx j k (0 : Fin 2)).val = (k ⟨0, by decide⟩).val :=
  DotDims.rhsIdx_val_of_single _ (cr := (0 : Fin 2)) rfl j k

/-- The right operand's column coordinate is the result's column. -/
theorem rhs_mm_1 (j : S1000x16.Idx) (k : dot_S1000x10000_S10000x16_S1000x16_1_0_0_1_n_n.contr.Idx) :
    (dot_S1000x10000_S10000x16_S1000x16_1_0_0_1_n_n.rhsIdx j k (1 : Fin 2)).val = (j (1 : Fin 2)).val := by
  unfold DotDims.rhsIdx
  rw [dif_neg (show ¬(1 : Fin S10000x16.rank) ∈ dot_S1000x10000_S10000x16_S1000x16_1_0_0_1_n_n.rhsBatch by decide),
    dif_pos (show (1 : Fin S10000x16.rank) ∈ dot_S1000x10000_S10000x16_S1000x16_1_0_0_1_n_n.rhsNonContracting by decide)]
  rfl

/-- Entry `(r, q)` of the product into the zero accumulator: the sum over the 10000 contracted coordinates. -/
theorem mm_apply (A : FVec Ideal S1000x10000 .bf16) (B : FVec Ideal S10000x16 .bf16) (r : Fin 1000) (q : Fin 16) :
    matmul dot_S1000x10000_S10000x16_S1000x16_1_0_0_1_n_n none A B (constant (F := Ideal) S1000x16 .f32 0x00000000#32) (ix2 r q)
      = ∑ k : Fin 10000, A (ix2 r k) * B (ix2 k q) := by
  show FloatOps.matmul dot_S1000x10000_S10000x16_S1000x16_1_0_0_1_n_n none A B (constant (F := Ideal) S1000x16 .f32 0x00000000#32) (ix2 r q) = _
  rw [Ideal.matmul_constant_zero_apply,
    ← Equiv.sum_comp (contrEquiv1 dot_S1000x10000_S10000x16_S1000x16_1_0_0_1_n_n 10000 rfl rfl).symm]
  refine Finset.sum_congr rfl fun k _ => ?_
  have ck := contrEquiv1_symm_val dot_S1000x10000_S10000x16_S1000x16_1_0_0_1_n_n 10000 rfl rfl k
  have hl : dot_S1000x10000_S10000x16_S1000x16_1_0_0_1_n_n.lhsIdx (ix2 r q)
      ((contrEquiv1 dot_S1000x10000_S10000x16_S1000x16_1_0_0_1_n_n 10000 rfl rfl).symm k) = ix2 r k := by
    funext ax; apply Fin.ext
    match ax with
    | ⟨0, _⟩ => exact lhs_mm_0 _ _
    | ⟨1, _⟩ => exact (lhs_mm_1 _ _).trans ck
  have hr : dot_S1000x10000_S10000x16_S1000x16_1_0_0_1_n_n.rhsIdx (ix2 r q)
      ((contrEquiv1 dot_S1000x10000_S10000x16_S1000x16_1_0_0_1_n_n 10000 rfl rfl).symm k) = ix2 k q := by
    funext ax; apply Fin.ext
    match ax with
    | ⟨0, _⟩ => exact (rhs_mm_0 _ _).trans ck
    | ⟨1, _⟩ => exact rhs_mm_1 _ _
  rw [hl, hr]

/-! ## The body's arithmetic, stage by stage -/

/-- The pre-activation block: the adjacency block times the features, plus the bias row. -/
def preBlk (x0 : Vec Ideal S1000x10000 .bf16) (x1 : Vec Ideal S10000x16 .bf16) (x2 : Vec Ideal S1x16 .f32) : FVec Ideal S1000x16 .f32 :=
  addf (matmul dot_S1000x10000_S10000x16_S1000x16_1_0_0_1_n_n none
      (shapeCast S1000x10000 x0 shapeCasts_S1000x10000_S1000x10000 : FVec Ideal S1000x10000 .bf16)
      (shapeCast S10000x16 x1 shapeCasts_S10000x16_S10000x16 : FVec Ideal S10000x16 .bf16) (constant S1000x16 .f32 0x00000000#32))
    (broadcastTo S1000x16 (shapeCast S1x16 x2 shapeCasts_S1x16_S1x16) broadcasts_S1x16_S1000x16)

/-- The column of row means of a block. -/
def meanCol (a : FVec Ideal S1000x16 .f32) : FVec Ideal S1000x1 .f32 :=
  divf (shapeCast S1000x1 (multiReduction .add [1] S1000 a 0x00000000#32 reduces_S1000x16_S1000 (.inl rfl) rfl) shapeCasts_S1000_S1000x1)
    (broadcast S1000x1 (Scalar.ofBits .f32 0x41800000#32))

/-- The block with each row's mean taken off. -/
def cent (a : FVec Ideal S1000x16 .f32) : FVec Ideal S1000x16 .f32 :=
  subf a (broadcastTo S1000x16 (meanCol a) broadcasts_S1000x1_S1000x16)

/-- The column of row variances of a block. -/
def varCol (a : FVec Ideal S1000x16 .f32) : FVec Ideal S1000x1 .f32 :=
  divf (shapeCast S1000x1 (multiReduction .add [1] S1000 (mulf (cent a) (cent a)) 0x00000000#32 reduces_S1000x16_S1000 (.inl rfl) rfl) shapeCasts_S1000_S1000x1)
    (broadcast S1000x1 (Scalar.ofBits .f32 0x41800000#32))

/-- Layer normalisation of every row of a block, multiplying by the reciprocal root. -/
def lnBlk (a : FVec Ideal S1000x16 .f32) (g be : Vec Ideal S1x16 .f32) : FVec Ideal S1000x16 .f32 :=
  addf
    (mulf (mulf (broadcastTo S1000x16 (shapeCast S1x16 g shapeCasts_S1x16_S1x16) broadcasts_S1x16_S1000x16) (cent a))
      (broadcastTo S1000x16 (rsqrt (addf (varCol a) (broadcast S1000x1 (Scalar.ofBits .f32 0x3727C5AC#32)))) broadcasts_S1000x1_S1000x16))
    (broadcastTo S1000x16 (shapeCast S1x16 be shapeCasts_S1x16_S1x16) broadcasts_S1x16_S1000x16)

/-- The body's stored block is those stages composed, plus the skip block. -/
theorem pay1_eq (x0 : Vec Ideal S1000x10000 .bf16) (x1 : Vec Ideal S10000x16 .bf16) (x2 x3 x4 : Vec Ideal S1x16 .f32)
    (x5 : Vec Ideal S1000x16 .f32) :
    k3_pay1 x0 x1 x2 x3 x4 x5 = addf (lnBlk (preBlk x0 x1 x2) x3 x4) (shapeCast S1000x16 x5 shapeCasts_S1000x16_S1000x16) := rfl

/-- The pre-activation at `(r, l)`. -/
theorem preBlk_apply (x0 : Vec Ideal S1000x10000 .bf16) (x1 : Vec Ideal S10000x16 .bf16) (x2 : Vec Ideal S1x16 .f32)
    (r : Fin 1000) (l : Fin 16) :
    preBlk x0 x1 x2 (ix2 r l) = (∑ k : Fin 10000, x0 (ix2 r k) * x1 (ix2 k l)) + x2 (ix2 (0 : Fin 1) l) := by
  unfold preBlk
  rw [addf_apply, shapeCast_self, shapeCast_self, shapeCast_self, mm_apply, broadcastTo_1b_ab_apply]

/-- A row's mean. -/
theorem meanCol_apply (a : FVec Ideal S1000x16 .f32) (r : Fin 1000) (z : Fin 1) :
    meanCol a (ix2 r z) = Spec.mean Spec.c16 (fun l => a (ix2 r l)) := by
  unfold meanCol
  rw [divf_apply, shapeCast_a_a1_apply, rowSum_apply]
  rfl

/-- A row with its mean taken off. -/
theorem cent_apply (a : FVec Ideal S1000x16 .f32) (r : Fin 1000) (l : Fin 16) :
    cent a (ix2 r l) = a (ix2 r l) - Spec.mean Spec.c16 (fun l => a (ix2 r l)) := by
  unfold cent
  rw [subf_apply, broadcastTo_a1_ab_apply, meanCol_apply]

/-- A row's variance. -/
theorem varCol_apply (a : FVec Ideal S1000x16 .f32) (r : Fin 1000) (z : Fin 1) :
    varCol a (ix2 r z) = Spec.var Spec.c16 (fun l => a (ix2 r l)) := by
  unfold varCol
  rw [divf_apply, shapeCast_a_a1_apply, rowSum_apply]
  simp only [mulf_apply, cent_apply]
  rfl

/-- The normalised block at `(r, q)`. -/
theorem lnBlk_apply (a : FVec Ideal S1000x16 .f32) (g be : Vec Ideal S1x16 .f32) (r : Fin 1000) (q : Fin 16) :
    lnBlk a g be (ix2 r q)
      = Spec.lnK Spec.c16 (fun l => a (ix2 r l)) (fun l => g (ix2 (0 : Fin 1) l)) (fun l => be (ix2 (0 : Fin 1) l)) q := by
  unfold lnBlk
  rw [addf_apply, mulf_apply, mulf_apply, broadcastTo_1b_ab_apply, broadcastTo_1b_ab_apply,
    broadcastTo_a1_ab_apply, shapeCast_self, shapeCast_self, cent_apply]
  show g (ix2 0 q) * _ * Ideal.rsqrt (varCol a (ix2 r 0) + Spec.ceps) + be (ix2 0 q) = _
  rw [varCol_apply]
  rfl

/-- The stored block at `(r, q)`: the layer normalisation (reciprocal-root spelling) of row `r` of
    `adj · u + b`, plus the skip block's entry. -/
theorem pay1_apply (x0 : Vec Ideal S1000x10000 .bf16) (x1 : Vec Ideal S10000x16 .bf16) (x2 x3 x4 : Vec Ideal S1x16 .f32)
    (x5 : Vec Ideal S1000x16 .f32) (r : Fin 1000) (q : Fin 16) :
    k3_pay1 x0 x1 x2 x3 x4 x5 (ix2 r q)
      = Spec.lnK Spec.c16 (fun l => (∑ k : Fin 10000, x0 (ix2 r k) * x1 (ix2 k l)) + x2 (ix2 (0 : Fin 1) l))
          (fun l => x3 (ix2 (0 : Fin 1) l)) (fun l => x4 (ix2 (0 : Fin 1) l)) q + x5 (ix2 r q) := by
  rw [pay1_eq, addf_apply, shapeCast_self, lnBlk_apply]
  simp only [preBlk_apply]

/-! ## The region's blocks as rows of the arrays -/

-- the buffer contents the region is entered with: any
variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the row-blocked windows sit at block row `t`, the whole-array ones at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- A grid point is one of ten. -/
theorem point_lt (t : Fin cfg3.N) : t.val < 10 := lt_of_lt_of_eq t.isLt N_3

/-- Row `r` of point `t`'s row block is row `1000 t + r` of the array. -/
def rowOf (t : Fin cfg3.N) (r : Fin 1000) : Fin 10000 :=
  ⟨t.val * 1000 + r.val, by have := point_lt t; have := r.isLt; omega⟩

/-- The adjacency block at point `t` is rows `1000 t … 1000 t + 999` of the adjacency. -/
theorem iblk_adj (c : Dev nD) (t : Fin cfg3.N) (r : Fin 1000) (l : Fin 10000) :
    (iblk3 V c 0 t : Vec Ideal S1000x10000 .bf16) (ix2 r l) = (V c main_v11_0 : S10000x10000.Idx → EReal) (ix2 (rowOf t r) l) := by
  obtain ⟨e0, e1, -⟩ := idx_facts t
  unfold iblk3
  rw [View.read_apply]
  show V c main_v11_0 _ = V c main_v11_0 _
  congr 1
  funext a
  apply Fin.ext
  match a with
  | ⟨0, _⟩ => show win3_0.index t (0 : Fin 2) * 1000 + 1 * r.val = t.val * 1000 + r.val; rw [e0]; omega
  | ⟨1, _⟩ => show win3_0.index t (1 : Fin 2) * 10000 + 1 * l.val = l.val; rw [e1]; omega

/-- The feature block at every point is the whole feature array. -/
theorem iblk_u (c : Dev nD) (t : Fin cfg3.N) (k : Fin 10000) (l : Fin 16) :
    (iblk3 V c 1 t : Vec Ideal S10000x16 .bf16) (ix2 k l) = (V c main_v12 : S10000x16.Idx → EReal) (ix2 k l) := by
  obtain ⟨-, -, e0, e1, -⟩ := idx_facts t
  unfold iblk3
  rw [View.read_apply]
  show V c main_v12 _ = V c main_v12 _
  congr 1
  funext a
  apply Fin.ext
  match a with
  | ⟨0, _⟩ => show win3_1.index t (0 : Fin 2) * 10000 + 1 * k.val = k.val; rw [e0]; omega
  | ⟨1, _⟩ => show win3_1.index t (1 : Fin 2) * 16 + 1 * l.val = l.val; rw [e1]; omega

/-- The bias row at every point is the bias array's row. -/
theorem iblk_b (c : Dev nD) (t : Fin cfg3.N) (l : Fin 16) :
    (iblk3 V c 2 t : Vec Ideal S1x16 .f32) (ix2 (0 : Fin 1) l) = (V c main_v6 : S1x16.Idx → EReal) (ix2 (0 : Fin 1) l) := by
  obtain ⟨-, -, -, -, e0, e1, -⟩ := idx_facts t
  unfold iblk3
  rw [View.read_apply]
  show V c main_v6 _ = V c main_v6 _
  congr 1
  funext a
  apply Fin.ext
  match a with
  | ⟨0, _⟩ => show win3_2.index t (0 : Fin 2) * 1 + 1 * 0 = 0; rw [e0]
  | ⟨1, _⟩ => show win3_2.index t (1 : Fin 2) * 16 + 1 * l.val = l.val; rw [e1]; omega

/-- The scale row at every point is the scale array's row. -/
theorem iblk_g (c : Dev nD) (t : Fin cfg3.N) (l : Fin 16) :
    (iblk3 V c 3 t : Vec Ideal S1x16 .f32) (ix2 (0 : Fin 1) l) = (V c main_v7 : S1x16.Idx → EReal) (ix2 (0 : Fin 1) l) := by
  obtain ⟨-, -, -, -, -, -, e0, e1, -⟩ := idx_facts t
  unfold iblk3
  rw [View.read_apply]
  show V c main_v7 _ = V c main_v7 _
  congr 1
  funext a
  apply Fin.ext
  match a with
  | ⟨0, _⟩ => show win3_3.index t (0 : Fin 2) * 1 + 1 * 0 = 0; rw [e0]
  | ⟨1, _⟩ => show win3_3.index t (1 : Fin 2) * 16 + 1 * l.val = l.val; rw [e1]; omega

/-- The shift row at every point is the shift array's row. -/
theorem iblk_be (c : Dev nD) (t : Fin cfg3.N) (l : Fin 16) :
    (iblk3 V c 4 t : Vec Ideal S1x16 .f32) (ix2 (0 : Fin 1) l) = (V c main_v8 : S1x16.Idx → EReal) (ix2 (0 : Fin 1) l) := by
  obtain ⟨-, -, -, -, -, -, -, -, e0, e1, -⟩ := idx_facts t
  unfold iblk3
  rw [View.read_apply]
  show V c main_v8 _ = V c main_v8 _
  congr 1
  funext a
  apply Fin.ext
  match a with
  | ⟨0, _⟩ => show win3_4.index t (0 : Fin 2) * 1 + 1 * 0 = 0; rw [e0]
  | ⟨1, _⟩ => show win3_4.index t (1 : Fin 2) * 16 + 1 * l.val = l.val; rw [e1]; omega

/-- The skip block at point `t` is rows `1000 t … 1000 t + 999` of the skip array. -/
theorem iblk_skip (c : Dev nD) (t : Fin cfg3.N) (r : Fin 1000) (q : Fin 16) :
    (iblk3 V c 5 t : Vec Ideal S1000x16 .f32) (ix2 r q) = (V c main_v10_1 : S10000x16.Idx → EReal) (ix2 (rowOf t r) q) := by
  obtain ⟨-, -, -, -, -, -, -, -, -, -, e0, e1, -⟩ := idx_facts t
  unfold iblk3
  rw [View.read_apply]
  show V c main_v10_1 _ = V c main_v10_1 _
  congr 1
  funext a
  apply Fin.ext
  match a with
  | ⟨0, _⟩ => show win3_5.index t (0 : Fin 2) * 1000 + 1 * r.val = t.val * 1000 + r.val; rw [e0]; omega
  | ⟨1, _⟩ => show win3_5.index t (1 : Fin 2) * 16 + 1 * q.val = q.val; rw [e1]; omega

/-! ## The output array as one function of the entry arrays -/

/-- The output layer plus the skip connection, as a function of the output array's index. -/
def outArr (c : Dev nD) : S10000x16.Idx → EReal := fun i =>
  Spec.outL (Spec.cur2 (n0 := 10000) (n1 := 10000) (V c main_v11_0)) (Spec.cur2 (n0 := 10000) (n1 := 16) (V c main_v12))
    (Spec.row (n := 16) (V c main_v6)) (Spec.row (n := 16) (V c main_v7)) (Spec.row (n := 16) (V c main_v8))
    (Spec.cur2 (n0 := 10000) (n1 := 16) (V c main_v10_1)) ⟨(i 0).val, idx2_lt0 i⟩ ⟨(i 1).val, idx2_lt1 i⟩

theorem outArr_apply (c : Dev nD) (p : Fin 10000) (q : Fin 16) :
    outArr V c (ix2 p q)
      = Spec.outL (Spec.cur2 (n0 := 10000) (n1 := 10000) (V c main_v11_0)) (Spec.cur2 (n0 := 10000) (n1 := 16) (V c main_v12))
          (Spec.row (n := 16) (V c main_v6)) (Spec.row (n := 16) (V c main_v7)) (Spec.row (n := 16) (V c main_v8))
          (Spec.cur2 (n0 := 10000) (n1 := 16) (V c main_v10_1)) p q := rfl

/-- What the body stores at `(r, q)` of point `t`'s block is the output function at row `1000 t + r`. -/
theorem blk_val (c : Dev nD) (t : Fin cfg3.N) (r : Fin 1000) (q : Fin 16) :
    k3_pay1 (iblk3 V c 0 t) (iblk3 V c 1 t) (iblk3 V c 2 t) (iblk3 V c 3 t) (iblk3 V c 4 t) (iblk3 V c 5 t) (ix2 r q)
      = outArr V c (ix2 (rowOf t r) q) := by
  refine (pay1_apply (iblk3 V c 0 t) (iblk3 V c 1 t) (iblk3 V c 2 t) (iblk3 V c 3 t) (iblk3 V c 4 t) (iblk3 V c 5 t) r q).trans ?_
  simp only [iblk_adj V c t, iblk_u V c t, iblk_b V c t, iblk_g V c t, iblk_be V c t, iblk_skip V c t]
  rw [outArr_apply]
  unfold Spec.outL
  rw [← Spec.lnK_eq_ln Spec.c16 Spec.c16_pos]
  rfl

/-- What point `t` writes back is block `t` of the output function. -/
theorem flushed_eq (c : Dev nD) (t : Fin cfg3.N) :
    (dat3 V c).flushed 6 t = ((cfg3.win 6).blk t).view.read (Elt Ideal) (outArr V c) := by
  show (cfg3.win 6).cut (grid3.coords t) ((dat3 V c).after 6 t) = _
  rw [after3_6]
  unfold out3_6
  rw [View.canon_unit_zero hz]
  simp only [View.ld_unit_zero (S := S1000x10000) hz, View.ld_unit_zero (S := S10000x16) hz,
    View.ld_unit_zero (S := S1x16) hz, View.ld_unit_zero (S := S1000x16) hz]
  obtain ⟨-, -, -, -, -, -, -, -, -, -, -, -, e0, e1⟩ := idx_facts t
  funext j
  obtain ⟨r, q, rfl⟩ : ∃ (r : Fin 1000) (q : Fin 16), j = ix2 r q := ⟨j 0, j 1, eq_ix2 j⟩
  show k3_pay1 (iblk3 V c 0 t) (iblk3 V c 1 t) (iblk3 V c 2 t) (iblk3 V c 3 t) (iblk3 V c 4 t) (iblk3 V c 5 t) (ix2 r q)
    = outArr V c (((cfg3.win 6).blk t).view.emb (ix2 r q))
  rw [blk_val]
  congr 1
  funext a
  apply Fin.ext
  match a with
  | ⟨0, _⟩ => show t.val * 1000 + r.val = win3_6.index t (0 : Fin 2) * 1000 + 1 * r.val; rw [e0]; omega
  | ⟨1, _⟩ => show q.val = win3_6.index t (1 : Fin 2) * 16 + 1 * q.val; rw [e1]; omega

/-- An index of the array is in point `t`'s block iff each coordinate is in the block's range on its axis. -/
theorem mem_blk (t : Fin cfg3.N) (i : S10000x16.Idx) :
    i ∈ ((cfg3.win 6).blk t).view.set ↔ ∀ a : Fin 2, win3_6.index t a * S1000x16.size a ≤ (i a).val ∧ (i a).val < win3_6.index t a * S1000x16.size a + S1000x16.size a := by
  show i ∈ ((View.whole main_v13).slice (win3_6.rect t)).set ↔ _
  rw [View.set_slice_whole, Rect.mem_set_unit]
  exact Iff.rfl

/-- Every row of the output array is in the block of the point its thousand names. -/
theorem cover (i : S10000x16.Idx) :
    ∃ t : Fin cfg3.N, (cfg3.win 6).flush t = true ∧ i ∈ ((cfg3.win 6).blk t).view.set := by
  have hi0 : (i 0).val < 10000 := idx2_lt0 i
  have hi1 : (i 1).val < 16 := idx2_lt1 i
  let t : Fin cfg3.N := ⟨(i 0).val / 1000, lt_of_lt_of_eq (show (i 0).val / 1000 < 10 by omega) N_3.symm⟩
  obtain ⟨-, -, -, -, -, -, -, -, -, -, -, -, e0, e1⟩ := idx_facts t
  have ht : t.val = (i 0).val / 1000 := rfl
  refine ⟨t, flush3_6 t, ?_⟩
  rw [mem_blk]
  intro a
  match a with
  | ⟨0, _⟩ => show win3_6.index t (0 : Fin 2) * 1000 ≤ (i 0).val ∧ (i 0).val < win3_6.index t (0 : Fin 2) * 1000 + 1000; rw [e0, ht]; omega
  | ⟨1, _⟩ => show win3_6.index t (1 : Fin 2) * 16 ≤ (i 1).val ∧ (i 1).val < win3_6.index t (1 : Fin 2) * 16 + 16; rw [e1]; omega

/-- So the output array ends holding the output function. -/
theorem arr_eq (c : Dev nD) : (dat3 V c).arrAt 6 cfg3.N = outArr V c :=
  (dat3 V c).arrAt_eq_of_cover 6 (outArr V c) (fun t _ => flushed_eq V c t) cover

/-- The fourth region's output array holds the output layer plus the skip connection. -/
theorem arr_out (c : Dev nD) (p : Fin 10000) (q : Fin 16) :
    (dat3 V c).arrAt 6 cfg3.N (ix2 p q)
      = Spec.outL (Spec.cur2 (n0 := 10000) (n1 := 10000) (V c main_v11_0)) (Spec.cur2 (n0 := 10000) (n1 := 16) (V c main_v12))
          (Spec.row (n := 16) (V c main_v6)) (Spec.row (n := 16) (V c main_v7)) (Spec.row (n := 16) (V c main_v8))
          (Spec.cur2 (n0 := 10000) (n1 := 16) (V c main_v10_1)) p q := by
  rw [arr_eq V c]
  rfl

end Cert.KernelIdeal.Reg3

end
-- ==== Proof.KValue.lean ====
/-
  The idealized kernel's result as a function of its arguments: the four regions' arrays threaded from the launch
  memory to the result buffer. Region 0 leaves u₁ = x · W_in and the scaled skip connection; region 1 a copy of the
  adjacency, h₁ and u₂ = h₁ · W_h; region 2 u₃ = h₂ · W_out; region 3 the output. Between the regions every other
  buffer keeps its contents, and the ten reshapes before region 0 turn each length-n parameter vector into a 1 × n row.
-/
import proofs.«111547_g5291399708710_cont_9to1_m_243_4_alg».proof.Proof.Gen.KernelIdeal.Frame
import proofs.«111547_g5291399708710_cont_9to1_m_243_4_alg».proof.Proof.Spec
import proofs.«111547_g5291399708710_cont_9to1_m_243_4_alg».proof.Proof.KReg0
import proofs.«111547_g5291399708710_cont_9to1_m_243_4_alg».proof.Proof.KReg1
import proofs.«111547_g5291399708710_cont_9to1_m_243_4_alg».proof.Proof.KReg2
import proofs.«111547_g5291399708710_cont_9to1_m_243_4_alg».proof.Proof.KReg3
import Idealize.ShloMosaic.Lib.Pipeline.Value
import Idealize.ShloMosaic.Lib.ValueIdx
import Idealize.ShloMosaic.Lib.ValueLayout

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The stages of the network over the launch memory's arguments -/

/-- u₁ = x · W_in. -/
abbrev netU1 (c : Dev nD) : Fin 10000 → Fin 128 → EReal :=
  Spec.mm
    (Spec.cur2 (n0 := 10000) (n1 := 128) (m ((c.tc : Thread nD τ).loc main_arg0)))
    (Spec.cur2 (n0 := 128) (n1 := 128) (m ((c.tc : Thread nD τ).loc main_arg2)))
/-- h₁ = relu (LN (adj · u₁ + b_in)). -/
abbrev netH1 (c : Dev nD) : Fin 10000 → Fin 128 → EReal :=
  Spec.h1
    (Spec.cur2 (n0 := 10000) (n1 := 10000) (m ((c.tc : Thread nD τ).loc main_arg1)))
    (netU1 m c)
    (Spec.cur1 (n := 128) (m ((c.tc : Thread nD τ).loc main_arg3)))
    (Spec.cur1 (n := 128) (m ((c.tc : Thread nD τ).loc main_arg4)))
    (Spec.cur1 (n := 128) (m ((c.tc : Thread nD τ).loc main_arg5)))
/-- u₂ = h₁ · W_h. -/
abbrev netU2 (c : Dev nD) : Fin 10000 → Fin 128 → EReal :=
  Spec.mm
    (netH1 m c)
    (Spec.cur2 (n0 := 128) (n1 := 128) (m ((c.tc : Thread nD τ).loc main_arg6)))
/-- h₂ = relu (LN (adj · u₂ + b_h)) + h₁. -/
abbrev netH2 (c : Dev nD) : Fin 10000 → Fin 128 → EReal :=
  Spec.h2
    (Spec.cur2 (n0 := 10000) (n1 := 10000) (m ((c.tc : Thread nD τ).loc main_arg1)))
    (netU2 m c)
    (Spec.cur1 (n := 128) (m ((c.tc : Thread nD τ).loc main_arg7)))
    (Spec.cur1 (n := 128) (m ((c.tc : Thread nD τ).loc main_arg8)))
    (Spec.cur1 (n := 128) (m ((c.tc : Thread nD τ).loc main_arg9)))
    (netH1 m c)
/-- u₃ = h₂ · W_out. -/
abbrev netU3 (c : Dev nD) : Fin 10000 → Fin 16 → EReal :=
  Spec.mm
    (netH2 m c)
    (Spec.cur2 (n0 := 128) (n1 := 16) (m ((c.tc : Thread nD τ).loc main_arg10)))
/-- The scaled skip connection 0.1 · (x · W_skip + b_skip). -/
abbrev netSkip (c : Dev nD) : Fin 10000 → Fin 16 → EReal :=
  Spec.skip
    (Spec.cur2 (n0 := 10000) (n1 := 128) (m ((c.tc : Thread nD τ).loc main_arg0)))
    (Spec.cur2 (n0 := 128) (n1 := 16) (m ((c.tc : Thread nD τ).loc main_arg14)))
    (Spec.cur1 (n := 16) (m ((c.tc : Thread nD τ).loc main_arg15)))

/-! ## Before the first region

The ten reshapes write the rows only: an argument's buffer holds what the launch memory holds, and each row read at
`(0, q)` is its parameter vector at `q`. -/

theorem V1_arg0 (c : Dev nD) : V1 (F := Ideal) m ρ c main_arg0 = m ((c.tc : Thread nD τ).loc main_arg0) := by
  show StableHlo.after hostOps0 (W0 (F := Ideal) m ρ c) (Proc.devRef .tc main_arg0) = _
  after_results

theorem V1_arg1 (c : Dev nD) : V1 (F := Ideal) m ρ c main_arg1 = m ((c.tc : Thread nD τ).loc main_arg1) := by
  show StableHlo.after hostOps0 (W0 (F := Ideal) m ρ c) (Proc.devRef .tc main_arg1) = _
  after_results

theorem V1_arg2 (c : Dev nD) : V1 (F := Ideal) m ρ c main_arg2 = m ((c.tc : Thread nD τ).loc main_arg2) := by
  show StableHlo.after hostOps0 (W0 (F := Ideal) m ρ c) (Proc.devRef .tc main_arg2) = _
  after_results

theorem V1_arg6 (c : Dev nD) : V1 (F := Ideal) m ρ c main_arg6 = m ((c.tc : Thread nD τ).loc main_arg6) := by
  show StableHlo.after hostOps0 (W0 (F := Ideal) m ρ c) (Proc.devRef .tc main_arg6) = _
  after_results

theorem V1_arg10 (c : Dev nD) : V1 (F := Ideal) m ρ c main_arg10 = m ((c.tc : Thread nD τ).loc main_arg10) := by
  show StableHlo.after hostOps0 (W0 (F := Ideal) m ρ c) (Proc.devRef .tc main_arg10) = _
  after_results

theorem V1_arg14 (c : Dev nD) : V1 (F := Ideal) m ρ c main_arg14 = m ((c.tc : Thread nD τ).loc main_arg14) := by
  show StableHlo.after hostOps0 (W0 (F := Ideal) m ρ c) (Proc.devRef .tc main_arg14) = _
  after_results

theorem row1_v0 (c : Dev nD) :
    Spec.row (n := 128) (V1 (F := Ideal) m ρ c main_v0) = Spec.cur1 (n := 128) (m ((c.tc : Thread nD τ).loc main_arg3)) := by
  funext q
  show StableHlo.after hostOps0 (W0 (F := Ideal) m ρ c) (Proc.devRef .tc main_v0) (ix2 0 q) = _
  after_results
  exact shapeCast_a_1a_apply _ _ 0 q

theorem row1_v1 (c : Dev nD) :
    Spec.row (n := 128) (V1 (F := Ideal) m ρ c main_v1) = Spec.cur1 (n := 128) (m ((c.tc : Thread nD τ).loc main_arg4)) := by
  funext q
  show StableHlo.after hostOps0 (W0 (F := Ideal) m ρ c) (Proc.devRef .tc main_v1) (ix2 0 q) = _
  after_results
  exact shapeCast_a_1a_apply _ _ 0 q

theorem row1_v2 (c : Dev nD) :
    Spec.row (n := 128) (V1 (F := Ideal) m ρ c main_v2) = Spec.cur1 (n := 128) (m ((c.tc : Thread nD τ).loc main_arg5)) := by
  funext q
  show StableHlo.after hostOps0 (W0 (F := Ideal) m ρ c) (Proc.devRef .tc main_v2) (ix2 0 q) = _
  after_results
  exact shapeCast_a_1a_apply _ _ 0 q

theorem row1_v3 (c : Dev nD) :
    Spec.row (n := 128) (V1 (F := Ideal) m ρ c main_v3) = Spec.cur1 (n := 128) (m ((c.tc : Thread nD τ).loc main_arg7)) := by
  funext q
  show StableHlo.after hostOps0 (W0 (F := Ideal) m ρ c) (Proc.devRef .tc main_v3) (ix2 0 q) = _
  after_results
  exact shapeCast_a_1a_apply _ _ 0 q

theorem row1_v4 (c : Dev nD) :
    Spec.row (n := 128) (V1 (F := Ideal) m ρ c main_v4) = Spec.cur1 (n := 128) (m ((c.tc : Thread nD τ).loc main_arg8)) := by
  funext q
  show StableHlo.after hostOps0 (W0 (F := Ideal) m ρ c) (Proc.devRef .tc main_v4) (ix2 0 q) = _
  after_results
  exact shapeCast_a_1a_apply _ _ 0 q

theorem row1_v5 (c : Dev nD) :
    Spec.row (n := 128) (V1 (F := Ideal) m ρ c main_v5) = Spec.cur1 (n := 128) (m ((c.tc : Thread nD τ).loc main_arg9)) := by
  funext q
  show StableHlo.after hostOps0 (W0 (F := Ideal) m ρ c) (Proc.devRef .tc main_v5) (ix2 0 q) = _
  after_results
  exact shapeCast_a_1a_apply _ _ 0 q

theorem row1_v6 (c : Dev nD) :
    Spec.row (n := 16) (V1 (F := Ideal) m ρ c main_v6) = Spec.cur1 (n := 16) (m ((c.tc : Thread nD τ).loc main_arg11)) := by
  funext q
  show StableHlo.after hostOps0 (W0 (F := Ideal) m ρ c) (Proc.devRef .tc main_v6) (ix2 0 q) = _
  after_results
  exact shapeCast_a_1a_apply _ _ 0 q

theorem row1_v7 (c : Dev nD) :
    Spec.row (n := 16) (V1 (F := Ideal) m ρ c main_v7) = Spec.cur1 (n := 16) (m ((c.tc : Thread nD τ).loc main_arg12)) := by
  funext q
  show StableHlo.after hostOps0 (W0 (F := Ideal) m ρ c) (Proc.devRef .tc main_v7) (ix2 0 q) = _
  after_results
  exact shapeCast_a_1a_apply _ _ 0 q

theorem row1_v8 (c : Dev nD) :
    Spec.row (n := 16) (V1 (F := Ideal) m ρ c main_v8) = Spec.cur1 (n := 16) (m ((c.tc : Thread nD τ).loc main_arg13)) := by
  funext q
  show StableHlo.after hostOps0 (W0 (F := Ideal) m ρ c) (Proc.devRef .tc main_v8) (ix2 0 q) = _
  after_results
  exact shapeCast_a_1a_apply _ _ 0 q

theorem row1_v9 (c : Dev nD) :
    Spec.row (n := 16) (V1 (F := Ideal) m ρ c main_v9) = Spec.cur1 (n := 16) (m ((c.tc : Thread nD τ).loc main_arg15)) := by
  funext q
  show StableHlo.after hostOps0 (W0 (F := Ideal) m ρ c) (Proc.devRef .tc main_v9) (ix2 0 q) = _
  after_results
  exact shapeCast_a_1a_apply _ _ 0 q

/-! ## The first region: u₁ and the skip connection -/

theorem cur2_u1 (c : Dev nD) :
    Spec.cur2 (n0 := 10000) (n1 := 128) (V2 (F := Ideal) m ρ c main_v10_0) = netU1 m c := by
  funext p q
  have e : V2 (F := Ideal) m ρ c main_v10_0 = (dat0 (V1 (F := Ideal) m ρ) c).arrAt 4 cfg0.N := W2_arr m ρ c 4
  show V2 (F := Ideal) m ρ c main_v10_0 (ix2 p q) = _
  rw [e, Reg0.arr_u1, V1_arg0, V1_arg2]

theorem cur2_skip (c : Dev nD) :
    Spec.cur2 (n0 := 10000) (n1 := 16) (V2 (F := Ideal) m ρ c main_v10_1) = netSkip m c := by
  funext p q
  have e : V2 (F := Ideal) m ρ c main_v10_1 = (dat0 (V1 (F := Ideal) m ρ) c).arrAt 5 cfg0.N := W2_arr m ρ c 5
  show V2 (F := Ideal) m ρ c main_v10_1 (ix2 p q) = _
  rw [e, Reg0.arr_skip, V1_arg0, V1_arg14, row1_v9]

/-! ## The second region: the adjacency's copy, h₁ and u₂

The first region writes neither the adjacency, nor W_h, nor the rows of b_in, g_in, β_in. -/

theorem V2_arg1 (c : Dev nD) : V2 (F := Ideal) m ρ c main_arg1 = (m ((c.tc : Thread nD τ).loc main_arg1)) :=
  (W2_of_ne m ρ c main_arg1 (by decide)).trans (V1_arg1 m ρ c)

theorem V2_arg6 (c : Dev nD) : V2 (F := Ideal) m ρ c main_arg6 = (m ((c.tc : Thread nD τ).loc main_arg6)) :=
  (W2_of_ne m ρ c main_arg6 (by decide)).trans (V1_arg6 m ρ c)

theorem row2_v0 (c : Dev nD) :
    Spec.row (n := 128) (V2 (F := Ideal) m ρ c main_v0) = Spec.cur1 (n := 128) (m ((c.tc : Thread nD τ).loc main_arg3)) := by
  have e : V2 (F := Ideal) m ρ c main_v0 = V1 (F := Ideal) m ρ c main_v0 := W2_of_ne m ρ c main_v0 (by decide)
  rw [e]; exact row1_v0 m ρ c

theorem row2_v1 (c : Dev nD) :
    Spec.row (n := 128) (V2 (F := Ideal) m ρ c main_v1) = Spec.cur1 (n := 128) (m ((c.tc : Thread nD τ).loc main_arg4)) := by
  have e : V2 (F := Ideal) m ρ c main_v1 = V1 (F := Ideal) m ρ c main_v1 := W2_of_ne m ρ c main_v1 (by decide)
  rw [e]; exact row1_v1 m ρ c

theorem row2_v2 (c : Dev nD) :
    Spec.row (n := 128) (V2 (F := Ideal) m ρ c main_v2) = Spec.cur1 (n := 128) (m ((c.tc : Thread nD τ).loc main_arg5)) := by
  have e : V2 (F := Ideal) m ρ c main_v2 = V1 (F := Ideal) m ρ c main_v2 := W2_of_ne m ρ c main_v2 (by decide)
  rw [e]; exact row1_v2 m ρ c

theorem cur3_adjq (c : Dev nD) :
    Spec.cur2 (n0 := 10000) (n1 := 10000) (V3 (F := Ideal) m ρ c main_v11_0) = Spec.cur2 (n0 := 10000) (n1 := 10000) (m ((c.tc : Thread nD τ).loc main_arg1)) := by
  funext p q
  have e : V3 (F := Ideal) m ρ c main_v11_0 = (dat1 (V2 (F := Ideal) m ρ) c).arrAt 6 cfg1.N := W3_arr m ρ c 6
  show V3 (F := Ideal) m ρ c main_v11_0 (ix2 p q) = _
  rw [e, Reg1.arr_adjq, V2_arg1]

theorem cur3_h1 (c : Dev nD) :
    Spec.cur2 (n0 := 10000) (n1 := 128) (V3 (F := Ideal) m ρ c main_v11_1) = netH1 m c := by
  funext p q
  have e : V3 (F := Ideal) m ρ c main_v11_1 = (dat1 (V2 (F := Ideal) m ρ) c).arrAt 7 cfg1.N := W3_arr m ρ c 7
  show V3 (F := Ideal) m ρ c main_v11_1 (ix2 p q) = _
  rw [e, Reg1.arr_h1, V2_arg1, cur2_u1, row2_v0, row2_v1, row2_v2]

theorem cur3_u2 (c : Dev nD) :
    Spec.cur2 (n0 := 10000) (n1 := 128) (V3 (F := Ideal) m ρ c main_v11_2) = netU2 m c := by
  funext p q
  have e : V3 (F := Ideal) m ρ c main_v11_2 = (dat1 (V2 (F := Ideal) m ρ) c).arrAt 8 cfg1.N := W3_arr m ρ c 8
  show V3 (F := Ideal) m ρ c main_v11_2 (ix2 p q) = _
  rw [e, Reg1.arr_u2, V2_arg1, cur2_u1, row2_v0, row2_v1, row2_v2, V2_arg6]

/-! ## The third region: u₃

Neither of the first two regions writes W_out or the rows of b_h, g_h, β_h. -/

theorem V3_arg10 (c : Dev nD) : V3 (F := Ideal) m ρ c main_arg10 = (m ((c.tc : Thread nD τ).loc main_arg10)) :=
  (W3_of_ne m ρ c main_arg10 (by decide)).trans ((W2_of_ne m ρ c main_arg10 (by decide)).trans (V1_arg10 m ρ c))

theorem row3_v3 (c : Dev nD) :
    Spec.row (n := 128) (V3 (F := Ideal) m ρ c main_v3) = Spec.cur1 (n := 128) (m ((c.tc : Thread nD τ).loc main_arg7)) := by
  have e : V3 (F := Ideal) m ρ c main_v3 = V1 (F := Ideal) m ρ c main_v3 :=
    (W3_of_ne m ρ c main_v3 (by decide)).trans (W2_of_ne m ρ c main_v3 (by decide))
  rw [e]; exact row1_v3 m ρ c

theorem row3_v4 (c : Dev nD) :
    Spec.row (n := 128) (V3 (F := Ideal) m ρ c main_v4) = Spec.cur1 (n := 128) (m ((c.tc : Thread nD τ).loc main_arg8)) := by
  have e : V3 (F := Ideal) m ρ c main_v4 = V1 (F := Ideal) m ρ c main_v4 :=
    (W3_of_ne m ρ c main_v4 (by decide)).trans (W2_of_ne m ρ c main_v4 (by decide))
  rw [e]; exact row1_v4 m ρ c

theorem row3_v5 (c : Dev nD) :
    Spec.row (n := 128) (V3 (F := Ideal) m ρ c main_v5) = Spec.cur1 (n := 128) (m ((c.tc : Thread nD τ).loc main_arg9)) := by
  have e : V3 (F := Ideal) m ρ c main_v5 = V1 (F := Ideal) m ρ c main_v5 :=
    (W3_of_ne m ρ c main_v5 (by decide)).trans (W2_of_ne m ρ c main_v5 (by decide))
  rw [e]; exact row1_v5 m ρ c

theorem cur4_u3 (c : Dev nD) :
    Spec.cur2 (n0 := 10000) (n1 := 16) (V4 (F := Ideal) m ρ c main_v12) = netU3 m c := by
  funext p q
  have e : V4 (F := Ideal) m ρ c main_v12 = (dat2 (V3 (F := Ideal) m ρ) c).arrAt 7 cfg2.N := W4_arr m ρ c 7
  show V4 (F := Ideal) m ρ c main_v12 (ix2 p q) = _
  rw [e, Reg2.arr_u3, cur3_adjq, cur3_u2, row3_v3, row3_v4, row3_v5, cur3_h1, V3_arg10]

/-! ## The fourth region: the output

The third region reads the adjacency's copy and leaves it as entered; it does not write the skip connection, which
the second does not write either; none of the first three writes the rows of b_out, g_out, β_out. -/

theorem cur4_adjq (c : Dev nD) :
    Spec.cur2 (n0 := 10000) (n1 := 10000) (V4 (F := Ideal) m ρ c main_v11_0) = Spec.cur2 (n0 := 10000) (n1 := 10000) (m ((c.tc : Thread nD τ).loc main_arg1)) := by
  have e : V4 (F := Ideal) m ρ c main_v11_0 = V3 (F := Ideal) m ρ c main_v11_0 :=
    (W4_arr m ρ c 0).trans (((dat2 (V3 (F := Ideal) m ρ) c).arrAt_in 0 rfl _).trans (A_eq2 (V3 (F := Ideal) m ρ) c 0))
  rw [e]; exact cur3_adjq m ρ c

theorem cur4_skip (c : Dev nD) :
    Spec.cur2 (n0 := 10000) (n1 := 16) (V4 (F := Ideal) m ρ c main_v10_1) = netSkip m c := by
  have e : V4 (F := Ideal) m ρ c main_v10_1 = V2 (F := Ideal) m ρ c main_v10_1 :=
    (W4_of_ne m ρ c main_v10_1 (by decide)).trans (W3_of_ne m ρ c main_v10_1 (by decide))
  rw [e]; exact cur2_skip m ρ c

theorem row4_v6 (c : Dev nD) :
    Spec.row (n := 16) (V4 (F := Ideal) m ρ c main_v6) = Spec.cur1 (n := 16) (m ((c.tc : Thread nD τ).loc main_arg11)) := by
  have e : V4 (F := Ideal) m ρ c main_v6 = V1 (F := Ideal) m ρ c main_v6 :=
    (W4_of_ne m ρ c main_v6 (by decide)).trans
      ((W3_of_ne m ρ c main_v6 (by decide)).trans (W2_of_ne m ρ c main_v6 (by decide)))
  rw [e]; exact row1_v6 m ρ c

theorem row4_v7 (c : Dev nD) :
    Spec.row (n := 16) (V4 (F := Ideal) m ρ c main_v7) = Spec.cur1 (n := 16) (m ((c.tc : Thread nD τ).loc main_arg12)) := by
  have e : V4 (F := Ideal) m ρ c main_v7 = V1 (F := Ideal) m ρ c main_v7 :=
    (W4_of_ne m ρ c main_v7 (by decide)).trans
      ((W3_of_ne m ρ c main_v7 (by decide)).trans (W2_of_ne m ρ c main_v7 (by decide)))
  rw [e]; exact row1_v7 m ρ c

theorem row4_v8 (c : Dev nD) :
    Spec.row (n := 16) (V4 (F := Ideal) m ρ c main_v8) = Spec.cur1 (n := 16) (m ((c.tc : Thread nD τ).loc main_arg13)) := by
  have e : V4 (F := Ideal) m ρ c main_v8 = V1 (F := Ideal) m ρ c main_v8 :=
    (W4_of_ne m ρ c main_v8 (by decide)).trans
      ((W3_of_ne m ρ c main_v8 (by decide)).trans (W2_of_ne m ρ c main_v8 (by decide)))
  rw [e]; exact row1_v8 m ρ c

/-! ## The result -/

/-- The result buffer after the last region holds the network's output of the launch memory's arguments. -/
theorem out_eq (c : Dev nD) (p : Fin 10000) (q : Fin 16) :
    (W5 (F := Ideal) m ρ c (Proc.devRef .tc main_v13) : S10000x16.Idx → EReal) (ix2 p q)
      = Spec.net
          (Spec.cur2 (n0 := 10000) (n1 := 128) (m ((c.tc : Thread nD τ).loc main_arg0)))
          (Spec.cur2 (n0 := 10000) (n1 := 10000) (m ((c.tc : Thread nD τ).loc main_arg1)))
          (Spec.cur2 (n0 := 128) (n1 := 128) (m ((c.tc : Thread nD τ).loc main_arg2)))
          (Spec.cur1 (n := 128) (m ((c.tc : Thread nD τ).loc main_arg3)))
          (Spec.cur1 (n := 128) (m ((c.tc : Thread nD τ).loc main_arg4)))
          (Spec.cur1 (n := 128) (m ((c.tc : Thread nD τ).loc main_arg5)))
          (Spec.cur2 (n0 := 128) (n1 := 128) (m ((c.tc : Thread nD τ).loc main_arg6)))
          (Spec.cur1 (n := 128) (m ((c.tc : Thread nD τ).loc main_arg7)))
          (Spec.cur1 (n := 128) (m ((c.tc : Thread nD τ).loc main_arg8)))
          (Spec.cur1 (n := 128) (m ((c.tc : Thread nD τ).loc main_arg9)))
          (Spec.cur2 (n0 := 128) (n1 := 16) (m ((c.tc : Thread nD τ).loc main_arg10)))
          (Spec.cur1 (n := 16) (m ((c.tc : Thread nD τ).loc main_arg11)))
          (Spec.cur1 (n := 16) (m ((c.tc : Thread nD τ).loc main_arg12)))
          (Spec.cur1 (n := 16) (m ((c.tc : Thread nD τ).loc main_arg13)))
          (Spec.cur2 (n0 := 128) (n1 := 16) (m ((c.tc : Thread nD τ).loc main_arg14)))
          (Spec.cur1 (n := 16) (m ((c.tc : Thread nD τ).loc main_arg15))) p q := by
  have e : W5 (F := Ideal) m ρ c (Proc.devRef .tc main_v13) = (dat3 (V4 (F := Ideal) m ρ) c).arrAt 6 cfg3.N := W5_arr m ρ c 6
  rw [e, Reg3.arr_out, cur4_adjq, cur4_u3, row4_v6, row4_v7, row4_v8, cur4_skip]
  rfl

end Cert.KernelIdeal.KValue

end
-- ==== Proof.LibSsa.lean ====
/-
  A straight line of host operations in single-assignment order. The TensorCore references of a program are numbered;
  the line's operations write the references n, n + 1, n + 2, … in this order, one each, and each operation reads
  only references numbered below its own. Then (1) a reference numbered below n keeps its contents through the whole
  line, and (2) the contents F after the line are a fixed point of every operation of the line: run again on F,
  an operation rewrites its result with what F already holds there, because what it reads was final when it ran. So
  each operation's defining equation holds of the final contents, the shared intermediate values named once.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- The number of a TensorCore reference: its index in its space. -/
abbrev key (r : Ref sig .tc) : Nat := r.idx.val

/-- An operation that is step `n` of a single-assignment line: it changes no reference numbered otherwise, and what it
    leaves at the reference numbered `n` depends on the contents before it only through references numbered below `n`. -/
def Step (n : Nat) (op : HloOp τ sig Val) : Prop :=
  (∀ (X : Valuation τ sig Val) (r : Ref sig .tc), key r ≠ n → op.result X (Proc.devRef .tc r) = X (Proc.devRef .tc r)) ∧
  (∀ (X X' : Valuation τ sig Val), (∀ r : Ref sig .tc, key r < n → X (Proc.devRef .tc r) = X' (Proc.devRef .tc r)) →
    ∀ r : Ref sig .tc, key r = n → op.result X (Proc.devRef .tc r) = op.result X' (Proc.devRef .tc r))

/-- A line whose operations are the steps n, n + 1, … in order. -/
def Chain : Nat → List (HloOp τ sig Val) → Prop
  | _, [] => True
  | n, op :: ops => Step n op ∧ Chain (n + 1) ops

theorem chain_append {n : Nat} (l₁ l₂ : List (HloOp τ sig Val)) (h₁ : Chain n l₁) (h₂ : Chain (n + l₁.length) l₂) :
    Chain n (l₁ ++ l₂) := by
  induction l₁ generalizing n with
  | nil => simpa using h₂
  | cons op l ih =>
    refine ⟨h₁.1, ih h₁.2 ?_⟩
    have e : n + 1 + l.length = n + (op :: l).length := by simp only [List.length_cons]; omega
    rw [e]; exact h₂

/-- A reference numbered below the line's first step keeps its contents. -/
theorem after_below {n : Nat} {ops : List (HloOp τ sig Val)} (h : Chain n ops) (X : Valuation τ sig Val) (r : Ref sig .tc)
    (hr : key r < n) : after ops X (Proc.devRef .tc r) = X (Proc.devRef .tc r) := by
  induction ops generalizing n X with
  | nil => rfl
  | cons op ops ih =>
    rw [after_cons, ih h.2 _ (Nat.lt_succ_of_lt hr)]
    exact h.1.1 X r (Nat.ne_of_lt hr)

/-- The contents after the line are a fixed point of each of its operations. -/
theorem fixed {n : Nat} {ops : List (HloOp τ sig Val)} (h : Chain n ops) (X : Valuation τ sig Val) :
    ∀ op ∈ ops, ∀ r : Ref sig .tc, op.result (after ops X) (Proc.devRef .tc r) = after ops X (Proc.devRef .tc r) := by
  induction ops generalizing n X with
  | nil => intro op hop; exact absurd hop (List.not_mem_nil)
  | cons op ops ih =>
    intro op' hop' r
    rcases List.mem_cons.mp hop' with rfl | hmem
    · by_cases hr : key r = n
      · rw [h.1.2 (after (op' :: ops) X) X (fun r' hr' => after_below h X r' hr') r hr, after_cons,
          after_below h.2 _ r (by omega)]
      · exact h.1.1 _ r hr
    · rw [after_cons]
      exact ih h.2 _ op' hmem r

section Builders

variable (hinj : ∀ r r' : Ref sig .tc, key r = key r' → r = r')
include hinj

theorem step_nullary (y : Ref sig .tc) (v : y.ty.Contents Val) (hy) (n : Nat) (hyn : key y = n) :
    Step n (nullary (τ := τ) y v hy) := by
  refine ⟨fun X r hr => nullary_result_ne y v hy X (fun e => hr (e ▸ hyn)), fun X X' _ r hr => ?_⟩
  obtain rfl : r = y := hinj _ _ (hr.trans hyn.symm)
  exact (nullary_result r v hy X).trans (nullary_result r v hy X').symm

theorem step_unary (x y : Ref sig .tc) (f : x.ty.Contents Val → y.ty.Contents Val) (hx hy) (n : Nat) (hyn : key y = n)
    (hxn : key x < n) : Step n (unary (τ := τ) x y f hx hy) := by
  refine ⟨fun X r hr => unary_result_ne x y f hx hy X (fun e => hr (e ▸ hyn)), fun X X' hX r hr => ?_⟩
  obtain rfl : r = y := hinj _ _ (hr.trans hyn.symm)
  refine (unary_result x r f hx hy X).trans (Eq.trans ?_ (unary_result x r f hx hy X').symm)
  exact congrArg f (hX x hxn)

theorem step_binary (a b y : Ref sig .tc) (f : a.ty.Contents Val → b.ty.Contents Val → y.ty.Contents Val) (ha hb hy) (n : Nat)
    (hyn : key y = n) (han : key a < n) (hbn : key b < n) : Step n (binary (τ := τ) a b y f ha hb hy) := by
  refine ⟨fun X r hr => binary_result_ne a b y f ha hb hy X (fun e => hr (e ▸ hyn)), fun X X' hX r hr => ?_⟩
  obtain rfl : r = y := hinj _ _ (hr.trans hyn.symm)
  refine (binary_result a b r f ha hb hy X).trans (Eq.trans ?_ (binary_result a b r f ha hb hy X').symm)
  exact congrArg₂ f (hX a han) (hX b hbn)

theorem step_reshape (x y : Ref sig .tc) (he : x.ty.elt = y.ty.elt) (hn : x.ty.shape.ShapeCasts y.ty.shape) (hx hy) (n : Nat)
    (hyn : key y = n) (hxn : key x < n) : Step n (reshape (τ := τ) (Val := Val) x y he hn hx hy) := by
  refine ⟨fun X r hr => reshape_result_ne x y he hn hx hy X (fun e => hr (e ▸ hyn)), fun X X' hX r hr => ?_⟩
  obtain rfl : r = y := hinj _ _ (hr.trans hyn.symm)
  refine (reshape_result x r he hn hx hy X).trans (Eq.trans ?_ (reshape_result x r he hn hx hy X').symm)
  have e : X (Proc.devRef .tc x) = X' (Proc.devRef .tc x) := hX x hxn
  show (fun i => he ▸ shapeCast r.ty.shape (X (Proc.devRef .tc x)) hn i) = fun i => he ▸ shapeCast r.ty.shape (X' (Proc.devRef .tc x)) hn i
  rw [e]

end Builders

end Idealize.ShloMosaic.StableHlo.Ssa

end
-- ==== Proof.RefSsa.lean ====
/-
  What the reference's three layer modules share about its single-assignment line: every buffer of the program is an HBM
  buffer, so a buffer's number determines it; the step fact for a three-operand operation (the select); and, for contents
  `X` that an operation leaves fixed, the operation's defining equation read off `X`.
-/
import proofs.«111547_g5291399708710_cont_9to1_m_243_4_alg».proof.ReferenceIdeal
import proofs.«111547_g5291399708710_cont_9to1_m_243_4_alg».proof.Proof.Gen.ReferenceIdeal
import proofs.«111547_g5291399708710_cont_9to1_m_243_4_alg».proof.Proof.LibSsa
import Idealize.ShloMosaic.Lib.StableHlo.Run

noncomputable section

namespace Cert.ReferenceIdeal.RefSsa

open Idealize.ShloMosaic Idealize.ShloMosaic.StableHlo Idealize.ShloMosaic.StableHlo.Ssa
open Cert.ReferenceIdeal

variable {Val : EltTy → Type}

/-- A TensorCore reference of this program is determined by its number: the program names HBM buffers only. -/
theorem key_inj : ∀ r r' : Ref sig .tc, key r = key r' → r = r' := by
  rintro ⟨s, i, hi⟩ ⟨s', i', hi'⟩ h
  -- every space but HBM holds no buffer
  have none_of : ∀ sp : Space, sp ≠ .hbm → sig.nNear .tc sp = 0 := by
    intro sp hsp
    rcases sp with (_ | _) | _ | _ | _ <;> first | rfl | exact absurd rfl hsp
  by_cases hs : s = .hbm
  · by_cases hs' : s' = .hbm
    · subst hs; subst hs'
      obtain rfl : i = i' := Fin.ext h
      rfl
    · exact (Nat.not_lt_zero _ (lt_of_lt_of_eq i'.isLt (none_of s' hs'))).elim
  · exact (Nat.not_lt_zero _ (lt_of_lt_of_eq i.isLt (none_of s hs))).elim

/-- A three-operand operation is step `n` when it writes the buffer numbered `n` and reads buffers numbered below. -/
theorem step_ternary (c a b y : Ref sig .tc) (f : c.ty.Contents Val → a.ty.Contents Val → b.ty.Contents Val → y.ty.Contents Val)
    (hc ha hb hy) (n : Nat) (hyn : key y = n) (hcn : key c < n) (han : key a < n) (hbn : key b < n) :
    Step n (ternary (τ := τ) c a b y f hc ha hb hy) := by
  refine ⟨fun X r hr => ternary_result_ne a b c y f hc ha hb hy X (fun e => hr (e ▸ hyn)), fun X X' hX r hr => ?_⟩
  obtain rfl : r = y := key_inj _ _ (hr.trans hyn.symm)
  refine (ternary_result c a b r f hc ha hb hy X).trans (Eq.trans ?_ (ternary_result c a b r f hc ha hb hy X').symm)
  exact congr (congr (congrArg f (hX c hcn)) (hX a han)) (hX b hbn)

section Fixed

variable (X : Valuation τ sig Val)

/-- Contents a constant's operation leaves fixed hold the constant. -/
theorem eq_nullary (y : Ref sig .tc) (v : y.ty.Contents Val) (hy)
    (h : ∀ r : Ref sig .tc, (nullary (τ := τ) y v hy).result X (Proc.devRef .tc r) = X (Proc.devRef .tc r)) :
    X (Proc.devRef .tc y) = v := by
  exact (h y).symm.trans (nullary_result y v hy X)

theorem eq_unary (x y : Ref sig .tc) (f : x.ty.Contents Val → y.ty.Contents Val) (hx hy)
    (h : ∀ r : Ref sig .tc, (unary (τ := τ) x y f hx hy).result X (Proc.devRef .tc r) = X (Proc.devRef .tc r)) :
    X (Proc.devRef .tc y) = f (X (Proc.devRef .tc x)) := by
  exact (h y).symm.trans (unary_result x y f hx hy X)

theorem eq_binary (a b y : Ref sig .tc) (f : a.ty.Contents Val → b.ty.Contents Val → y.ty.Contents Val) (ha hb hy)
    (h : ∀ r : Ref sig .tc, (binary (τ := τ) a b y f ha hb hy).result X (Proc.devRef .tc r) = X (Proc.devRef .tc r)) :
    X (Proc.devRef .tc y) = f (X (Proc.devRef .tc a)) (X (Proc.devRef .tc b)) := by
  exact (h y).symm.trans (binary_result a b y f ha hb hy X)

theorem eq_ternary (c a b y : Ref sig .tc) (f : c.ty.Contents Val → a.ty.Contents Val → b.ty.Contents Val → y.ty.Contents Val)
    (hc ha hb hy)
    (h : ∀ r : Ref sig .tc, (ternary (τ := τ) c a b y f hc ha hb hy).result X (Proc.devRef .tc r) = X (Proc.devRef .tc r)) :
    X (Proc.devRef .tc y) = f (X (Proc.devRef .tc c)) (X (Proc.devRef .tc a)) (X (Proc.devRef .tc b)) := by
  exact (h y).symm.trans (ternary_result c a b y f hc ha hb hy X)

end Fixed

end Cert.ReferenceIdeal.RefSsa

end
-- ==== Proof.RefLN.lean ====
/-
  The reference's layer normalisation, as its host operations compose, read at an index.

  The reference normalises a row `a` as  g · (a − mean a) / √(var a + ε) + β.  Its mean is the row sum over the count;
  its variance recomputes the mean, sums the squared deviations and divides by `count − ddof` with `ddof = 0` an integer
  constant converted to a float, and is guarded by a select on `count − ddof > 0` against a not-a-number literal: the
  guard is true, so the select returns the quotient, and `count − 0 = count`. Read at an index, the composition is the
  specification's `Spec.ln` of that row.
-/
import proofs.«111547_g5291399708710_cont_9to1_m_243_4_alg».proof.ReferenceIdeal
import proofs.«111547_g5291399708710_cont_9to1_m_243_4_alg».proof.Proof.Gen.ReferenceIdeal
import proofs.«111547_g5291399708710_cont_9to1_m_243_4_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.Lib.StackMember
import Idealize.ShloMosaic.PureOps.Ideal.Laws

noncomputable section

namespace Cert.ReferenceIdeal.RefLN

open Idealize.ShloMosaic Idealize.ShloMosaic.ValueIdx
open Cert.ReferenceIdeal Cert.ReferenceIdeal.Facts₀

/-! ## Broadcasts read at an index -/

section Bcast
variable {α : Type}

/-- A vector laid as the single row of a one-row matrix. -/
theorem bcast_vecToRow_apply {n : Nat} (h : (⟨1, ![n]⟩ : Shape).BroadcastsInDim ⟨2, ![1, n]⟩ ![1])
    (x : (⟨1, ![n]⟩ : Shape).Idx → α) (r : Fin 1) (t : Fin n) :
    broadcastInDim ⟨2, ![1, n]⟩ ![1] h x (ix2 r t) = x (ix1 t) := by
  refine broadcastInDim_apply ![1] h x (ix2 r t) (ix1 t) ?_
  intro a
  fin_cases a
  show t.val = if n = 1 then 0 else t.val
  split_ifs with hn
  · have := t.isLt; omega
  · rfl

/-- A vector laid as the single column of a one-column matrix. -/
theorem bcast_vecToCol_apply {m : Nat} (h : (⟨1, ![m]⟩ : Shape).BroadcastsInDim ⟨2, ![m, 1]⟩ ![0])
    (x : (⟨1, ![m]⟩ : Shape).Idx → α) (r : Fin m) (t : Fin 1) :
    broadcastInDim ⟨2, ![m, 1]⟩ ![0] h x (ix2 r t) = x (ix1 r) := by
  refine broadcastInDim_apply ![0] h x (ix2 r t) (ix1 r) ?_
  intro a
  fin_cases a
  show r.val = if m = 1 then 0 else r.val
  split_ifs with hm
  · have := r.isLt; omega
  · rfl

/-- A one-column matrix copied across `n` columns. -/
theorem bcast_colAcross_apply {m n : Nat} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  fin_cases a
  · show r.val = if m = 1 then 0 else r.val
    split_ifs with hm
    · have := r.isLt; omega
    · rfl
  · show (0 : ℕ) = if (1 : ℕ) = 1 then 0 else _
    simp

end Bcast

/-- A vector broadcast along every row, read at an index: the two broadcasts compose to the vector's entry. -/
theorem rowVec128_apply (g : FVec Ideal S128 .f32) (p : Fin 10000) (q : Fin 128) :
    broadcastInDim S10000x128 ![0, 1] bcast_S1x128_S10000x128_0_1 (broadcastInDim S1x128 ![1] bcast_S128_S1x128_1 g) (ix2 p q)
      = g (ix1 q) := by
  rw [broadcastInDim_oneRow_apply, bcast_vecToRow_apply]

theorem rowVec16_apply (g : FVec Ideal S16 .f32) (p : Fin 10000) (q : Fin 16) :
    broadcastInDim S10000x16 ![0, 1] bcast_S1x16_S10000x16_0_1 (broadcastInDim S1x16 ![1] bcast_S16_S1x16_1 g) (ix2 p q)
      = g (ix1 q) := by
  rw [broadcastInDim_oneRow_apply, bcast_vecToRow_apply]

/-! ## Width 128 -/

/-- The row means, as a column. -/
def mean128 (a : FVec Ideal S10000x128 .f32) : FVec Ideal S10000x1 .f32 :=
  Host.divf (F := Ideal)
    (broadcastInDim S10000x1 ![0] bcast_S10000_S10000x1_0
      (Host.reduceAdd (F := Ideal) a (constant (F := Ideal) S_ .f32 0x00000000#32) reducesTo_S10000x128_S10000_d1 h_S_))
    (broadcastInDim S10000x1 ![] bcast_S_S10000x1 (constant (F := Ideal) S_ .f32 0x43000000#32))

/-- The count less the integer `ddof`, as a float scalar. -/
def cnt128 (ddof : IVec S_ 32) : FVec Ideal S_ .f32 :=
  subf (constant (F := Ideal) S_ .f32 0x43000000#32) (sitofp (F := Ideal) .f32 ddof)

/-- The row variances, as a column: the guarded quotient of the summed squared deviations by the count less `ddof`. -/
def var128 (a : FVec Ideal S10000x128 .f32) (ddof : IVec S_ 32) : FVec Ideal S10000x1 .f32 :=
  select (broadcastInDim S10000x1 ![] bcast_S_S10000x1 (cmpf .ogt (cnt128 ddof) (constant (F := Ideal) S_ .f32 0x00000000#32)))
    (Host.divf (F := Ideal)
      (broadcastInDim S10000x1 ![0] bcast_S10000_S10000x1_0
        (Host.reduceAdd (F := Ideal)
          (mulf (subf a (broadcastInDim S10000x128 ![0, 1] bcast_S10000x1_S10000x128_0_1 (mean128 a)))
                (subf a (broadcastInDim S10000x128 ![0, 1] bcast_S10000x1_S10000x128_0_1 (mean128 a))))
          (constant (F := Ideal) S_ .f32 0x00000000#32) reducesTo_S10000x128_S10000_d1 h_S_))
      (broadcastInDim S10000x1 ![] bcast_S_S10000x1 (cnt128 ddof)))
    (broadcastInDim S10000x1 ![] bcast_S_S10000x1 (id (constant (F := Ideal) S_ .f32 0x7FC00000#32)))

/-- The normalised array. -/
def ln128 (a : FVec Ideal S10000x128 .f32) (v : FVec Ideal S10000x1 .f32) (g be : FVec Ideal S128 .f32) : FVec Ideal S10000x128 .f32 :=
  addf
    (Host.divf (F := Ideal)
      (mulf (broadcastInDim S10000x128 ![0, 1] bcast_S1x128_S10000x128_0_1 (broadcastInDim S1x128 ![1] bcast_S128_S1x128_1 g))
            (subf a (broadcastInDim S10000x128 ![0, 1] bcast_S10000x1_S10000x128_0_1 (mean128 a))))
      (broadcastInDim S10000x128 ![0, 1] bcast_S10000x1_S10000x128_0_1
        (Host.sqrt (F := Ideal) (addf v (broadcastInDim S10000x1 ![] bcast_S_S10000x1 (constant (F := Ideal) S_ .f32 0x3727C5AC#32))))))
    (broadcastInDim S10000x128 ![0, 1] bcast_S1x128_S10000x128_0_1 (broadcastInDim S1x128 ![1] bcast_S128_S1x128_1 be))

/-- Rectification against the zero splat. -/
def relu128 (a : FVec Ideal S10000x128 .f32) : FVec Ideal S10000x128 .f32 :=
  maximumf a (broadcastInDim S10000x128 ![] bcast_S_S10000x128 (constant (F := Ideal) S_ .f32 0x00000000#32))

/-- A bias vector added to every row. -/
def addBias128 (a : FVec Ideal S10000x128 .f32) (b : FVec Ideal S128 .f32) : FVec Ideal S10000x128 .f32 :=
  addf a (broadcastInDim S10000x128 ![0, 1] bcast_S1x128_S10000x128_0_1 (broadcastInDim S1x128 ![1] bcast_S128_S1x128_1 b))

/-- A row's sum by the reduce over axis 1 from the zero scalar. -/
theorem rowSum128_apply (x : FVec Ideal S10000x128 .f32) (p : Fin 10000) :
    Host.reduceAdd (F := Ideal) x (constant (F := Ideal) S_ .f32 0x00000000#32) reducesTo_S10000x128_S10000_d1 h_S_ (ix1 p)
      = ∑ k : Fin 128, x (ix2 p k) := by
  rw [hostReduceAdd_apply,
    Ideal.hostReduceAdd_single reducesTo_S10000x128_S10000_d1 (by decide : Shape.Reduces S10000x128 [1] S10000),
    constant_apply, Ideal.ofBits_zero_f32, zero_add]
  refine Finset.sum_congr rfl fun k _ => congrArg x ?_
  funext d
  apply Fin.ext
  match d with
  | ⟨0, _⟩ => rfl
  | ⟨1, _⟩ => rfl

/-- The host's square root read at an index. -/
theorem hostSqrt128_apply (x : FVec Ideal S10000x1 .f32) (i : S10000x1.Idx) :
    Host.sqrt (F := Ideal) x i = Ideal.sqrt (x i) := rfl

/-- The mean column read at a row is the specification's mean of that row. -/
theorem mean128_apply (a : FVec Ideal S10000x128 .f32) (p : Fin 10000) (t : Fin 1) :
    mean128 a (ix2 p t) = Spec.mean Spec.c128 (Spec.cur2 (n0 := 10000) (n1 := 128) a p) := by
  unfold mean128 Spec.mean
  rw [hostDivf_apply, bcast_vecToCol_apply, rowSum128_apply, broadcastInDim_scalar_apply, constant_apply]

/-- The count less the integer zero is the count. -/
theorem cnt128_zero : cnt128 (constantI S_ 32 0#32) ix0 = Spec.c128 := by
  unfold cnt128
  rw [subf_apply, constant_apply, sitofp_apply, constantI_apply, Spec.sitofp_zero, sub_zero]

/-- The guard of the variance holds: the count exceeds zero. -/
theorem guard128 :
    cmpf .ogt (cnt128 (constantI S_ 32 0#32)) (constant (F := Ideal) S_ .f32 0x00000000#32) ix0 = 1#1 := by
  unfold cnt128
  rw [cmpf_apply, subf_apply, constant_apply, sitofp_apply, constantI_apply, constant_apply]
  exact Spec.cmp_gt_c128

/-- The variance column read at a row is the specification's variance of that row. -/
theorem var128_apply (a : FVec Ideal S10000x128 .f32) (p : Fin 10000) (t : Fin 1) :
    var128 a (constantI S_ 32 0#32) (ix2 p t) = Spec.var Spec.c128 (Spec.cur2 (n0 := 10000) (n1 := 128) a p) := by
  unfold var128 Spec.var
  rw [select_apply, broadcastInDim_scalar_apply, guard128, select_one, hostDivf_apply, bcast_vecToCol_apply,
    rowSum128_apply, broadcastInDim_scalar_apply, cnt128_zero]
  congr 1
  refine Finset.sum_congr rfl fun k _ => ?_
  rw [mulf_apply, subf_apply, bcast_colAcross_apply, mean128_apply]

theorem ln128_apply (a : FVec Ideal S10000x128 .f32) (g be : FVec Ideal S128 .f32) (p : Fin 10000) (q : Fin 128) :
    ln128 a (var128 a (constantI S_ 32 0#32)) g be (ix2 p q)
      = Spec.ln Spec.c128 (Spec.cur2 (n0 := 10000) (n1 := 128) a p) (Spec.cur1 (n := 128) g) (Spec.cur1 (n := 128) be) q := by
  unfold ln128 Spec.ln
  rw [addf_apply, hostDivf_apply, mulf_apply, subf_apply, rowVec128_apply, rowVec128_apply, bcast_colAcross_apply,
    bcast_colAcross_apply, mean128_apply, hostSqrt128_apply, addf_apply, var128_apply, broadcastInDim_scalar_apply,
    constant_apply]

theorem relu128_apply (a : FVec Ideal S10000x128 .f32) (p : Fin 10000) (q : Fin 128) :
    relu128 a (ix2 p q) = max (a (ix2 p q)) Spec.c0 := by
  unfold relu128
  rw [maximumf_apply, broadcastInDim_scalar_apply, constant_apply]

theorem addBias128_apply (a : FVec Ideal S10000x128 .f32) (b : FVec Ideal S128 .f32) (p : Fin 10000) (q : Fin 128) :
    addBias128 a b (ix2 p q) = a (ix2 p q) + b (ix1 q) := by
  unfold addBias128
  rw [addf_apply, rowVec128_apply]

/-! ## Width 16 -/

def mean16 (a : FVec Ideal S10000x16 .f32) : FVec Ideal S10000x1 .f32 :=
  Host.divf (F := Ideal)
    (broadcastInDim S10000x1 ![0] bcast_S10000_S10000x1_0
      (Host.reduceAdd (F := Ideal) a (constant (F := Ideal) S_ .f32 0x00000000#32) reducesTo_S10000x16_S10000_d1 h_S_))
    (broadcastInDim S10000x1 ![] bcast_S_S10000x1 (constant (F := Ideal) S_ .f32 0x41800000#32))

def cnt16 (ddof : IVec S_ 32) : FVec Ideal S_ .f32 :=
  subf (constant (F := Ideal) S_ .f32 0x41800000#32) (sitofp (F := Ideal) .f32 ddof)

def var16 (a : FVec Ideal S10000x16 .f32) (ddof : IVec S_ 32) : FVec Ideal S10000x1 .f32 :=
  select (broadcastInDim S10000x1 ![] bcast_S_S10000x1 (cmpf .ogt (cnt16 ddof) (constant (F := Ideal) S_ .f32 0x00000000#32)))
    (Host.divf (F := Ideal)
      (broadcastInDim S10000x1 ![0] bcast_S10000_S10000x1_0
        (Host.reduceAdd (F := Ideal)
          (mulf (subf a (broadcastInDim S10000x16 ![0, 1] bcast_S10000x1_S10000x16_0_1 (mean16 a)))
                (subf a (broadcastInDim S10000x16 ![0, 1] bcast_S10000x1_S10000x16_0_1 (mean16 a))))
          (constant (F := Ideal) S_ .f32 0x00000000#32) reducesTo_S10000x16_S10000_d1 h_S_))
      (broadcastInDim S10000x1 ![] bcast_S_S10000x1 (cnt16 ddof)))
    (broadcastInDim S10000x1 ![] bcast_S_S10000x1 (id (constant (F := Ideal) S_ .f32 0x7FC00000#32)))

def ln16 (a : FVec Ideal S10000x16 .f32) (v : FVec Ideal S10000x1 .f32) (g be : FVec Ideal S16 .f32) : FVec Ideal S10000x16 .f32 :=
  addf
    (Host.divf (F := Ideal)
      (mulf (broadcastInDim S10000x16 ![0, 1] bcast_S1x16_S10000x16_0_1 (broadcastInDim S1x16 ![1] bcast_S16_S1x16_1 g))
            (subf a (broadcastInDim S10000x16 ![0, 1] bcast_S10000x1_S10000x16_0_1 (mean16 a))))
      (broadcastInDim S10000x16 ![0, 1] bcast_S10000x1_S10000x16_0_1
        (Host.sqrt (F := Ideal) (addf v (broadcastInDim S10000x1 ![] bcast_S_S10000x1 (constant (F := Ideal) S_ .f32 0x3727C5AC#32))))))
    (broadcastInDim S10000x16 ![0, 1] bcast_S1x16_S10000x16_0_1 (broadcastInDim S1x16 ![1] bcast_S16_S1x16_1 be))

def addBias16 (a : FVec Ideal S10000x16 .f32) (b : FVec Ideal S16 .f32) : FVec Ideal S10000x16 .f32 :=
  addf a (broadcastInDim S10000x16 ![0, 1] bcast_S1x16_S10000x16_0_1 (broadcastInDim S1x16 ![1] bcast_S16_S1x16_1 b))

/-- The scaling of the skip connection by the 0.1 splat. -/
def scale16 (a : FVec Ideal S10000x16 .f32) : FVec Ideal S10000x16 .f32 :=
  mulf (broadcastInDim S10000x16 ![] bcast_S_S10000x16 (constant (F := Ideal) S_ .f32 0x3DCCCCCD#32)) a

/-- A row's sum by the reduce over axis 1 from the zero scalar. -/
theorem rowSum16_apply (x : FVec Ideal S10000x16 .f32) (p : Fin 10000) :
    Host.reduceAdd (F := Ideal) x (constant (F := Ideal) S_ .f32 0x00000000#32) reducesTo_S10000x16_S10000_d1 h_S_ (ix1 p)
      = ∑ k : Fin 16, x (ix2 p k) := by
  rw [hostReduceAdd_apply,
    Ideal.hostReduceAdd_single reducesTo_S10000x16_S10000_d1 (by decide : Shape.Reduces S10000x16 [1] S10000),
    constant_apply, Ideal.ofBits_zero_f32, zero_add]
  refine Finset.sum_congr rfl fun k _ => congrArg x ?_
  funext d
  apply Fin.ext
  match d with
  | ⟨0, _⟩ => rfl
  | ⟨1, _⟩ => rfl

/-- The host's square root read at an index. -/
theorem hostSqrt16_apply (x : FVec Ideal S10000x1 .f32) (i : S10000x1.Idx) :
    Host.sqrt (F := Ideal) x i = Ideal.sqrt (x i) := rfl

/-- The mean column read at a row is the specification's mean of that row. -/
theorem mean16_apply (a : FVec Ideal S10000x16 .f32) (p : Fin 10000) (t : Fin 1) :
    mean16 a (ix2 p t) = Spec.mean Spec.c16 (Spec.cur2 (n0 := 10000) (n1 := 16) a p) := by
  unfold mean16 Spec.mean
  rw [hostDivf_apply, bcast_vecToCol_apply, rowSum16_apply, broadcastInDim_scalar_apply, constant_apply]

/-- The count less the integer zero is the count. -/
theorem cnt16_zero : cnt16 (constantI S_ 32 0#32) ix0 = Spec.c16 := by
  unfold cnt16
  rw [subf_apply, constant_apply, sitofp_apply, constantI_apply, Spec.sitofp_zero, sub_zero]

/-- The guard of the variance holds: the count exceeds zero. -/
theorem guard16 :
    cmpf .ogt (cnt16 (constantI S_ 32 0#32)) (constant (F := Ideal) S_ .f32 0x00000000#32) ix0 = 1#1 := by
  unfold cnt16
  rw [cmpf_apply, subf_apply, constant_apply, sitofp_apply, constantI_apply, constant_apply]
  exact Spec.cmp_gt_c16

/-- The variance column read at a row is the specification's variance of that row. -/
theorem var16_apply (a : FVec Ideal S10000x16 .f32) (p : Fin 10000) (t : Fin 1) :
    var16 a (constantI S_ 32 0#32) (ix2 p t) = Spec.var Spec.c16 (Spec.cur2 (n0 := 10000) (n1 := 16) a p) := by
  unfold var16 Spec.var
  rw [select_apply, broadcastInDim_scalar_apply, guard16, select_one, hostDivf_apply, bcast_vecToCol_apply,
    rowSum16_apply, broadcastInDim_scalar_apply, cnt16_zero]
  congr 1
  refine Finset.sum_congr rfl fun k _ => ?_
  rw [mulf_apply, subf_apply, bcast_colAcross_apply, mean16_apply]

theorem ln16_apply (a : FVec Ideal S10000x16 .f32) (g be : FVec Ideal S16 .f32) (p : Fin 10000) (q : Fin 16) :
    ln16 a (var16 a (constantI S_ 32 0#32)) g be (ix2 p q)
      = Spec.ln Spec.c16 (Spec.cur2 (n0 := 10000) (n1 := 16) a p) (Spec.cur1 (n := 16) g) (Spec.cur1 (n := 16) be) q := by
  unfold ln16 Spec.ln
  rw [addf_apply, hostDivf_apply, mulf_apply, subf_apply, rowVec16_apply, rowVec16_apply, bcast_colAcross_apply,
    bcast_colAcross_apply, mean16_apply, hostSqrt16_apply, addf_apply, var16_apply, broadcastInDim_scalar_apply,
    constant_apply]

theorem addBias16_apply (a : FVec Ideal S10000x16 .f32) (b : FVec Ideal S16 .f32) (p : Fin 10000) (q : Fin 16) :
    addBias16 a b (ix2 p q) = a (ix2 p q) + b (ix1 q) := by
  unfold addBias16
  rw [addf_apply, rowVec16_apply]

theorem scale16_apply (a : FVec Ideal S10000x16 .f32) (p : Fin 10000) (q : Fin 16) :
    scale16 a (ix2 p q) = Spec.c01 * a (ix2 p q) := by
  unfold scale16
  rw [mulf_apply, broadcastInDim_scalar_apply, constant_apply]

/-! ## The matrix products -/

theorem dot_x128 (l : FVec Ideal S10000x128 .f32) (r : FVec Ideal S128x128 .f32) (p : Fin 10000) (q : Fin 128) :
    Host.dotGeneral (F := Ideal) dot_S10000x128_S128x128_S10000x128_1_0_0_1_n_n none l r (ix2 p q)
      = Spec.mm (Spec.cur2 (n0 := 10000) (n1 := 128) l) (Spec.cur2 (n0 := 128) (n1 := 128) r) p q := by
  unfold Spec.mm
  exact StackMember.dotGeneral_plain_apply (m := 10000) (k := 128) (n := 128) none l r p q

theorem dot_adj128 (l : FVec Ideal S10000x10000 .f32) (r : FVec Ideal S10000x128 .f32) (p : Fin 10000) (q : Fin 128) :
    Host.dotGeneral (F := Ideal) dot_S10000x10000_S10000x128_S10000x128_1_0_0_1_n_n none l r (ix2 p q)
      = Spec.mm (Spec.cur2 (n0 := 10000) (n1 := 10000) l) (Spec.cur2 (n0 := 10000) (n1 := 128) r) p q := by
  unfold Spec.mm
  exact StackMember.dotGeneral_plain_apply (m := 10000) (k := 10000) (n := 128) none l r p q

theorem dot_x16 (l : FVec Ideal S10000x128 .f32) (r : FVec Ideal S128x16 .f32) (p : Fin 10000) (q : Fin 16) :
    Host.dotGeneral (F := Ideal) dot_S10000x128_S128x16_S10000x16_1_0_0_1_n_n none l r (ix2 p q)
      = Spec.mm (Spec.cur2 (n0 := 10000) (n1 := 128) l) (Spec.cur2 (n0 := 128) (n1 := 16) r) p q := by
  unfold Spec.mm
  exact StackMember.dotGeneral_plain_apply (m := 10000) (k := 128) (n := 16) none l r p q

theorem dot_adj16 (l : FVec Ideal S10000x10000 .f32) (r : FVec Ideal S10000x16 .f32) (p : Fin 10000) (q : Fin 16) :
    Host.dotGeneral (F := Ideal) dot_S10000x10000_S10000x16_S10000x16_1_0_0_1_n_n none l r (ix2 p q)
      = Spec.mm (Spec.cur2 (n0 := 10000) (n1 := 10000) l) (Spec.cur2 (n0 := 10000) (n1 := 16) r) p q := by
  unfold Spec.mm
  exact StackMember.dotGeneral_plain_apply (m := 10000) (k := 10000) (n := 16) none l r p q

end Cert.ReferenceIdeal.RefLN

end
-- ==== Proof.LibTRefCasts.lean ====
/-
  Casts along an equation of types, as the typed references of a host program's module-local functions introduce them.

  A module-local function (an outlined `relu`, `log_softmax`, …) is stated over references that carry the type of the
  tensor they hold; a result of its operations is moved to the reference's own buffer type, and an operand back, along
  the reference's type equation (`TRef.toBuf`, `TRef.ofBuf`: both are `cast`s). Read off a run, the callee's values so come
  wrapped: every intermediate value in a round trip `ofBuf (toBuf v)`, the callee's arguments in one `ofBuf`, its result in
  one `toBuf`. These lemmas remove the wrappers WITHOUT asking whether the two types are definitionally equal — a question
  that, over buffer types whose index sets have millions of elements, is what makes `simp` with `cast_eq` or a closing
  `rfl` run out of memory or recursion depth:

  * `cast_cast_cancel`: a round trip along any two equations between the same two types is the identity (by `subst`);
    `TRef.ofBuf_toBuf` / `TRef.toBuf_ofBuf` are it for a typed reference. As `simp only` lemmas they match syntactically.
  * `cast_eq_of_heq`: `cast h a = b` follows from `HEq a b`; with `heq_of_eq` of a known equation for `a` this rewrites a
    single cast of an atom (a callee's argument read from the valuation before it), and applied to a goal `cast h X = Y`
    it leaves `X = Y` at the carried type (a callee's result).
-/
import Idealize.ShloMosaic.Lib.StableHlo

namespace Idealize.ShloMosaic.StableHlo

/-- A cast there and back, along ANY two equations between the two types, is the identity. -/
theorem cast_cast_cancel {α β : Sort _} (h₁ : β = α) (h₂ : α = β) (v : α) : cast h₁ (cast h₂ v) = v := by
  subst h₂; rfl

/-- A cast of `a` is `b` as soon as `a` and `b` are heterogeneously equal. -/
theorem cast_eq_of_heq {α β : Sort _} (h : α = β) (a : α) (b : β) (hab : HEq a b) : cast h a = b := by
  subst h; exact eq_of_heq hab

namespace TRef

variable {sig : RefSig} {T : BufTy} {Val : EltTy → Type}

/-- Contents moved to a typed reference's buffer type and back are the contents. -/
theorem ofBuf_toBuf (x : TRef sig T) (v : T.Contents Val) : x.ofBuf (x.toBuf v) = v :=
  cast_cast_cancel _ _ v

/-- Contents moved from a typed reference's buffer type and back are the contents. -/
theorem toBuf_ofBuf (x : TRef sig T) (v : x.ref.ty.Contents Val) : x.toBuf (x.ofBuf v) = v :=
  cast_cast_cancel _ _ v

/-- An operand read through a typed reference is what the buffer holds, given as contents at the carried type. -/
theorem ofBuf_eq_of_heq (x : TRef sig T) (v : x.ref.ty.Contents Val) (w : T.Contents Val) (h : HEq v w) : x.ofBuf v = w :=
  cast_eq_of_heq _ v w h

/-- A result written through a typed reference is the result, read as contents of the buffer. -/
theorem toBuf_eq_of_heq (x : TRef sig T) (v : T.Contents Val) (w : x.ref.ty.Contents Val) (h : HEq v w) : x.toBuf v = w :=
  cast_eq_of_heq _ v w h

end TRef

end Idealize.ShloMosaic.StableHlo
-- ==== Proof.RefL1.lean ====
/-
  The reference's first layer: the operations that write the buffers numbered 16 … 67 (the values %0 … %23 of @main, the
  bodies of the variance and rectifier functions it calls inlined at their call sites), in single-assignment order, and
  what the last of them holds: the first layer's activations  relu (LN (adj · (x · W_in) + b_in)).
-/
import proofs.«111547_g5291399708710_cont_9to1_m_243_4_alg».proof.ReferenceIdeal
import proofs.«111547_g5291399708710_cont_9to1_m_243_4_alg».proof.Proof.Gen.ReferenceIdeal
import proofs.«111547_g5291399708710_cont_9to1_m_243_4_alg».proof.Proof.Spec
import proofs.«111547_g5291399708710_cont_9to1_m_243_4_alg».proof.Proof.RefLN
import proofs.«111547_g5291399708710_cont_9to1_m_243_4_alg».proof.Proof.LibSsa
import proofs.«111547_g5291399708710_cont_9to1_m_243_4_alg».proof.Proof.RefSsa
import proofs.«111547_g5291399708710_cont_9to1_m_243_4_alg».proof.Proof.LibTRefCasts
import Idealize.ShloMosaic.Lib.StableHlo.Run
import Idealize.ShloMosaic.Lib.ValueIdx

noncomputable section

namespace Cert.ReferenceIdeal.L1

open Idealize.ShloMosaic Idealize.ShloMosaic.TcCoe Idealize.SL.Sem Idealize.ShloMosaic.StableHlo Idealize.ShloMosaic.ValueIdx
open Cert.ReferenceIdeal Cert.ReferenceIdeal.Facts₀

variable {F : FTy → Type} [FloatOps F]

/-- The operations writing the buffers 16 … 67, in order. -/
abbrev ops : List (HloOp τ sig (Elt F)) :=
  [ StableHlo.binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.unary main_arg3 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S10000x128 ![0, 1] bcast_S1x128_S10000x128_0_1 : (⟨S1x128, .f32⟩ : BufTy).Contents (Elt F) → (⟨S10000x128, .f32⟩ : BufTy).Contents (Elt F)),
    StableHlo.binary main_v1 main_v3 main_v4 (addf : (⟨S10000x128, .f32⟩ : BufTy).Contents (Elt F) → (⟨S10000x128, .f32⟩ : BufTy).Contents (Elt F) → (⟨S10000x128, .f32⟩ : BufTy).Contents (Elt F)),
    StableHlo.nullary main_cst (constant S_ .f32 0x00000000#32),
    StableHlo.binary main_v4 main_cst main_v5 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v5 main_v6 (broadcastInDim S10000x1 ![0] bcast_S10000_S10000x1_0 : (⟨S10000, .f32⟩ : BufTy).Contents (Elt F) → (⟨S10000x1, .f32⟩ : BufTy).Contents (Elt F)),
    StableHlo.nullary main_cst_0 (constant S_ .f32 0x43000000#32),
    StableHlo.unary main_cst_0 main_v7 (broadcastInDim S10000x1 ![] bcast_S_S10000x1 : (⟨S_, .f32⟩ : BufTy).Contents (Elt F) → (⟨S10000x1, .f32⟩ : BufTy).Contents (Elt F)),
    StableHlo.binary main_v6 main_v7 main_v8 (Host.divf : (⟨S10000x1, .f32⟩ : BufTy).Contents (Elt F) → (⟨S10000x1, .f32⟩ : BufTy).Contents (Elt F) → (⟨S10000x1, .f32⟩ : BufTy).Contents (Elt F)),
    StableHlo.nullary main_c (constantI S_ 32 0#32),
    -- the variance function's body, at the call's buffers
    StableHlo.TRef.nullary main_call0.cst (constant S_ .f32 0x00000000#32),
    StableHlo.TRef.binary (.of main_v4) main_call0.cst main_call0.v0 (fun x v => Host.reduceAdd x v reducesTo_S10000x128_S10000_d1 h_S_),
    StableHlo.TRef.unary main_call0.v0 main_call0.v1 (broadcastInDim S10000x1 ![0] bcast_S10000_S10000x1_0),
    StableHlo.TRef.nullary main_call0.cst_0 (constant S_ .f32 0x43000000#32),
    StableHlo.TRef.unary main_call0.cst_0 main_call0.v2 (broadcastInDim S10000x1 ![] bcast_S_S10000x1),
    StableHlo.TRef.binary main_call0.v1 main_call0.v2 main_call0.v3 Host.divf,
    StableHlo.TRef.unary main_call0.v3 main_call0.v4 (broadcastInDim S10000x128 ![0, 1] bcast_S10000x1_S10000x128_0_1),
    StableHlo.TRef.binary (.of main_v4) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x128_S10000_d1 h_S_),
    StableHlo.TRef.unary main_call0.v9 main_call0.v10 (broadcastInDim S10000x1 ![0] bcast_S10000_S10000x1_0),
    StableHlo.TRef.unary main_call0.v8 main_call0.v11 (broadcastInDim S10000x1 ![] bcast_S_S10000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    -- its guard: the select function's body
    StableHlo.TRef.unary main_call0.cst_4 main_call0.call0.v0 id,
    StableHlo.TRef.unary main_call0.call0.v0 main_call0.call0.v1 (broadcastInDim S10000x1 ![] bcast_S_S10000x1),
    StableHlo.TRef.ternary main_call0.v13 main_call0.v12 main_call0.call0.v1 main_call0.call0.v2 (fun p a b => select (broadcastInDim S10000x1 ![] bcast_S_S10000x1 p) a b),
    -- the normalisation
    StableHlo.unary main_v8 main_v10 (broadcastInDim S10000x128 ![0, 1] bcast_S10000x1_S10000x128_0_1 : (⟨S10000x1, .f32⟩ : BufTy).Contents (Elt F) → (⟨S10000x128, .f32⟩ : BufTy).Contents (Elt F)),
    StableHlo.binary main_v4 main_v10 main_v11 (subf : (⟨S10000x128, .f32⟩ : BufTy).Contents (Elt F) → (⟨S10000x128, .f32⟩ : BufTy).Contents (Elt F) → (⟨S10000x128, .f32⟩ : BufTy).Contents (Elt F)),
    StableHlo.unary main_arg4 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S10000x128 ![0, 1] bcast_S1x128_S10000x128_0_1 : (⟨S1x128, .f32⟩ : BufTy).Contents (Elt F) → (⟨S10000x128, .f32⟩ : BufTy).Contents (Elt F)),
    StableHlo.binary main_v13 main_v11 main_v14 (mulf : (⟨S10000x128, .f32⟩ : BufTy).Contents (Elt F) → (⟨S10000x128, .f32⟩ : BufTy).Contents (Elt F) → (⟨S10000x128, .f32⟩ : BufTy).Contents (Elt F)),
    StableHlo.nullary main_cst_1 (constant S_ .f32 0x3727C5AC#32),
    StableHlo.unary main_cst_1 main_v15 (broadcastInDim S10000x1 ![] bcast_S_S10000x1 : (⟨S_, .f32⟩ : BufTy).Contents (Elt F) → (⟨S10000x1, .f32⟩ : BufTy).Contents (Elt F)),
    StableHlo.binary main_v9 main_v15 main_v16 (addf : (⟨S10000x1, .f32⟩ : BufTy).Contents (Elt F) → (⟨S10000x1, .f32⟩ : BufTy).Contents (Elt F) → (⟨S10000x1, .f32⟩ : BufTy).Contents (Elt F)),
    StableHlo.unary main_v16 main_v17 (Host.sqrt : (⟨S10000x1, .f32⟩ : BufTy).Contents (Elt F) → (⟨S10000x1, .f32⟩ : BufTy).Contents (Elt F)),
    StableHlo.unary main_v17 main_v18 (broadcastInDim S10000x128 ![0, 1] bcast_S10000x1_S10000x128_0_1 : (⟨S10000x1, .f32⟩ : BufTy).Contents (Elt F) → (⟨S10000x128, .f32⟩ : BufTy).Contents (Elt F)),
    StableHlo.binary main_v14 main_v18 main_v19 (Host.divf : (⟨S10000x128, .f32⟩ : BufTy).Contents (Elt F) → (⟨S10000x128, .f32⟩ : BufTy).Contents (Elt F) → (⟨S10000x128, .f32⟩ : BufTy).Contents (Elt F)),
    StableHlo.unary main_arg5 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S10000x128 ![0, 1] bcast_S1x128_S10000x128_0_1 : (⟨S1x128, .f32⟩ : BufTy).Contents (Elt F) → (⟨S10000x128, .f32⟩ : BufTy).Contents (Elt F)),
    StableHlo.binary main_v19 main_v21 main_v22 (addf : (⟨S10000x128, .f32⟩ : BufTy).Contents (Elt F) → (⟨S10000x128, .f32⟩ : BufTy).Contents (Elt F) → (⟨S10000x128, .f32⟩ : BufTy).Contents (Elt F)),
    -- the rectifier function's body
    StableHlo.TRef.nullary main_call1.cst (constant S_ .f32 0x00000000#32),
    StableHlo.TRef.unary main_call1.cst main_call1.v0 (broadcastInDim S10000x128 ![] bcast_S_S10000x128),
    StableHlo.TRef.binary (.of main_v22) main_call1.v0 main_call1.v1 maximumf ]

/-- The step facts by arity: the operation writes the buffer of its own number and reads buffers numbered below. -/
local macro "sN" : term => `(Ssa.step_nullary RefSsa.key_inj _ _ _ _ rfl)
local macro "sU" : term => `(Ssa.step_unary RefSsa.key_inj _ _ _ _ _ _ rfl (by decide))
local macro "sB" : term => `(Ssa.step_binary RefSsa.key_inj _ _ _ _ _ _ _ _ rfl (by decide) (by decide))
local macro "sT" : term => `(RefSsa.step_ternary _ _ _ _ _ _ _ _ _ _ rfl (by decide) (by decide) (by decide))

/-- They are a single-assignment line starting at 16. -/
theorem chain : Ssa.Chain (τ := τ) 16 (ops (F := F)) :=
  ⟨sB, sB, sU, sU, sB, sN, sB, sU, sN, sU, sB, sN,
    sN, sB, sU, sN, sU, sB, sU, sB, sB, sU, sN, sB, sN, sB, sU, sU, sB, sN, sB, sN,
    sU, sU, sT,
    sU, sB, sU, sU, sB, sN, sU, sB, sU, sU, sB, sU, sU, sB,
    sN, sU, sB, trivial⟩

/-- Each touches TensorCore buffers only. -/
theorem ops_sub : (ops (F := F)).Forall fun op => op.bufs ⊆ tcRefs τ sig :=
  ⟨binary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub ..,
    nullary_bufs_sub .., unary_bufs_sub .., binary_bufs_sub ..⟩

/-! ## An operation's defining equation over typed references

For contents `X` that an operation of a called function leaves fixed, the contents of its result buffer, read at the type
the reference carries, are the operation's function of the operands' contents read at theirs: the equation of the plain
builder, with the round trip through the buffer's own type removed. -/

section Typed

variable {Val : EltTy → Type} {Tx Ta Tb Tc Ty : BufTy} (X : Valuation τ sig Val)

theorem teq_nullary (y : TRef sig Ty) (v : Ty.Contents Val)
    (h : ∀ r : Ref sig .tc, (TRef.nullary (τ := τ) y v).result X (Proc.devRef .tc r) = X (Proc.devRef .tc r)) :
    y.ofBuf (X (Proc.devRef .tc y.ref)) = v := by
  rw [RefSsa.eq_nullary X _ _ _ h, TRef.ofBuf_toBuf]

theorem teq_unary (x : TRef sig Tx) (y : TRef sig Ty) (f : Tx.Contents Val → Ty.Contents Val)
    (h : ∀ r : Ref sig .tc, (TRef.unary (τ := τ) x y f).result X (Proc.devRef .tc r) = X (Proc.devRef .tc r)) :
    y.ofBuf (X (Proc.devRef .tc y.ref)) = f (x.ofBuf (X (Proc.devRef .tc x.ref))) := by
  rw [RefSsa.eq_unary X _ _ _ _ _ h, TRef.ofBuf_toBuf]

theorem teq_binary (a : TRef sig Ta) (b : TRef sig Tb) (y : TRef sig Ty) (f : Ta.Contents Val → Tb.Contents Val → Ty.Contents Val)
    (h : ∀ r : Ref sig .tc, (TRef.binary (τ := τ) a b y f).result X (Proc.devRef .tc r) = X (Proc.devRef .tc r)) :
    y.ofBuf (X (Proc.devRef .tc y.ref)) = f (a.ofBuf (X (Proc.devRef .tc a.ref))) (b.ofBuf (X (Proc.devRef .tc b.ref))) := by
  rw [RefSsa.eq_binary X _ _ _ _ _ _ _ h, TRef.ofBuf_toBuf]

theorem teq_ternary (c : TRef sig Tc) (a : TRef sig Ta) (b : TRef sig Tb) (y : TRef sig Ty)
    (f : Tc.Contents Val → Ta.Contents Val → Tb.Contents Val → Ty.Contents Val)
    (h : ∀ r : Ref sig .tc, (TRef.ternary (τ := τ) c a b y f).result X (Proc.devRef .tc r) = X (Proc.devRef .tc r)) :
    y.ofBuf (X (Proc.devRef .tc y.ref))
      = f (c.ofBuf (X (Proc.devRef .tc c.ref))) (a.ofBuf (X (Proc.devRef .tc a.ref))) (b.ofBuf (X (Proc.devRef .tc b.ref))) := by
  rw [RefSsa.eq_ternary X _ _ _ _ _ _ _ _ _ h, TRef.ofBuf_toBuf]

end Typed

/-- At contents every operation of the line leaves fixed, the buffer of %23 holds the first layer's activations of the
    argument buffers' contents. -/
theorem out_eq (X : Valuation τ sig (Elt Ideal))
    (hfix : ∀ op ∈ (ops (F := Ideal)), ∀ r : Ref sig .tc, op.result X (Proc.devRef .tc r) = X (Proc.devRef .tc r))
    (p : Fin 10000) (q : Fin 128) :
    X (Proc.devRef .tc main_v23) (ix2 p q)
      = Spec.h1 (Spec.cur2 (n0 := 10000) (n1 := 10000) (X (Proc.devRef .tc main_arg1)))
          (Spec.mm (Spec.cur2 (n0 := 10000) (n1 := 128) (X (Proc.devRef .tc main_arg0))) (Spec.cur2 (n0 := 128) (n1 := 128) (X (Proc.devRef .tc main_arg2))))
          (Spec.cur1 (n := 128) (X (Proc.devRef .tc main_arg3))) (Spec.cur1 (n := 128) (X (Proc.devRef .tc main_arg4)))
          (Spec.cur1 (n := 128) (X (Proc.devRef .tc main_arg5))) p q := by
  -- every operation's fixed-point fact, in order
  obtain ⟨h0, h1, h2, h3, h4, h5, h6, h7, h8, h9, h10, h11, h12, h13, h14, h15, h16, h17, h18, h19, h20, h21, h22, h23, h24, h25,
    h26, h27, h28, h29, h30, h31, h32, h33, h34, h35, h36, h37, h38, h39, h40, h41, h42, h43, h44, h45, h46, h47, h48, h49, h50,
    h51⟩ := List.forall_iff_forall_mem.mpr hfix
  -- the pre-activation  a = adj · (x · W) + b  (%0 … %4)
  have e0 := RefSsa.eq_binary X _ _ _ _ _ _ _ h0
  have e1 := RefSsa.eq_binary X _ _ _ _ _ _ _ h1
  have e2 := RefSsa.eq_unary X _ _ _ _ _ h2
  have e3 := RefSsa.eq_unary X _ _ _ _ _ h3
  have e4 := RefSsa.eq_binary X _ _ _ _ _ _ _ h4
  have hA : X (Proc.devRef .tc main_v4)
      = RefLN.addBias128
          (Host.dotGeneral (F := Ideal) (φ₁ := .f32) (φ₂ := .f32) dot_S10000x10000_S10000x128_S10000x128_1_0_0_1_n_n none
            (X (Proc.devRef .tc main_arg1) : FVec Ideal S10000x10000 .f32)
            (Host.dotGeneral (F := Ideal) (φ₁ := .f32) (φ₂ := .f32) dot_S10000x128_S128x128_S10000x128_1_0_0_1_n_n none
              (X (Proc.devRef .tc main_arg0) : FVec Ideal S10000x128 .f32) (X (Proc.devRef .tc main_arg2) : FVec Ideal S128x128 .f32)))
          (X (Proc.devRef .tc main_arg3)) := by
    rw [RefLN.addBias128, e4, e3, e2, e1, e0]
  -- its row means (%cst … %8)
  have e5 := RefSsa.eq_nullary X _ _ _ h5
  have e6 := RefSsa.eq_binary X _ _ _ _ _ _ _ h6
  have e7 := RefSsa.eq_unary X _ _ _ _ _ h7
  have e8 := RefSsa.eq_nullary X _ _ _ h8
  have e9 := RefSsa.eq_unary X _ _ _ _ _ h9
  have e10 := RefSsa.eq_binary X _ _ _ _ _ _ _ h10
  have hM : X (Proc.devRef .tc main_v8) = RefLN.mean128 (X (Proc.devRef .tc main_v4)) := by
    rw [RefLN.mean128, e10, e9, e8, e7, e6, e5]
  -- the integer zero (%c)
  have e11 := RefSsa.eq_nullary X _ _ _ h11
  -- the variance function's body and, inside it, the select function's
  have t12 := teq_nullary X _ _ h12
  have t13 := teq_binary X _ _ _ _ h13
  have t14 := teq_unary X _ _ _ h14
  have t15 := teq_nullary X _ _ h15
  have t16 := teq_unary X _ _ _ h16
  have t17 := teq_binary X _ _ _ _ h17
  have t18 := teq_unary X _ _ _ h18
  have t19 := teq_binary X _ _ _ _ h19
  have t20 := teq_binary X _ _ _ _ h20
  have t21 := teq_unary X _ _ _ h21
  have t22 := teq_nullary X _ _ h22
  have t23 := teq_binary X _ _ _ _ h23
  have t24 := teq_nullary X _ _ h24
  have t25 := teq_binary X _ _ _ _ h25
  have t26 := teq_unary X _ _ _ h26
  have t27 := teq_unary X _ _ _ h27
  have t28 := teq_binary X _ _ _ _ h28
  have t29 := teq_nullary X _ _ h29
  have t30 := teq_binary X _ _ _ _ h30
  have t31 := teq_nullary X _ _ h31
  have t32 := teq_unary X _ _ _ h32
  have t33 := teq_unary X _ _ _ h33
  have t34 := teq_ternary X _ _ _ _ _ h34
  -- the callee's arguments and result are the caller's buffers: the typed reading of a literal reference is the plain one
  have b4 : (TRef.of main_v4 : TRef sig ⟨S10000x128, .f32⟩).ofBuf (X (Proc.devRef .tc main_v4)) = X (Proc.devRef .tc main_v4) :=
    TRef.ofBuf_eq_of_heq _ _ _ HEq.rfl
  have bc : (TRef.of main_c : TRef sig ⟨S_, .i32⟩).ofBuf (X (Proc.devRef .tc main_c)) = X (Proc.devRef .tc main_c) :=
    TRef.ofBuf_eq_of_heq _ _ _ HEq.rfl
  have b9 : main_call0.call0.v2.ofBuf (X (Proc.devRef .tc main_call0.call0.v2.ref)) = X (Proc.devRef .tc main_v9) :=
    TRef.ofBuf_eq_of_heq _ _ _ HEq.rfl
  have hV : X (Proc.devRef .tc main_v9) = RefLN.var128 (X (Proc.devRef .tc main_v4)) (constantI S_ 32 0#32) := by
    rw [← b9, RefLN.var128, RefLN.mean128, RefLN.cnt128, t34, t33, t32, t31, t30, t29, t28, t27, t26, t25, t24, t23, t22, t21, t20,
      t19, t18, t17, t16, t15, t14, t13, t12, b4, bc, e11]
  -- the normalisation (%10 … %22)
  have e35 := RefSsa.eq_unary X _ _ _ _ _ h35
  have e36 := RefSsa.eq_binary X _ _ _ _ _ _ _ h36
  have e37 := RefSsa.eq_unary X _ _ _ _ _ h37
  have e38 := RefSsa.eq_unary X _ _ _ _ _ h38
  have e39 := RefSsa.eq_binary X _ _ _ _ _ _ _ h39
  have e40 := RefSsa.eq_nullary X _ _ _ h40
  have e41 := RefSsa.eq_unary X _ _ _ _ _ h41
  have e42 := RefSsa.eq_binary X _ _ _ _ _ _ _ h42
  have e43 := RefSsa.eq_unary X _ _ _ _ _ h43
  have e44 := RefSsa.eq_unary X _ _ _ _ _ h44
  have e45 := RefSsa.eq_binary X _ _ _ _ _ _ _ h45
  have e46 := RefSsa.eq_unary X _ _ _ _ _ h46
  have e47 := RefSsa.eq_unary X _ _ _ _ _ h47
  have e48 := RefSsa.eq_binary X _ _ _ _ _ _ _ h48
  have hL : X (Proc.devRef .tc main_v22)
      = RefLN.ln128 (X (Proc.devRef .tc main_v4)) (X (Proc.devRef .tc main_v9)) (X (Proc.devRef .tc main_arg4))
          (X (Proc.devRef .tc main_arg5)) := by
    rw [RefLN.ln128, e48, e47, e46, e45, e44, e43, e42, e41, e40, e39, e38, e37, e36, e35, hM]
  -- the rectifier function's body
  have t49 := teq_nullary X _ _ h49
  have t50 := teq_unary X _ _ _ h50
  have t51 := teq_binary X _ _ _ _ h51
  have b22 : (TRef.of main_v22 : TRef sig ⟨S10000x128, .f32⟩).ofBuf (X (Proc.devRef .tc main_v22)) = X (Proc.devRef .tc main_v22) :=
    TRef.ofBuf_eq_of_heq _ _ _ HEq.rfl
  have b23 : main_call1.v1.ofBuf (X (Proc.devRef .tc main_call1.v1.ref)) = X (Proc.devRef .tc main_v23) :=
    TRef.ofBuf_eq_of_heq _ _ _ HEq.rfl
  have hR : X (Proc.devRef .tc main_v23) = RefLN.relu128 (X (Proc.devRef .tc main_v22)) := by
    rw [← b23, RefLN.relu128, t51, t50, t49, b22]
  -- read at (p, q)
  have hu : Spec.cur2 (n0 := 10000) (n1 := 128)
        (Host.dotGeneral (F := Ideal) (φ₁ := .f32) (φ₂ := .f32) dot_S10000x128_S128x128_S10000x128_1_0_0_1_n_n none
          (X (Proc.devRef .tc main_arg0) : FVec Ideal S10000x128 .f32) (X (Proc.devRef .tc main_arg2) : FVec Ideal S128x128 .f32))
      = Spec.mm (Spec.cur2 (n0 := 10000) (n1 := 128) (X (Proc.devRef .tc main_arg0)))
          (Spec.cur2 (n0 := 128) (n1 := 128) (X (Proc.devRef .tc main_arg2))) := by
    funext i k
    exact RefLN.dot_x128 _ _ i k
  have hrow : Spec.cur2 (n0 := 10000) (n1 := 128) (X (Proc.devRef .tc main_v4)) p
      = Spec.pre (Spec.cur2 (n0 := 10000) (n1 := 10000) (X (Proc.devRef .tc main_arg1)))
          (Spec.mm (Spec.cur2 (n0 := 10000) (n1 := 128) (X (Proc.devRef .tc main_arg0)))
            (Spec.cur2 (n0 := 128) (n1 := 128) (X (Proc.devRef .tc main_arg2))))
          (Spec.cur1 (n := 128) (X (Proc.devRef .tc main_arg3))) p := by
    funext j
    show X (Proc.devRef .tc main_v4) (ix2 p j) = _
    rw [hA, RefLN.addBias128_apply, RefLN.dot_adj128, hu]
    rfl
  rw [hR, RefLN.relu128_apply, hL, hV, RefLN.ln128_apply, hrow]
  rfl

end Cert.ReferenceIdeal.L1

end
-- ==== Proof.RefL2.lean ====
/-
  The reference's hidden residual block: the operations that write the buffers numbered 68 … 120 (the values %24 … %48 of
  @main, the called functions' bodies inlined), in single-assignment order, and what the last of them holds:
  relu (LN (adj · (h₁ · W_h) + b_h)) + h₁  of the first layer's activations h₁ (the buffer of %23).
-/
import proofs.«111547_g5291399708710_cont_9to1_m_243_4_alg».proof.ReferenceIdeal
import proofs.«111547_g5291399708710_cont_9to1_m_243_4_alg».proof.Proof.Gen.ReferenceIdeal
import proofs.«111547_g5291399708710_cont_9to1_m_243_4_alg».proof.Proof.Spec
import proofs.«111547_g5291399708710_cont_9to1_m_243_4_alg».proof.Proof.RefLN
import proofs.«111547_g5291399708710_cont_9to1_m_243_4_alg».proof.Proof.LibSsa
import proofs.«111547_g5291399708710_cont_9to1_m_243_4_alg».proof.Proof.RefSsa
import proofs.«111547_g5291399708710_cont_9to1_m_243_4_alg».proof.Proof.LibTRefCasts
import Idealize.ShloMosaic.Lib.StableHlo.Run
import Idealize.ShloMosaic.Lib.ValueIdx

noncomputable section

namespace Cert.ReferenceIdeal.L2

open Idealize.ShloMosaic Idealize.ShloMosaic.TcCoe Idealize.SL.Sem Idealize.ShloMosaic.StableHlo Idealize.ShloMosaic.ValueIdx
open Cert.ReferenceIdeal Cert.ReferenceIdeal.Facts₀

variable {F : FTy → Type} [FloatOps F]

/-- The operations writing the buffers 68 … 120, in order. -/
abbrev ops : List (HloOp τ sig (Elt F)) :=
  [ StableHlo.binary main_v23 main_arg6 main_v24 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg1 main_v24 main_v25 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.unary main_arg7 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S10000x128 ![0, 1] bcast_S1x128_S10000x128_0_1 : (⟨S1x128, .f32⟩ : BufTy).Contents (Elt F) → (⟨S10000x128, .f32⟩ : BufTy).Contents (Elt F)),
    StableHlo.binary main_v25 main_v27 main_v28 (addf : (⟨S10000x128, .f32⟩ : BufTy).Contents (Elt F) → (⟨S10000x128, .f32⟩ : BufTy).Contents (Elt F) → (⟨S10000x128, .f32⟩ : BufTy).Contents (Elt F)),
    StableHlo.nullary main_cst_2 (constant S_ .f32 0x00000000#32),
    StableHlo.binary main_v28 main_cst_2 main_v29 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v29 main_v30 (broadcastInDim S10000x1 ![0] bcast_S10000_S10000x1_0 : (⟨S10000, .f32⟩ : BufTy).Contents (Elt F) → (⟨S10000x1, .f32⟩ : BufTy).Contents (Elt F)),
    StableHlo.nullary main_cst_3 (constant S_ .f32 0x43000000#32),
    StableHlo.unary main_cst_3 main_v31 (broadcastInDim S10000x1 ![] bcast_S_S10000x1 : (⟨S_, .f32⟩ : BufTy).Contents (Elt F) → (⟨S10000x1, .f32⟩ : BufTy).Contents (Elt F)),
    StableHlo.binary main_v30 main_v31 main_v32 (Host.divf : (⟨S10000x1, .f32⟩ : BufTy).Contents (Elt F) → (⟨S10000x1, .f32⟩ : BufTy).Contents (Elt F) → (⟨S10000x1, .f32⟩ : BufTy).Contents (Elt F)),
    StableHlo.nullary main_c_4 (constantI S_ 32 0#32),
    StableHlo.TRef.nullary main_call2.cst (constant S_ .f32 0x00000000#32),
    StableHlo.TRef.binary (.of main_v28) main_call2.cst main_call2.v0 (fun x v => Host.reduceAdd x v reducesTo_S10000x128_S10000_d1 h_S_),
    StableHlo.TRef.unary main_call2.v0 main_call2.v1 (broadcastInDim S10000x1 ![0] bcast_S10000_S10000x1_0),
    StableHlo.TRef.nullary main_call2.cst_0 (constant S_ .f32 0x43000000#32),
    StableHlo.TRef.unary main_call2.cst_0 main_call2.v2 (broadcastInDim S10000x1 ![] bcast_S_S10000x1),
    StableHlo.TRef.binary main_call2.v1 main_call2.v2 main_call2.v3 Host.divf,
    StableHlo.TRef.unary main_call2.v3 main_call2.v4 (broadcastInDim S10000x128 ![0, 1] bcast_S10000x1_S10000x128_0_1),
    StableHlo.TRef.binary (.of main_v28) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x128_S10000_d1 h_S_),
    StableHlo.TRef.unary main_call2.v9 main_call2.v10 (broadcastInDim S10000x1 ![0] bcast_S10000_S10000x1_0),
    StableHlo.TRef.unary main_call2.v8 main_call2.v11 (broadcastInDim S10000x1 ![] bcast_S_S10000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S10000x1 ![] bcast_S_S10000x1),
    StableHlo.TRef.ternary main_call2.v13 main_call2.v12 main_call2.call0.v1 main_call2.call0.v2 (fun p a b => select (broadcastInDim S10000x1 ![] bcast_S_S10000x1 p) a b),
    StableHlo.unary main_v32 main_v34 (broadcastInDim S10000x128 ![0, 1] bcast_S10000x1_S10000x128_0_1 : (⟨S10000x1, .f32⟩ : BufTy).Contents (Elt F) → (⟨S10000x128, .f32⟩ : BufTy).Contents (Elt F)),
    StableHlo.binary main_v28 main_v34 main_v35 (subf : (⟨S10000x128, .f32⟩ : BufTy).Contents (Elt F) → (⟨S10000x128, .f32⟩ : BufTy).Contents (Elt F) → (⟨S10000x128, .f32⟩ : BufTy).Contents (Elt F)),
    StableHlo.unary main_arg8 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S10000x128 ![0, 1] bcast_S1x128_S10000x128_0_1 : (⟨S1x128, .f32⟩ : BufTy).Contents (Elt F) → (⟨S10000x128, .f32⟩ : BufTy).Contents (Elt F)),
    StableHlo.binary main_v37 main_v35 main_v38 (mulf : (⟨S10000x128, .f32⟩ : BufTy).Contents (Elt F) → (⟨S10000x128, .f32⟩ : BufTy).Contents (Elt F) → (⟨S10000x128, .f32⟩ : BufTy).Contents (Elt F)),
    StableHlo.nullary main_cst_5 (constant S_ .f32 0x3727C5AC#32),
    StableHlo.unary main_cst_5 main_v39 (broadcastInDim S10000x1 ![] bcast_S_S10000x1 : (⟨S_, .f32⟩ : BufTy).Contents (Elt F) → (⟨S10000x1, .f32⟩ : BufTy).Contents (Elt F)),
    StableHlo.binary main_v33 main_v39 main_v40 (addf : (⟨S10000x1, .f32⟩ : BufTy).Contents (Elt F) → (⟨S10000x1, .f32⟩ : BufTy).Contents (Elt F) → (⟨S10000x1, .f32⟩ : BufTy).Contents (Elt F)),
    StableHlo.unary main_v40 main_v41 (Host.sqrt : (⟨S10000x1, .f32⟩ : BufTy).Contents (Elt F) → (⟨S10000x1, .f32⟩ : BufTy).Contents (Elt F)),
    StableHlo.unary main_v41 main_v42 (broadcastInDim S10000x128 ![0, 1] bcast_S10000x1_S10000x128_0_1 : (⟨S10000x1, .f32⟩ : BufTy).Contents (Elt F) → (⟨S10000x128, .f32⟩ : BufTy).Contents (Elt F)),
    StableHlo.binary main_v38 main_v42 main_v43 (Host.divf : (⟨S10000x128, .f32⟩ : BufTy).Contents (Elt F) → (⟨S10000x128, .f32⟩ : BufTy).Contents (Elt F) → (⟨S10000x128, .f32⟩ : BufTy).Contents (Elt F)),
    StableHlo.unary main_arg9 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S10000x128 ![0, 1] bcast_S1x128_S10000x128_0_1 : (⟨S1x128, .f32⟩ : BufTy).Contents (Elt F) → (⟨S10000x128, .f32⟩ : BufTy).Contents (Elt F)),
    StableHlo.binary main_v43 main_v45 main_v46 (addf : (⟨S10000x128, .f32⟩ : BufTy).Contents (Elt F) → (⟨S10000x128, .f32⟩ : BufTy).Contents (Elt F) → (⟨S10000x128, .f32⟩ : BufTy).Contents (Elt F)),
    StableHlo.TRef.nullary main_call3.cst (constant S_ .f32 0x00000000#32),
    StableHlo.TRef.unary main_call3.cst main_call3.v0 (broadcastInDim S10000x128 ![] bcast_S_S10000x128),
    StableHlo.TRef.binary (.of main_v46) main_call3.v0 main_call3.v1 maximumf,
    StableHlo.binary main_v47 main_v23 main_v48 (addf : (⟨S10000x128, .f32⟩ : BufTy).Contents (Elt F) → (⟨S10000x128, .f32⟩ : BufTy).Contents (Elt F) → (⟨S10000x128, .f32⟩ : BufTy).Contents (Elt F)) ]

/-- They are a single-assignment line starting at 68. -/
theorem chain : Ssa.Chain (τ := τ) 68 (ops (F := F)) := by
  exact
    ⟨Ssa.step_binary RefSsa.key_inj _ _ _ _ _ _ _ _ rfl (by decide) (by decide),
     Ssa.step_binary RefSsa.key_inj _ _ _ _ _ _ _ _ rfl (by decide) (by decide),
     Ssa.step_unary RefSsa.key_inj _ _ _ _ _ _ rfl (by decide),
     Ssa.step_unary RefSsa.key_inj _ _ _ _ _ _ rfl (by decide),
     Ssa.step_binary RefSsa.key_inj _ _ _ _ _ _ _ _ rfl (by decide) (by decide),
     Ssa.step_nullary RefSsa.key_inj _ _ _ _ rfl,
     Ssa.step_binary RefSsa.key_inj _ _ _ _ _ _ _ _ rfl (by decide) (by decide),
     Ssa.step_unary RefSsa.key_inj _ _ _ _ _ _ rfl (by decide),
     Ssa.step_nullary RefSsa.key_inj _ _ _ _ rfl,
     Ssa.step_unary RefSsa.key_inj _ _ _ _ _ _ rfl (by decide),
     Ssa.step_binary RefSsa.key_inj _ _ _ _ _ _ _ _ rfl (by decide) (by decide),
     Ssa.step_nullary RefSsa.key_inj _ _ _ _ rfl,
     Ssa.step_nullary RefSsa.key_inj _ _ _ _ rfl,
     Ssa.step_binary RefSsa.key_inj _ _ _ _ _ _ _ _ rfl (by decide) (by decide),
     Ssa.step_unary RefSsa.key_inj _ _ _ _ _ _ rfl (by decide),
     Ssa.step_nullary RefSsa.key_inj _ _ _ _ rfl,
     Ssa.step_unary RefSsa.key_inj _ _ _ _ _ _ rfl (by decide),
     Ssa.step_binary RefSsa.key_inj _ _ _ _ _ _ _ _ rfl (by decide) (by decide),
     Ssa.step_unary RefSsa.key_inj _ _ _ _ _ _ rfl (by decide),
     Ssa.step_binary RefSsa.key_inj _ _ _ _ _ _ _ _ rfl (by decide) (by decide),
     Ssa.step_binary RefSsa.key_inj _ _ _ _ _ _ _ _ rfl (by decide) (by decide),
     Ssa.step_unary RefSsa.key_inj _ _ _ _ _ _ rfl (by decide),
     Ssa.step_nullary RefSsa.key_inj _ _ _ _ rfl,
     Ssa.step_binary RefSsa.key_inj _ _ _ _ _ _ _ _ rfl (by decide) (by decide),
     Ssa.step_nullary RefSsa.key_inj _ _ _ _ rfl,
     Ssa.step_binary RefSsa.key_inj _ _ _ _ _ _ _ _ rfl (by decide) (by decide),
     Ssa.step_unary RefSsa.key_inj _ _ _ _ _ _ rfl (by decide),
     Ssa.step_unary RefSsa.key_inj _ _ _ _ _ _ rfl (by decide),
     Ssa.step_binary RefSsa.key_inj _ _ _ _ _ _ _ _ rfl (by decide) (by decide),
     Ssa.step_nullary RefSsa.key_inj _ _ _ _ rfl,
     Ssa.step_binary RefSsa.key_inj _ _ _ _ _ _ _ _ rfl (by decide) (by decide),
     Ssa.step_nullary RefSsa.key_inj _ _ _ _ rfl,
     Ssa.step_unary RefSsa.key_inj _ _ _ _ _ _ rfl (by decide),
     Ssa.step_unary RefSsa.key_inj _ _ _ _ _ _ rfl (by decide),
     RefSsa.step_ternary _ _ _ _ _ _ _ _ _ _ rfl (by decide) (by decide) (by decide),
     Ssa.step_unary RefSsa.key_inj _ _ _ _ _ _ rfl (by decide),
     Ssa.step_binary RefSsa.key_inj _ _ _ _ _ _ _ _ rfl (by decide) (by decide),
     Ssa.step_unary RefSsa.key_inj _ _ _ _ _ _ rfl (by decide),
     Ssa.step_unary RefSsa.key_inj _ _ _ _ _ _ rfl (by decide),
     Ssa.step_binary RefSsa.key_inj _ _ _ _ _ _ _ _ rfl (by decide) (by decide),
     Ssa.step_nullary RefSsa.key_inj _ _ _ _ rfl,
     Ssa.step_unary RefSsa.key_inj _ _ _ _ _ _ rfl (by decide),
     Ssa.step_binary RefSsa.key_inj _ _ _ _ _ _ _ _ rfl (by decide) (by decide),
     Ssa.step_unary RefSsa.key_inj _ _ _ _ _ _ rfl (by decide),
     Ssa.step_unary RefSsa.key_inj _ _ _ _ _ _ rfl (by decide),
     Ssa.step_binary RefSsa.key_inj _ _ _ _ _ _ _ _ rfl (by decide) (by decide),
     Ssa.step_unary RefSsa.key_inj _ _ _ _ _ _ rfl (by decide),
     Ssa.step_unary RefSsa.key_inj _ _ _ _ _ _ rfl (by decide),
     Ssa.step_binary RefSsa.key_inj _ _ _ _ _ _ _ _ rfl (by decide) (by decide),
     Ssa.step_nullary RefSsa.key_inj _ _ _ _ rfl,
     Ssa.step_unary RefSsa.key_inj _ _ _ _ _ _ rfl (by decide),
     Ssa.step_binary RefSsa.key_inj _ _ _ _ _ _ _ _ rfl (by decide) (by decide),
     Ssa.step_binary RefSsa.key_inj _ _ _ _ _ _ _ _ rfl (by decide) (by decide),
     trivial⟩

/-- Each touches TensorCore buffers only. -/
theorem ops_sub : (ops (F := F)).Forall fun op => op.bufs ⊆ tcRefs τ sig := by
  exact
    ⟨binary_bufs_sub .., binary_bufs_sub .., unary_bufs_sub .., unary_bufs_sub .., binary_bufs_sub .., nullary_bufs_sub ..,
     binary_bufs_sub .., unary_bufs_sub .., nullary_bufs_sub .., unary_bufs_sub .., binary_bufs_sub .., nullary_bufs_sub ..,
     nullary_bufs_sub .., binary_bufs_sub .., unary_bufs_sub .., nullary_bufs_sub .., unary_bufs_sub .., binary_bufs_sub ..,
     unary_bufs_sub .., binary_bufs_sub .., binary_bufs_sub .., unary_bufs_sub .., nullary_bufs_sub .., binary_bufs_sub ..,
     nullary_bufs_sub .., binary_bufs_sub .., unary_bufs_sub .., unary_bufs_sub .., binary_bufs_sub .., nullary_bufs_sub ..,
     binary_bufs_sub .., nullary_bufs_sub .., unary_bufs_sub .., unary_bufs_sub .., ternary_bufs_sub .., unary_bufs_sub ..,
     binary_bufs_sub .., unary_bufs_sub .., unary_bufs_sub .., binary_bufs_sub .., nullary_bufs_sub .., unary_bufs_sub ..,
     binary_bufs_sub .., unary_bufs_sub .., unary_bufs_sub .., binary_bufs_sub .., unary_bufs_sub .., unary_bufs_sub ..,
     binary_bufs_sub .., nullary_bufs_sub .., unary_bufs_sub .., binary_bufs_sub .., binary_bufs_sub ..⟩

/-! ## Operations of a called function, read at the carried types -/

section Typed

variable {T Tx Ta Tb Tc Ty : BufTy} (X : Valuation τ sig (Elt Ideal))

/-- The contents of a typed reference's buffer, at the carried type. -/
abbrev tv (t : TRef sig T) : T.Contents (Elt Ideal) := t.ofBuf (X (Proc.devRef .tc t.ref))

/-- It is the buffer's contents, up to the equation of the two types. -/
theorem tv_heq (t : TRef sig T) : HEq (tv X t) (X (Proc.devRef .tc t.ref)) := cast_heq _ _

/-- Contents a function's constant leaves fixed hold the constant, at the carried type. -/
theorem teq_nullary (y : TRef sig Ty) (v : Ty.Contents (Elt Ideal))
    (h : ∀ r : Ref sig .tc, (TRef.nullary (τ := τ) y v).result X (Proc.devRef .tc r) = X (Proc.devRef .tc r)) :
    tv X y = v :=
  (congrArg y.ofBuf (RefSsa.eq_nullary X y.ref (y.toBuf v) y.dev h)).trans (TRef.ofBuf_toBuf y v)

/-- Contents a function's one-operand operation leaves fixed satisfy its defining equation, at the carried types. -/
theorem teq_unary (x : TRef sig Tx) (y : TRef sig Ty) (f : Tx.Contents (Elt Ideal) → Ty.Contents (Elt Ideal))
    (h : ∀ r : Ref sig .tc, (TRef.unary (τ := τ) x y f).result X (Proc.devRef .tc r) = X (Proc.devRef .tc r)) :
    tv X y = f (tv X x) :=
  (congrArg y.ofBuf (RefSsa.eq_unary X x.ref y.ref _ x.dev y.dev h)).trans (TRef.ofBuf_toBuf y _)

/-- The same for a two-operand operation. -/
theorem teq_binary (a : TRef sig Ta) (b : TRef sig Tb) (y : TRef sig Ty)
    (f : Ta.Contents (Elt Ideal) → Tb.Contents (Elt Ideal) → Ty.Contents (Elt Ideal))
    (h : ∀ r : Ref sig .tc, (TRef.binary (τ := τ) a b y f).result X (Proc.devRef .tc r) = X (Proc.devRef .tc r)) :
    tv X y = f (tv X a) (tv X b) :=
  (congrArg y.ofBuf (RefSsa.eq_binary X a.ref b.ref y.ref _ a.dev b.dev y.dev h)).trans (TRef.ofBuf_toBuf y _)

/-- The same for a three-operand operation. -/
theorem teq_ternary (c : TRef sig Tc) (a : TRef sig Ta) (b : TRef sig Tb) (y : TRef sig Ty)
    (f : Tc.Contents (Elt Ideal) → Ta.Contents (Elt Ideal) → Tb.Contents (Elt Ideal) → Ty.Contents (Elt Ideal))
    (h : ∀ r : Ref sig .tc, (TRef.ternary (τ := τ) c a b y f).result X (Proc.devRef .tc r) = X (Proc.devRef .tc r)) :
    tv X y = f (tv X c) (tv X a) (tv X b) :=
  (congrArg y.ofBuf (RefSsa.eq_ternary X c.ref a.ref b.ref y.ref _ c.dev a.dev b.dev y.dev h)).trans (TRef.ofBuf_toBuf y _)

end Typed

/-- At contents every operation of the line leaves fixed, the buffer of %48 holds the hidden block's activations of the
    first layer's (the buffer of %23) and the argument buffers' contents. -/
theorem out_eq (X : Valuation τ sig (Elt Ideal))
    (hfix : ∀ op ∈ (ops (F := Ideal)), ∀ r : Ref sig .tc, op.result X (Proc.devRef .tc r) = X (Proc.devRef .tc r))
    (p : Fin 10000) (q : Fin 128) :
    X (Proc.devRef .tc main_v48) (ix2 p q)
      = Spec.h2 (Spec.cur2 (n0 := 10000) (n1 := 10000) (X (Proc.devRef .tc main_arg1)))
          (Spec.mm (Spec.cur2 (n0 := 10000) (n1 := 128) (X (Proc.devRef .tc main_v23))) (Spec.cur2 (n0 := 128) (n1 := 128) (X (Proc.devRef .tc main_arg6))))
          (Spec.cur1 (n := 128) (X (Proc.devRef .tc main_arg7))) (Spec.cur1 (n := 128) (X (Proc.devRef .tc main_arg8)))
          (Spec.cur1 (n := 128) (X (Proc.devRef .tc main_arg9)))
          (Spec.cur2 (n0 := 10000) (n1 := 128) (X (Proc.devRef .tc main_v23))) p q := by
  -- each operation's defining equation, read off the fixed contents
  obtain ⟨h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53⟩ := List.forall_iff_forall_mem.mpr hfix
  have e1 := RefSsa.eq_binary X _ _ _ _ _ _ _ h1
  have e2 := RefSsa.eq_binary X _ _ _ _ _ _ _ h2
  have e3 := RefSsa.eq_unary X _ _ _ _ _ h3
  have e4 := RefSsa.eq_unary X _ _ _ _ _ h4
  have e5 := RefSsa.eq_binary X _ _ _ _ _ _ _ h5
  have e6 := RefSsa.eq_nullary X _ _ _ h6
  have e7 := RefSsa.eq_binary X _ _ _ _ _ _ _ h7
  have e8 := RefSsa.eq_unary X _ _ _ _ _ h8
  have e9 := RefSsa.eq_nullary X _ _ _ h9
  have e10 := RefSsa.eq_unary X _ _ _ _ _ h10
  have e11 := RefSsa.eq_binary X _ _ _ _ _ _ _ h11
  have e12 := RefSsa.eq_nullary X _ _ _ h12
  have t13 := teq_nullary X _ _ h13
  have t14 := teq_binary X _ _ _ _ h14
  have t15 := teq_unary X _ _ _ h15
  have t16 := teq_nullary X _ _ h16
  have t17 := teq_unary X _ _ _ h17
  have t18 := teq_binary X _ _ _ _ h18
  have t19 := teq_unary X _ _ _ h19
  have t20 := teq_binary X _ _ _ _ h20
  have t21 := teq_binary X _ _ _ _ h21
  have t22 := teq_unary X _ _ _ h22
  have t23 := teq_nullary X _ _ h23
  have t24 := teq_binary X _ _ _ _ h24
  have t25 := teq_nullary X _ _ h25
  have t26 := teq_binary X _ _ _ _ h26
  have t27 := teq_unary X _ _ _ h27
  have t28 := teq_unary X _ _ _ h28
  have t29 := teq_binary X _ _ _ _ h29
  have t30 := teq_nullary X _ _ h30
  have t31 := teq_binary X _ _ _ _ h31
  have t32 := teq_nullary X _ _ h32
  have t33 := teq_unary X _ _ _ h33
  have t34 := teq_unary X _ _ _ h34
  have t35 := teq_ternary X _ _ _ _ _ h35
  have e36 := RefSsa.eq_unary X _ _ _ _ _ h36
  have e37 := RefSsa.eq_binary X _ _ _ _ _ _ _ h37
  have e38 := RefSsa.eq_unary X _ _ _ _ _ h38
  have e39 := RefSsa.eq_unary X _ _ _ _ _ h39
  have e40 := RefSsa.eq_binary X _ _ _ _ _ _ _ h40
  have e41 := RefSsa.eq_nullary X _ _ _ h41
  have e42 := RefSsa.eq_unary X _ _ _ _ _ h42
  have e43 := RefSsa.eq_binary X _ _ _ _ _ _ _ h43
  have e44 := RefSsa.eq_unary X _ _ _ _ _ h44
  have e45 := RefSsa.eq_unary X _ _ _ _ _ h45
  have e46 := RefSsa.eq_binary X _ _ _ _ _ _ _ h46
  have e47 := RefSsa.eq_unary X _ _ _ _ _ h47
  have e48 := RefSsa.eq_unary X _ _ _ _ _ h48
  have e49 := RefSsa.eq_binary X _ _ _ _ _ _ _ h49
  have t50 := teq_nullary X _ _ h50
  have t51 := teq_unary X _ _ _ h51
  have t52 := teq_binary X _ _ _ _ h52
  have e53 := RefSsa.eq_binary X _ _ _ _ _ _ _ h53
  -- a caller's buffer read through a typed reference is the buffer's contents
  have b28 : tv X (TRef.of main_v28 : TRef sig ⟨S10000x128, .f32⟩) = X (Proc.devRef .tc main_v28) := eq_of_heq (tv_heq X _)
  have bc4 : tv X (TRef.of main_c_4 : TRef sig ⟨S_, .i32⟩) = X (Proc.devRef .tc main_c_4) := eq_of_heq (tv_heq X _)
  have b46 : tv X (TRef.of main_v46 : TRef sig ⟨S10000x128, .f32⟩) = X (Proc.devRef .tc main_v46) := eq_of_heq (tv_heq X _)
  -- the pre-activation, its row means, its row variances
  have hA : X (Proc.devRef .tc main_v28) = RefLN.addBias128
      (Host.dotGeneral (F := Ideal) (φ₁ := .f32) (φ₂ := .f32) dot_S10000x10000_S10000x128_S10000x128_1_0_0_1_n_n none (X (Proc.devRef .tc main_arg1) : FVec Ideal S10000x10000 .f32)
        (Host.dotGeneral (F := Ideal) (φ₁ := .f32) (φ₂ := .f32) dot_S10000x128_S128x128_S10000x128_1_0_0_1_n_n none (X (Proc.devRef .tc main_v23) : FVec Ideal S10000x128 .f32) (X (Proc.devRef .tc main_arg6) : FVec Ideal S128x128 .f32)))
      (X (Proc.devRef .tc main_arg7)) := by
    rw [e5, e4, e3, e2, e1]; rfl
  have hM : X (Proc.devRef .tc main_v32) = RefLN.mean128 (X (Proc.devRef .tc main_v28)) := by
    rw [e11, e10, e9, e8, e7, e6]; rfl
  have hV : tv X main_call2.call0.v2 = RefLN.var128 (X (Proc.devRef .tc main_v28)) (constantI S_ 32 0#32) := by
    rw [t35, t34, t33, t32, t31, t30, t29, t28, t27, t26, t25, t24, t23, t22, t21, t20, t19, t18, t17, t16, t15, t14, t13,
      b28, bc4, e12]
    rfl
  have hV' : X (Proc.devRef .tc main_v33) = RefLN.var128 (X (Proc.devRef .tc main_v28)) (constantI S_ 32 0#32) :=
    eq_of_heq ((tv_heq X main_call2.call0.v2).symm.trans (heq_of_eq hV))
  have hL : X (Proc.devRef .tc main_v46) = RefLN.ln128 (X (Proc.devRef .tc main_v28)) (X (Proc.devRef .tc main_v33)) (X (Proc.devRef .tc main_arg8)) (X (Proc.devRef .tc main_arg9)) := by
    rw [e49, e48, e47, e46, e45, e44, e43, e42, e41, e40, e39, e38, e37, e36, hM]; rfl
  have hR : tv X main_call3.v1 = RefLN.relu128 (X (Proc.devRef .tc main_v46)) := by
    rw [t52, t51, t50, b46]; rfl
  have hR' : X (Proc.devRef .tc main_v47) = RefLN.relu128 (X (Proc.devRef .tc main_v46)) :=
    eq_of_heq ((tv_heq X main_call3.v1).symm.trans (heq_of_eq hR))
  -- a row of the pre-activation is the specification's
  have hrow : Spec.cur2 (n0 := 10000) (n1 := 128) (X (Proc.devRef .tc main_v28)) p
      = Spec.pre (Spec.cur2 (n0 := 10000) (n1 := 10000) (X (Proc.devRef .tc main_arg1)))
          (Spec.mm (Spec.cur2 (n0 := 10000) (n1 := 128) (X (Proc.devRef .tc main_v23))) (Spec.cur2 (n0 := 128) (n1 := 128) (X (Proc.devRef .tc main_arg6))))
          (Spec.cur1 (n := 128) (X (Proc.devRef .tc main_arg7))) p := by
    funext j
    show X (Proc.devRef .tc main_v28) (ix2 p j) = Spec.mm _ _ p j + X (Proc.devRef .tc main_arg7) (ix1 j)
    rw [hA, RefLN.addBias128_apply, RefLN.dot_adj128]
    congr 2
    funext i k
    exact RefLN.dot_x128 _ _ i k
  rw [e53, addf_apply, hR', RefLN.relu128_apply, hL, hV', RefLN.ln128_apply, hrow]
  rfl

end Cert.ReferenceIdeal.L2

end
-- ==== Proof.RefL3.lean ====
/-
  The reference's output layer and skip connection: the operations that write the buffers numbered 121 … 177 (the values
  %49 … %78 of @main, the called variance function's body inlined), in single-assignment order — the first three of them
  close @main's first printed part, the rest are its second part — and what the last holds:
  LN (adj · (h₂ · W_out) + b_out) + 0.1 · (x · W_skip + b_skip)  of the hidden block's activations h₂ (the buffer of %48).
-/
import proofs.«111547_g5291399708710_cont_9to1_m_243_4_alg».proof.ReferenceIdeal
import proofs.«111547_g5291399708710_cont_9to1_m_243_4_alg».proof.Proof.Gen.ReferenceIdeal
import proofs.«111547_g5291399708710_cont_9to1_m_243_4_alg».proof.Proof.Spec
import proofs.«111547_g5291399708710_cont_9to1_m_243_4_alg».proof.Proof.RefLN
import proofs.«111547_g5291399708710_cont_9to1_m_243_4_alg».proof.Proof.LibSsa
import proofs.«111547_g5291399708710_cont_9to1_m_243_4_alg».proof.Proof.RefSsa
import proofs.«111547_g5291399708710_cont_9to1_m_243_4_alg».proof.Proof.LibTRefCasts
import Idealize.ShloMosaic.Lib.StableHlo.Run
import Idealize.ShloMosaic.Lib.ValueIdx

noncomputable section

namespace Cert.ReferenceIdeal.L3

open Idealize.ShloMosaic Idealize.ShloMosaic.TcCoe Idealize.SL.Sem Idealize.ShloMosaic.StableHlo Idealize.ShloMosaic.ValueIdx
open Cert.ReferenceIdeal Cert.ReferenceIdeal.Facts₀

variable {F : FTy → Type} [FloatOps F]

/-- The operations writing the buffers 121, 122, 123 (%49, %50, %51: the end of @main's first part), in order. -/
abbrev ops0 : List (HloOp τ sig (Elt F)) :=
  [ StableHlo.binary main_v48 main_arg10 main_v49 ((fun l r => Host.dotGeneral dot_S10000x128_S128x16_S10000x16_1_0_0_1_n_n none l r) : (⟨S10000x128, .f32⟩ : BufTy).Contents (Elt F) → (⟨S128x16, .f32⟩ : BufTy).Contents (Elt F) → (⟨S10000x16, .f32⟩ : BufTy).Contents (Elt F)),
    StableHlo.binary main_arg1 main_v49 main_v50 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    StableHlo.unary main_arg11 main_v51 (broadcastInDim S1x16 ![1] bcast_S16_S1x16_1 : (⟨S16, .f32⟩ : BufTy).Contents (Elt F) → (⟨S1x16, .f32⟩ : BufTy).Contents (Elt F)) ]

/-- The operations writing the buffers 124 … 177 (@main's second part), in order. -/
abbrev ops1 : List (HloOp τ sig (Elt F)) :=
  [ StableHlo.unary main_v51 main_v52 (broadcastInDim S10000x16 ![0, 1] bcast_S1x16_S10000x16_0_1 : (⟨S1x16, .f32⟩ : BufTy).Contents (Elt F) → (⟨S10000x16, .f32⟩ : BufTy).Contents (Elt F)),
    StableHlo.binary main_v50 main_v52 main_v53 (addf : (⟨S10000x16, .f32⟩ : BufTy).Contents (Elt F) → (⟨S10000x16, .f32⟩ : BufTy).Contents (Elt F) → (⟨S10000x16, .f32⟩ : BufTy).Contents (Elt F)),
    StableHlo.nullary main_cst_6 (constant S_ .f32 0x00000000#32),
    StableHlo.binary main_v53 main_cst_6 main_v54 ((fun x v => Host.reduceAdd x v reducesTo_S10000x16_S10000_d1 h_S_) : (⟨S10000x16, .f32⟩ : BufTy).Contents (Elt F) → (⟨S_, .f32⟩ : BufTy).Contents (Elt F) → (⟨S10000, .f32⟩ : BufTy).Contents (Elt F)),
    StableHlo.unary main_v54 main_v55 (broadcastInDim S10000x1 ![0] bcast_S10000_S10000x1_0 : (⟨S10000, .f32⟩ : BufTy).Contents (Elt F) → (⟨S10000x1, .f32⟩ : BufTy).Contents (Elt F)),
    StableHlo.nullary main_cst_7 (constant S_ .f32 0x41800000#32),
    StableHlo.unary main_cst_7 main_v56 (broadcastInDim S10000x1 ![] bcast_S_S10000x1 : (⟨S_, .f32⟩ : BufTy).Contents (Elt F) → (⟨S10000x1, .f32⟩ : BufTy).Contents (Elt F)),
    StableHlo.binary main_v55 main_v56 main_v57 (Host.divf : (⟨S10000x1, .f32⟩ : BufTy).Contents (Elt F) → (⟨S10000x1, .f32⟩ : BufTy).Contents (Elt F) → (⟨S10000x1, .f32⟩ : BufTy).Contents (Elt F)),
    StableHlo.nullary main_c_8 (constantI S_ 32 0#32),
    StableHlo.TRef.nullary main_call4.cst (constant S_ .f32 0x00000000#32),
    StableHlo.TRef.binary (.of main_v53 : TRef sig ⟨S10000x16, .f32⟩) main_call4.cst main_call4.v0 (fun x v => Host.reduceAdd x v reducesTo_S10000x16_S10000_d1 h_S_),
    StableHlo.TRef.unary main_call4.v0 main_call4.v1 (broadcastInDim S10000x1 ![0] bcast_S10000_S10000x1_0),
    StableHlo.TRef.nullary main_call4.cst_0 (constant S_ .f32 0x41800000#32),
    StableHlo.TRef.unary main_call4.cst_0 main_call4.v2 (broadcastInDim S10000x1 ![] bcast_S_S10000x1),
    StableHlo.TRef.binary main_call4.v1 main_call4.v2 main_call4.v3 Host.divf,
    StableHlo.TRef.unary main_call4.v3 main_call4.v4 (broadcastInDim S10000x16 ![0, 1] bcast_S10000x1_S10000x16_0_1),
    StableHlo.TRef.binary (.of main_v53 : TRef sig ⟨S10000x16, .f32⟩) main_call4.v4 main_call4.v5 subf,
    StableHlo.TRef.binary main_call4.v5 main_call4.v5 main_call4.v6 mulf,
    StableHlo.TRef.unary (.of main_c_8 : TRef sig ⟨S_, .i32⟩) main_call4.v7 (sitofp .f32),
    StableHlo.TRef.nullary main_call4.cst_1 (constant S_ .f32 0x41800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S10000x16_S10000_d1 h_S_),
    StableHlo.TRef.unary main_call4.v9 main_call4.v10 (broadcastInDim S10000x1 ![0] bcast_S10000_S10000x1_0),
    StableHlo.TRef.unary main_call4.v8 main_call4.v11 (broadcastInDim S10000x1 ![] bcast_S_S10000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S10000x1 ![] bcast_S_S10000x1),
    StableHlo.TRef.ternary main_call4.v13 main_call4.v12 main_call4.call0.v1 main_call4.call0.v2 (fun p a b => select (broadcastInDim S10000x1 ![] bcast_S_S10000x1 p) a b),
    StableHlo.unary main_v57 main_v59 (broadcastInDim S10000x16 ![0, 1] bcast_S10000x1_S10000x16_0_1 : (⟨S10000x1, .f32⟩ : BufTy).Contents (Elt F) → (⟨S10000x16, .f32⟩ : BufTy).Contents (Elt F)),
    StableHlo.binary main_v53 main_v59 main_v60 (subf : (⟨S10000x16, .f32⟩ : BufTy).Contents (Elt F) → (⟨S10000x16, .f32⟩ : BufTy).Contents (Elt F) → (⟨S10000x16, .f32⟩ : BufTy).Contents (Elt F)),
    StableHlo.unary main_arg12 main_v61 (broadcastInDim S1x16 ![1] bcast_S16_S1x16_1 : (⟨S16, .f32⟩ : BufTy).Contents (Elt F) → (⟨S1x16, .f32⟩ : BufTy).Contents (Elt F)),
    StableHlo.unary main_v61 main_v62 (broadcastInDim S10000x16 ![0, 1] bcast_S1x16_S10000x16_0_1 : (⟨S1x16, .f32⟩ : BufTy).Contents (Elt F) → (⟨S10000x16, .f32⟩ : BufTy).Contents (Elt F)),
    StableHlo.binary main_v62 main_v60 main_v63 (mulf : (⟨S10000x16, .f32⟩ : BufTy).Contents (Elt F) → (⟨S10000x16, .f32⟩ : BufTy).Contents (Elt F) → (⟨S10000x16, .f32⟩ : BufTy).Contents (Elt F)),
    StableHlo.nullary main_cst_9 (constant S_ .f32 0x3727C5AC#32),
    StableHlo.unary main_cst_9 main_v64 (broadcastInDim S10000x1 ![] bcast_S_S10000x1 : (⟨S_, .f32⟩ : BufTy).Contents (Elt F) → (⟨S10000x1, .f32⟩ : BufTy).Contents (Elt F)),
    StableHlo.binary main_v58 main_v64 main_v65 (addf : (⟨S10000x1, .f32⟩ : BufTy).Contents (Elt F) → (⟨S10000x1, .f32⟩ : BufTy).Contents (Elt F) → (⟨S10000x1, .f32⟩ : BufTy).Contents (Elt F)),
    StableHlo.unary main_v65 main_v66 (Host.sqrt : (⟨S10000x1, .f32⟩ : BufTy).Contents (Elt F) → (⟨S10000x1, .f32⟩ : BufTy).Contents (Elt F)),
    StableHlo.unary main_v66 main_v67 (broadcastInDim S10000x16 ![0, 1] bcast_S10000x1_S10000x16_0_1 : (⟨S10000x1, .f32⟩ : BufTy).Contents (Elt F) → (⟨S10000x16, .f32⟩ : BufTy).Contents (Elt F)),
    StableHlo.binary main_v63 main_v67 main_v68 (Host.divf : (⟨S10000x16, .f32⟩ : BufTy).Contents (Elt F) → (⟨S10000x16, .f32⟩ : BufTy).Contents (Elt F) → (⟨S10000x16, .f32⟩ : BufTy).Contents (Elt F)),
    StableHlo.unary main_arg13 main_v69 (broadcastInDim S1x16 ![1] bcast_S16_S1x16_1 : (⟨S16, .f32⟩ : BufTy).Contents (Elt F) → (⟨S1x16, .f32⟩ : BufTy).Contents (Elt F)),
    StableHlo.unary main_v69 main_v70 (broadcastInDim S10000x16 ![0, 1] bcast_S1x16_S10000x16_0_1 : (⟨S1x16, .f32⟩ : BufTy).Contents (Elt F) → (⟨S10000x16, .f32⟩ : BufTy).Contents (Elt F)),
    StableHlo.binary main_v68 main_v70 main_v71 (addf : (⟨S10000x16, .f32⟩ : BufTy).Contents (Elt F) → (⟨S10000x16, .f32⟩ : BufTy).Contents (Elt F) → (⟨S10000x16, .f32⟩ : BufTy).Contents (Elt F)),
    StableHlo.binary main_arg0 main_arg14 main_v72 ((fun l r => Host.dotGeneral dot_S10000x128_S128x16_S10000x16_1_0_0_1_n_n none l r) : (⟨S10000x128, .f32⟩ : BufTy).Contents (Elt F) → (⟨S128x16, .f32⟩ : BufTy).Contents (Elt F) → (⟨S10000x16, .f32⟩ : BufTy).Contents (Elt F)),
    StableHlo.unary main_arg15 main_v73 (broadcastInDim S1x16 ![1] bcast_S16_S1x16_1 : (⟨S16, .f32⟩ : BufTy).Contents (Elt F) → (⟨S1x16, .f32⟩ : BufTy).Contents (Elt F)),
    StableHlo.unary main_v73 main_v74 (broadcastInDim S10000x16 ![0, 1] bcast_S1x16_S10000x16_0_1 : (⟨S1x16, .f32⟩ : BufTy).Contents (Elt F) → (⟨S10000x16, .f32⟩ : BufTy).Contents (Elt F)),
    StableHlo.binary main_v72 main_v74 main_v75 (addf : (⟨S10000x16, .f32⟩ : BufTy).Contents (Elt F) → (⟨S10000x16, .f32⟩ : BufTy).Contents (Elt F) → (⟨S10000x16, .f32⟩ : BufTy).Contents (Elt F)),
    StableHlo.nullary main_cst_10 (constant S_ .f32 0x3DCCCCCD#32),
    StableHlo.unary main_cst_10 main_v76 (broadcastInDim S10000x16 ![] bcast_S_S10000x16 : (⟨S_, .f32⟩ : BufTy).Contents (Elt F) → (⟨S10000x16, .f32⟩ : BufTy).Contents (Elt F)),
    StableHlo.binary main_v76 main_v75 main_v77 (mulf : (⟨S10000x16, .f32⟩ : BufTy).Contents (Elt F) → (⟨S10000x16, .f32⟩ : BufTy).Contents (Elt F) → (⟨S10000x16, .f32⟩ : BufTy).Contents (Elt F)),
    StableHlo.binary main_v71 main_v77 main_v78 (addf : (⟨S10000x16, .f32⟩ : BufTy).Contents (Elt F) → (⟨S10000x16, .f32⟩ : BufTy).Contents (Elt F) → (⟨S10000x16, .f32⟩ : BufTy).Contents (Elt F)) ]

/-- They are single-assignment lines starting at 121 and at 124. -/
theorem chain0 : Ssa.Chain (τ := τ) 121 (ops0 (F := F)) :=
  ⟨Ssa.step_binary RefSsa.key_inj _ _ _ _ _ _ _ 121 rfl (by decide) (by decide),
   Ssa.step_binary RefSsa.key_inj _ _ _ _ _ _ _ 122 rfl (by decide) (by decide),
   Ssa.step_unary RefSsa.key_inj _ _ _ _ _ 123 rfl (by decide),
   trivial⟩
theorem chain1 : Ssa.Chain (τ := τ) 124 (ops1 (F := F)) :=
  ⟨Ssa.step_unary RefSsa.key_inj _ _ _ _ _ 124 rfl (by decide),
   Ssa.step_binary RefSsa.key_inj _ _ _ _ _ _ _ 125 rfl (by decide) (by decide),
   Ssa.step_nullary RefSsa.key_inj _ _ _ 126 rfl,
   Ssa.step_binary RefSsa.key_inj _ _ _ _ _ _ _ 127 rfl (by decide) (by decide),
   Ssa.step_unary RefSsa.key_inj _ _ _ _ _ 128 rfl (by decide),
   Ssa.step_nullary RefSsa.key_inj _ _ _ 129 rfl,
   Ssa.step_unary RefSsa.key_inj _ _ _ _ _ 130 rfl (by decide),
   Ssa.step_binary RefSsa.key_inj _ _ _ _ _ _ _ 131 rfl (by decide) (by decide),
   Ssa.step_nullary RefSsa.key_inj _ _ _ 132 rfl,
   Ssa.step_nullary RefSsa.key_inj _ _ _ 133 rfl,
   Ssa.step_binary RefSsa.key_inj _ _ _ _ _ _ _ 134 rfl (by decide) (by decide),
   Ssa.step_unary RefSsa.key_inj _ _ _ _ _ 135 rfl (by decide),
   Ssa.step_nullary RefSsa.key_inj _ _ _ 136 rfl,
   Ssa.step_unary RefSsa.key_inj _ _ _ _ _ 137 rfl (by decide),
   Ssa.step_binary RefSsa.key_inj _ _ _ _ _ _ _ 138 rfl (by decide) (by decide),
   Ssa.step_unary RefSsa.key_inj _ _ _ _ _ 139 rfl (by decide),
   Ssa.step_binary RefSsa.key_inj _ _ _ _ _ _ _ 140 rfl (by decide) (by decide),
   Ssa.step_binary RefSsa.key_inj _ _ _ _ _ _ _ 141 rfl (by decide) (by decide),
   Ssa.step_unary RefSsa.key_inj _ _ _ _ _ 142 rfl (by decide),
   Ssa.step_nullary RefSsa.key_inj _ _ _ 143 rfl,
   Ssa.step_binary RefSsa.key_inj _ _ _ _ _ _ _ 144 rfl (by decide) (by decide),
   Ssa.step_nullary RefSsa.key_inj _ _ _ 145 rfl,
   Ssa.step_binary RefSsa.key_inj _ _ _ _ _ _ _ 146 rfl (by decide) (by decide),
   Ssa.step_unary RefSsa.key_inj _ _ _ _ _ 147 rfl (by decide),
   Ssa.step_unary RefSsa.key_inj _ _ _ _ _ 148 rfl (by decide),
   Ssa.step_binary RefSsa.key_inj _ _ _ _ _ _ _ 149 rfl (by decide) (by decide),
   Ssa.step_nullary RefSsa.key_inj _ _ _ 150 rfl,
   Ssa.step_binary RefSsa.key_inj _ _ _ _ _ _ _ 151 rfl (by decide) (by decide),
   Ssa.step_nullary RefSsa.key_inj _ _ _ 152 rfl,
   Ssa.step_unary RefSsa.key_inj _ _ _ _ _ 153 rfl (by decide),
   Ssa.step_unary RefSsa.key_inj _ _ _ _ _ 154 rfl (by decide),
   RefSsa.step_ternary _ _ _ _ _ _ _ _ _ 155 rfl (by decide) (by decide) (by decide),
   Ssa.step_unary RefSsa.key_inj _ _ _ _ _ 156 rfl (by decide),
   Ssa.step_binary RefSsa.key_inj _ _ _ _ _ _ _ 157 rfl (by decide) (by decide),
   Ssa.step_unary RefSsa.key_inj _ _ _ _ _ 158 rfl (by decide),
   Ssa.step_unary RefSsa.key_inj _ _ _ _ _ 159 rfl (by decide),
   Ssa.step_binary RefSsa.key_inj _ _ _ _ _ _ _ 160 rfl (by decide) (by decide),
   Ssa.step_nullary RefSsa.key_inj _ _ _ 161 rfl,
   Ssa.step_unary RefSsa.key_inj _ _ _ _ _ 162 rfl (by decide),
   Ssa.step_binary RefSsa.key_inj _ _ _ _ _ _ _ 163 rfl (by decide) (by decide),
   Ssa.step_unary RefSsa.key_inj _ _ _ _ _ 164 rfl (by decide),
   Ssa.step_unary RefSsa.key_inj _ _ _ _ _ 165 rfl (by decide),
   Ssa.step_binary RefSsa.key_inj _ _ _ _ _ _ _ 166 rfl (by decide) (by decide),
   Ssa.step_unary RefSsa.key_inj _ _ _ _ _ 167 rfl (by decide),
   Ssa.step_unary RefSsa.key_inj _ _ _ _ _ 168 rfl (by decide),
   Ssa.step_binary RefSsa.key_inj _ _ _ _ _ _ _ 169 rfl (by decide) (by decide),
   Ssa.step_binary RefSsa.key_inj _ _ _ _ _ _ _ 170 rfl (by decide) (by decide),
   Ssa.step_unary RefSsa.key_inj _ _ _ _ _ 171 rfl (by decide),
   Ssa.step_unary RefSsa.key_inj _ _ _ _ _ 172 rfl (by decide),
   Ssa.step_binary RefSsa.key_inj _ _ _ _ _ _ _ 173 rfl (by decide) (by decide),
   Ssa.step_nullary RefSsa.key_inj _ _ _ 174 rfl,
   Ssa.step_unary RefSsa.key_inj _ _ _ _ _ 175 rfl (by decide),
   Ssa.step_binary RefSsa.key_inj _ _ _ _ _ _ _ 176 rfl (by decide) (by decide),
   Ssa.step_binary RefSsa.key_inj _ _ _ _ _ _ _ 177 rfl (by decide) (by decide),
   trivial⟩

/-- Each touches TensorCore buffers only. -/
theorem ops0_sub : (ops0 (F := F)).Forall fun op => op.bufs ⊆ tcRefs τ sig :=
  ⟨binary_bufs_sub .., binary_bufs_sub .., unary_bufs_sub ..⟩
theorem ops1_sub : (ops1 (F := F)).Forall fun op => op.bufs ⊆ tcRefs τ sig :=
  ⟨unary_bufs_sub .., binary_bufs_sub .., nullary_bufs_sub .., binary_bufs_sub ..,
   unary_bufs_sub .., nullary_bufs_sub .., unary_bufs_sub .., binary_bufs_sub ..,
   nullary_bufs_sub .., nullary_bufs_sub .., binary_bufs_sub .., unary_bufs_sub ..,
   nullary_bufs_sub .., unary_bufs_sub .., binary_bufs_sub .., unary_bufs_sub ..,
   binary_bufs_sub .., binary_bufs_sub .., unary_bufs_sub .., nullary_bufs_sub ..,
   binary_bufs_sub .., nullary_bufs_sub .., binary_bufs_sub .., unary_bufs_sub ..,
   unary_bufs_sub .., binary_bufs_sub .., nullary_bufs_sub .., binary_bufs_sub ..,
   nullary_bufs_sub .., unary_bufs_sub .., unary_bufs_sub .., ternary_bufs_sub ..,
   unary_bufs_sub .., binary_bufs_sub .., unary_bufs_sub .., unary_bufs_sub ..,
   binary_bufs_sub .., nullary_bufs_sub .., unary_bufs_sub .., binary_bufs_sub ..,
   unary_bufs_sub .., unary_bufs_sub .., binary_bufs_sub .., unary_bufs_sub ..,
   unary_bufs_sub .., binary_bufs_sub .., binary_bufs_sub .., unary_bufs_sub ..,
   unary_bufs_sub .., binary_bufs_sub .., nullary_bufs_sub .., unary_bufs_sub ..,
   binary_bufs_sub .., binary_bufs_sub ..⟩

/-- At contents every operation of the two lines leaves fixed, the buffer of %78 holds the network's output of the hidden
    block's activations (the buffer of %48) and the argument buffers' contents. -/
theorem out_eq (X : Valuation τ sig (Elt Ideal))
    (hfix : ∀ op ∈ (ops0 (F := Ideal)) ++ (ops1 (F := Ideal)), ∀ r : Ref sig .tc, op.result X (Proc.devRef .tc r) = X (Proc.devRef .tc r))
    (p : Fin 10000) (q : Fin 16) :
    X (Proc.devRef .tc main_v78) (ix2 p q)
      = Spec.outL (Spec.cur2 (n0 := 10000) (n1 := 10000) (X (Proc.devRef .tc main_arg1)))
          (Spec.mm (Spec.cur2 (n0 := 10000) (n1 := 128) (X (Proc.devRef .tc main_v48))) (Spec.cur2 (n0 := 128) (n1 := 16) (X (Proc.devRef .tc main_arg10))))
          (Spec.cur1 (n := 16) (X (Proc.devRef .tc main_arg11))) (Spec.cur1 (n := 16) (X (Proc.devRef .tc main_arg12)))
          (Spec.cur1 (n := 16) (X (Proc.devRef .tc main_arg13)))
          (Spec.skip (Spec.cur2 (n0 := 10000) (n1 := 128) (X (Proc.devRef .tc main_arg0))) (Spec.cur2 (n0 := 128) (n1 := 16) (X (Proc.devRef .tc main_arg14)))
            (Spec.cur1 (n := 16) (X (Proc.devRef .tc main_arg15)))) p q := by
  have H0 := fun op h => hfix op (List.mem_append_left _ h)
  have H1 := fun op h => hfix op (List.mem_append_right _ h)
  clear hfix
  obtain ⟨f121, H0⟩ := List.forall_mem_cons.mp H0
  obtain ⟨f122, H0⟩ := List.forall_mem_cons.mp H0
  obtain ⟨f123, H0⟩ := List.forall_mem_cons.mp H0
  clear H0
  obtain ⟨f124, H1⟩ := List.forall_mem_cons.mp H1
  obtain ⟨f125, H1⟩ := List.forall_mem_cons.mp H1
  obtain ⟨f126, H1⟩ := List.forall_mem_cons.mp H1
  obtain ⟨f127, H1⟩ := List.forall_mem_cons.mp H1
  obtain ⟨f128, H1⟩ := List.forall_mem_cons.mp H1
  obtain ⟨f129, H1⟩ := List.forall_mem_cons.mp H1
  obtain ⟨f130, H1⟩ := List.forall_mem_cons.mp H1
  obtain ⟨f131, H1⟩ := List.forall_mem_cons.mp H1
  obtain ⟨f132, H1⟩ := List.forall_mem_cons.mp H1
  obtain ⟨f133, H1⟩ := List.forall_mem_cons.mp H1
  obtain ⟨f134, H1⟩ := List.forall_mem_cons.mp H1
  obtain ⟨f135, H1⟩ := List.forall_mem_cons.mp H1
  obtain ⟨f136, H1⟩ := List.forall_mem_cons.mp H1
  obtain ⟨f137, H1⟩ := List.forall_mem_cons.mp H1
  obtain ⟨f138, H1⟩ := List.forall_mem_cons.mp H1
  obtain ⟨f139, H1⟩ := List.forall_mem_cons.mp H1
  obtain ⟨f140, H1⟩ := List.forall_mem_cons.mp H1
  obtain ⟨f141, H1⟩ := List.forall_mem_cons.mp H1
  obtain ⟨f142, H1⟩ := List.forall_mem_cons.mp H1
  obtain ⟨f143, H1⟩ := List.forall_mem_cons.mp H1
  obtain ⟨f144, H1⟩ := List.forall_mem_cons.mp H1
  obtain ⟨f145, H1⟩ := List.forall_mem_cons.mp H1
  obtain ⟨f146, H1⟩ := List.forall_mem_cons.mp H1
  obtain ⟨f147, H1⟩ := List.forall_mem_cons.mp H1
  obtain ⟨f148, H1⟩ := List.forall_mem_cons.mp H1
  obtain ⟨f149, H1⟩ := List.forall_mem_cons.mp H1
  obtain ⟨f150, H1⟩ := List.forall_mem_cons.mp H1
  obtain ⟨f151, H1⟩ := List.forall_mem_cons.mp H1
  obtain ⟨f152, H1⟩ := List.forall_mem_cons.mp H1
  obtain ⟨f153, H1⟩ := List.forall_mem_cons.mp H1
  obtain ⟨f154, H1⟩ := List.forall_mem_cons.mp H1
  obtain ⟨f155, H1⟩ := List.forall_mem_cons.mp H1
  obtain ⟨f156, H1⟩ := List.forall_mem_cons.mp H1
  obtain ⟨f157, H1⟩ := List.forall_mem_cons.mp H1
  obtain ⟨f158, H1⟩ := List.forall_mem_cons.mp H1
  obtain ⟨f159, H1⟩ := List.forall_mem_cons.mp H1
  obtain ⟨f160, H1⟩ := List.forall_mem_cons.mp H1
  obtain ⟨f161, H1⟩ := List.forall_mem_cons.mp H1
  obtain ⟨f162, H1⟩ := List.forall_mem_cons.mp H1
  obtain ⟨f163, H1⟩ := List.forall_mem_cons.mp H1
  obtain ⟨f164, H1⟩ := List.forall_mem_cons.mp H1
  obtain ⟨f165, H1⟩ := List.forall_mem_cons.mp H1
  obtain ⟨f166, H1⟩ := List.forall_mem_cons.mp H1
  obtain ⟨f167, H1⟩ := List.forall_mem_cons.mp H1
  obtain ⟨f168, H1⟩ := List.forall_mem_cons.mp H1
  obtain ⟨f169, H1⟩ := List.forall_mem_cons.mp H1
  obtain ⟨f170, H1⟩ := List.forall_mem_cons.mp H1
  obtain ⟨f171, H1⟩ := List.forall_mem_cons.mp H1
  obtain ⟨f172, H1⟩ := List.forall_mem_cons.mp H1
  obtain ⟨f173, H1⟩ := List.forall_mem_cons.mp H1
  obtain ⟨f174, H1⟩ := List.forall_mem_cons.mp H1
  obtain ⟨f175, H1⟩ := List.forall_mem_cons.mp H1
  obtain ⟨f176, H1⟩ := List.forall_mem_cons.mp H1
  obtain ⟨f177, H1⟩ := List.forall_mem_cons.mp H1
  clear H1
  -- each operation's defining equation, read off the fixed contents
  have e121 := RefSsa.eq_binary X _ _ _ _ _ _ _ f121
  have e122 := RefSsa.eq_binary X _ _ _ _ _ _ _ f122
  have e123 := RefSsa.eq_unary X _ _ _ _ _ f123
  have e124 := RefSsa.eq_unary X _ _ _ _ _ f124
  have e125 := RefSsa.eq_binary X _ _ _ _ _ _ _ f125
  have e126 := RefSsa.eq_nullary X _ _ _ f126
  have e127 := RefSsa.eq_binary X _ _ _ _ _ _ _ f127
  have e128 := RefSsa.eq_unary X _ _ _ _ _ f128
  have e129 := RefSsa.eq_nullary X _ _ _ f129
  have e130 := RefSsa.eq_unary X _ _ _ _ _ f130
  have e131 := RefSsa.eq_binary X _ _ _ _ _ _ _ f131
  have e132 := RefSsa.eq_nullary X _ _ _ f132
  have e133 := RefSsa.eq_nullary X _ _ _ f133
  have e134 := RefSsa.eq_binary X _ _ _ _ _ _ _ f134
  have e135 := RefSsa.eq_unary X _ _ _ _ _ f135
  have e136 := RefSsa.eq_nullary X _ _ _ f136
  have e137 := RefSsa.eq_unary X _ _ _ _ _ f137
  have e138 := RefSsa.eq_binary X _ _ _ _ _ _ _ f138
  have e139 := RefSsa.eq_unary X _ _ _ _ _ f139
  have e140 := RefSsa.eq_binary X _ _ _ _ _ _ _ f140
  have e141 := RefSsa.eq_binary X _ _ _ _ _ _ _ f141
  have e142 := RefSsa.eq_unary X _ _ _ _ _ f142
  have e143 := RefSsa.eq_nullary X _ _ _ f143
  have e144 := RefSsa.eq_binary X _ _ _ _ _ _ _ f144
  have e145 := RefSsa.eq_nullary X _ _ _ f145
  have e146 := RefSsa.eq_binary X _ _ _ _ _ _ _ f146
  have e147 := RefSsa.eq_unary X _ _ _ _ _ f147
  have e148 := RefSsa.eq_unary X _ _ _ _ _ f148
  have e149 := RefSsa.eq_binary X _ _ _ _ _ _ _ f149
  have e150 := RefSsa.eq_nullary X _ _ _ f150
  have e151 := RefSsa.eq_binary X _ _ _ _ _ _ _ f151
  have e152 := RefSsa.eq_nullary X _ _ _ f152
  have e153 := RefSsa.eq_unary X _ _ _ _ _ f153
  have e154 := RefSsa.eq_unary X _ _ _ _ _ f154
  have e155 := RefSsa.eq_ternary X _ _ _ _ _ _ _ _ _ f155
  have e156 := RefSsa.eq_unary X _ _ _ _ _ f156
  have e157 := RefSsa.eq_binary X _ _ _ _ _ _ _ f157
  have e158 := RefSsa.eq_unary X _ _ _ _ _ f158
  have e159 := RefSsa.eq_unary X _ _ _ _ _ f159
  have e160 := RefSsa.eq_binary X _ _ _ _ _ _ _ f160
  have e161 := RefSsa.eq_nullary X _ _ _ f161
  have e162 := RefSsa.eq_unary X _ _ _ _ _ f162
  have e163 := RefSsa.eq_binary X _ _ _ _ _ _ _ f163
  have e164 := RefSsa.eq_unary X _ _ _ _ _ f164
  have e165 := RefSsa.eq_unary X _ _ _ _ _ f165
  have e166 := RefSsa.eq_binary X _ _ _ _ _ _ _ f166
  have e167 := RefSsa.eq_unary X _ _ _ _ _ f167
  have e168 := RefSsa.eq_unary X _ _ _ _ _ f168
  have e169 := RefSsa.eq_binary X _ _ _ _ _ _ _ f169
  have e170 := RefSsa.eq_binary X _ _ _ _ _ _ _ f170
  have e171 := RefSsa.eq_unary X _ _ _ _ _ f171
  have e172 := RefSsa.eq_unary X _ _ _ _ _ f172
  have e173 := RefSsa.eq_binary X _ _ _ _ _ _ _ f173
  have e174 := RefSsa.eq_nullary X _ _ _ f174
  have e175 := RefSsa.eq_unary X _ _ _ _ _ f175
  have e176 := RefSsa.eq_binary X _ _ _ _ _ _ _ f176
  have e177 := RefSsa.eq_binary X _ _ _ _ _ _ _ f177
  clear f121 f122 f123 f124 f125 f126 f127 f128 f129 f130 f131 f132 f133 f134 f135 f136 f137 f138 f139 f140 f141 f142 f143 f144 f145 f146 f147 f148 f149 f150 f151 f152 f153 f154 f155 f156 f157 f158 f159 f160 f161 f162 f163 f164 f165 f166 f167 f168 f169 f170 f171 f172 f173 f174 f175 f176 f177
  -- the called variance function's values, at their carried types
  have o133 := (congrArg (TRef.ofBuf (Val := Elt Ideal) main_call4.cst) e133).trans (TRef.ofBuf_toBuf _ _)
  have o134 := (congrArg (TRef.ofBuf (Val := Elt Ideal) main_call4.v0) e134).trans (TRef.ofBuf_toBuf _ _)
  have o135 := (congrArg (TRef.ofBuf (Val := Elt Ideal) main_call4.v1) e135).trans (TRef.ofBuf_toBuf _ _)
  have o136 := (congrArg (TRef.ofBuf (Val := Elt Ideal) main_call4.cst_0) e136).trans (TRef.ofBuf_toBuf _ _)
  have o137 := (congrArg (TRef.ofBuf (Val := Elt Ideal) main_call4.v2) e137).trans (TRef.ofBuf_toBuf _ _)
  have o138 := (congrArg (TRef.ofBuf (Val := Elt Ideal) main_call4.v3) e138).trans (TRef.ofBuf_toBuf _ _)
  have o139 := (congrArg (TRef.ofBuf (Val := Elt Ideal) main_call4.v4) e139).trans (TRef.ofBuf_toBuf _ _)
  have o140 := (congrArg (TRef.ofBuf (Val := Elt Ideal) main_call4.v5) e140).trans (TRef.ofBuf_toBuf _ _)
  have o141 := (congrArg (TRef.ofBuf (Val := Elt Ideal) main_call4.v6) e141).trans (TRef.ofBuf_toBuf _ _)
  have o142 := (congrArg (TRef.ofBuf (Val := Elt Ideal) main_call4.v7) e142).trans (TRef.ofBuf_toBuf _ _)
  have o143 := (congrArg (TRef.ofBuf (Val := Elt Ideal) main_call4.cst_1) e143).trans (TRef.ofBuf_toBuf _ _)
  have o144 := (congrArg (TRef.ofBuf (Val := Elt Ideal) main_call4.v8) e144).trans (TRef.ofBuf_toBuf _ _)
  have o145 := (congrArg (TRef.ofBuf (Val := Elt Ideal) main_call4.cst_2) e145).trans (TRef.ofBuf_toBuf _ _)
  have o146 := (congrArg (TRef.ofBuf (Val := Elt Ideal) main_call4.v9) e146).trans (TRef.ofBuf_toBuf _ _)
  have o147 := (congrArg (TRef.ofBuf (Val := Elt Ideal) main_call4.v10) e147).trans (TRef.ofBuf_toBuf _ _)
  have o148 := (congrArg (TRef.ofBuf (Val := Elt Ideal) main_call4.v11) e148).trans (TRef.ofBuf_toBuf _ _)
  have o149 := (congrArg (TRef.ofBuf (Val := Elt Ideal) main_call4.v12) e149).trans (TRef.ofBuf_toBuf _ _)
  have o150 := (congrArg (TRef.ofBuf (Val := Elt Ideal) main_call4.cst_3) e150).trans (TRef.ofBuf_toBuf _ _)
  have o151 := (congrArg (TRef.ofBuf (Val := Elt Ideal) main_call4.v13) e151).trans (TRef.ofBuf_toBuf _ _)
  have o152 := (congrArg (TRef.ofBuf (Val := Elt Ideal) main_call4.cst_4) e152).trans (TRef.ofBuf_toBuf _ _)
  have o153 := (congrArg (TRef.ofBuf (Val := Elt Ideal) main_call4.call0.v0) e153).trans (TRef.ofBuf_toBuf _ _)
  have o154 := (congrArg (TRef.ofBuf (Val := Elt Ideal) main_call4.call0.v1) e154).trans (TRef.ofBuf_toBuf _ _)
  have o155 := (congrArg (TRef.ofBuf (Val := Elt Ideal) main_call4.call0.v2) e155).trans (TRef.ofBuf_toBuf _ _)
  -- its two arguments are the buffers of %53 and of the integer zero
  have hA' : TRef.ofBuf (Val := Elt Ideal) (.of main_v53 : TRef sig ⟨S10000x16, .f32⟩) (X (Proc.devRef .tc main_v53)) = X (Proc.devRef .tc main_v53) :=
    TRef.ofBuf_eq_of_heq _ _ _ HEq.rfl
  have hc' : TRef.ofBuf (Val := Elt Ideal) (.of main_c_8 : TRef sig ⟨S_, .i32⟩) (X (Proc.devRef .tc main_c_8)) = constantI S_ 32 0#32 :=
    TRef.ofBuf_eq_of_heq _ _ _ (heq_of_eq e132)
  -- the called function's mean, count and variance of its argument
  have oMean : TRef.ofBuf (Val := Elt Ideal) main_call4.v3 (X (Proc.devRef .tc main_call4.v3.ref)) = RefLN.mean16 (X (Proc.devRef .tc main_v53)) := by
    rw [o138, o135, o134, hA', o133, o137, o136]; rfl
  have oCnt : TRef.ofBuf (Val := Elt Ideal) main_call4.v8 (X (Proc.devRef .tc main_call4.v8.ref)) = RefLN.cnt16 (constantI S_ 32 0#32) := by
    rw [o144, o143, o142, hc']; rfl
  have oVar : TRef.ofBuf (Val := Elt Ideal) main_call4.call0.v2 (X (Proc.devRef .tc main_call4.call0.v2.ref))
      = RefLN.var16 (X (Proc.devRef .tc main_v53)) (constantI S_ 32 0#32) := by
    rw [o155, o151, o150, o149, o148, oCnt, o147, o146, o145, o141, o140, hA', o139, oMean, o154, o153, o152]; rfl
  -- the variance, as the buffer of %58 holds it
  have hV58 : X (Proc.devRef .tc main_v58) = RefLN.var16 (X (Proc.devRef .tc main_v53)) (constantI S_ 32 0#32) :=
    (TRef.toBuf_ofBuf main_call4.call0.v2 _).symm.trans
      ((congrArg (TRef.toBuf (Val := Elt Ideal) main_call4.call0.v2) oVar).trans (TRef.toBuf_eq_of_heq _ _ _ HEq.rfl))
  -- the pre-activation, the mean, the normalised array and the scaled skip connection
  have hA : X (Proc.devRef .tc main_v53) = RefLN.addBias16 (Host.dotGeneral (F := Ideal) (φ₁ := .f32) (φ₂ := .f32) dot_S10000x10000_S10000x16_S10000x16_1_0_0_1_n_n none (X (Proc.devRef .tc main_arg1) : FVec Ideal S10000x10000 .f32) (Host.dotGeneral (F := Ideal) (φ₁ := .f32) (φ₂ := .f32) dot_S10000x128_S128x16_S10000x16_1_0_0_1_n_n none (X (Proc.devRef .tc main_v48) : FVec Ideal S10000x128 .f32) (X (Proc.devRef .tc main_arg10) : FVec Ideal S128x16 .f32))) (X (Proc.devRef .tc main_arg11)) := by
    rw [e125, e124, e123, e122, e121]; rfl
  have hM : X (Proc.devRef .tc main_v57) = RefLN.mean16 (X (Proc.devRef .tc main_v53)) := by
    rw [e131, e128, e127, e126, e130, e129]; rfl
  have hLN : X (Proc.devRef .tc main_v71) = RefLN.ln16 (X (Proc.devRef .tc main_v53)) (X (Proc.devRef .tc main_v58)) (X (Proc.devRef .tc main_arg12)) (X (Proc.devRef .tc main_arg13)) := by
    rw [e169, e168, e167, e166, e165, e164, e163, e162, e161, e160, e159, e158, e157, e156, hM]; rfl
  have hSk : X (Proc.devRef .tc main_v77) = RefLN.scale16 (RefLN.addBias16 (Host.dotGeneral (F := Ideal) (φ₁ := .f32) (φ₂ := .f32) dot_S10000x128_S128x16_S10000x16_1_0_0_1_n_n none (X (Proc.devRef .tc main_arg0) : FVec Ideal S10000x128 .f32) (X (Proc.devRef .tc main_arg14) : FVec Ideal S128x16 .f32)) (X (Proc.devRef .tc main_arg15))) := by
    rw [e176, e175, e174, e173, e172, e171, e170]; rfl
  -- read at (p, q): the hidden activations' product, then row p of the pre-activation, are the specification's
  have hu : Spec.cur2 (n0 := 10000) (n1 := 16) (Host.dotGeneral (F := Ideal) (φ₁ := .f32) (φ₂ := .f32) dot_S10000x128_S128x16_S10000x16_1_0_0_1_n_n none (X (Proc.devRef .tc main_v48) : FVec Ideal S10000x128 .f32) (X (Proc.devRef .tc main_arg10) : FVec Ideal S128x16 .f32)) = Spec.mm (Spec.cur2 (n0 := 10000) (n1 := 128) (X (Proc.devRef .tc main_v48))) (Spec.cur2 (n0 := 128) (n1 := 16) (X (Proc.devRef .tc main_arg10))) := by
    funext i j; exact RefLN.dot_x16 _ _ i j
  have hrow : Spec.cur2 (n0 := 10000) (n1 := 16) (X (Proc.devRef .tc main_v53)) p
      = Spec.pre (Spec.cur2 (n0 := 10000) (n1 := 10000) (X (Proc.devRef .tc main_arg1))) (Spec.mm (Spec.cur2 (n0 := 10000) (n1 := 128) (X (Proc.devRef .tc main_v48))) (Spec.cur2 (n0 := 128) (n1 := 16) (X (Proc.devRef .tc main_arg10)))) (Spec.cur1 (n := 16) (X (Proc.devRef .tc main_arg11))) p := by
    funext j
    show X (Proc.devRef .tc main_v53) (ix2 p j) = Spec.mm (Spec.cur2 (n0 := 10000) (n1 := 10000) (X (Proc.devRef .tc main_arg1))) (Spec.mm (Spec.cur2 (n0 := 10000) (n1 := 128) (X (Proc.devRef .tc main_v48))) (Spec.cur2 (n0 := 128) (n1 := 16) (X (Proc.devRef .tc main_arg10)))) p j + X (Proc.devRef .tc main_arg11) (ix1 j)
    rw [hA, RefLN.addBias16_apply, RefLN.dot_adj16, hu]
  rw [e177, addf_apply, hLN, hV58, hSk, RefLN.scale16_apply, RefLN.addBias16_apply, RefLN.dot_x16, RefLN.ln16_apply, hrow]
  rfl

end Cert.ReferenceIdeal.L3

end
-- ==== Proof.RefRun.lean ====
/-
  The reference's run: @main is the straight line of its operations (the called functions' bodies in place of their
  calls), so every buffer ends at the operations' fold over the launch memory; the arguments keep their contents, and
  the result buffer holds the network's output, read off the fold through the three layers' equations.
-/
import proofs.«111547_g5291399708710_cont_9to1_m_243_4_alg».proof.ReferenceIdeal
import proofs.«111547_g5291399708710_cont_9to1_m_243_4_alg».proof.Proof.Gen.ReferenceIdeal
import proofs.«111547_g5291399708710_cont_9to1_m_243_4_alg».proof.Proof.Spec
import proofs.«111547_g5291399708710_cont_9to1_m_243_4_alg».proof.Proof.LibSsa
import proofs.«111547_g5291399708710_cont_9to1_m_243_4_alg».proof.Proof.RefSsa
import proofs.«111547_g5291399708710_cont_9to1_m_243_4_alg».proof.Proof.RefL1
import proofs.«111547_g5291399708710_cont_9to1_m_243_4_alg».proof.Proof.RefL2
import proofs.«111547_g5291399708710_cont_9to1_m_243_4_alg».proof.Proof.RefL3
import Idealize.ShloMosaic.Lib.StableHlo.Run
import Idealize.ShloMosaic.Lib.ValueIdx

noncomputable section

namespace Cert.ReferenceIdeal.RefRun

open Idealize.ShloMosaic Idealize.ShloMosaic.TcCoe Idealize.SL.Sem Idealize.ShloMosaic.StableHlo Idealize.ShloMosaic.ValueIdx
open Cert.ReferenceIdeal Cert.ReferenceIdeal.Facts₀

variable {F : FTy → Type} [FloatOps F]

/-- @main's operations, the three layers' lines one after the other. -/
abbrev ops : List (HloOp τ sig (Elt F)) := L1.ops ++ (L2.ops ++ (L3.ops0 ++ L3.ops1))

/-! ## The layers' line lengths: the buffers 16 … 67, 68 … 120, 121 … 123, 124 … 177 -/

theorem len1 : (L1.ops (F := F)).length = 52 := rfl
theorem len2 : (L2.ops (F := F)).length = 53 := rfl
theorem len30 : (L3.ops0 (F := F)).length = 3 := rfl

/-- The whole line is single-assignment from 16: the layers' lines glued, each starting where the one before ends. -/
theorem chain : Ssa.Chain (τ := τ) 16 (ops (F := F)) := by
  refine Ssa.chain_append _ _ L1.chain ?_
  rw [len1]
  refine Ssa.chain_append (n := 68) _ _ L2.chain ?_
  rw [len2]
  refine Ssa.chain_append (n := 121) _ _ L3.chain0 ?_
  rw [len30]
  exact L3.chain1

/-- An argument buffer (numbered below 16) keeps its launch contents through the line. -/
theorem arg_eq (m : (ℓ : Loc nD τ sig) → Buf (Elt F) ℓ) (c : Dev nD) (b : Ref sig .tc) (hb : Ssa.key b < 16) :
    after (ops (F := F)) (launchContents m c) (Proc.devRef .tc b) = m ((c.tc : Thread nD τ).loc b) :=
  Ssa.after_below chain (launchContents m c) b hb

/-- The result buffer after the line holds the network's output of the launch memory's arguments. -/
theorem out_eq (m : (ℓ : Loc nD τ sig) → Buf (Elt Ideal) ℓ) (c : Dev nD) (p : Fin 10000) (q : Fin 16) :
    (after (ops (F := Ideal)) (launchContents m c) (Proc.devRef .tc main_v78) : S10000x16.Idx → EReal) (ix2 p q)
      = Spec.net
          (Spec.cur2 (n0 := 10000) (n1 := 128) (m ((c.tc : Thread nD τ).loc main_arg0)))
          (Spec.cur2 (n0 := 10000) (n1 := 10000) (m ((c.tc : Thread nD τ).loc main_arg1)))
          (Spec.cur2 (n0 := 128) (n1 := 128) (m ((c.tc : Thread nD τ).loc main_arg2)))
          (Spec.cur1 (n := 128) (m ((c.tc : Thread nD τ).loc main_arg3)))
          (Spec.cur1 (n := 128) (m ((c.tc : Thread nD τ).loc main_arg4)))
          (Spec.cur1 (n := 128) (m ((c.tc : Thread nD τ).loc main_arg5)))
          (Spec.cur2 (n0 := 128) (n1 := 128) (m ((c.tc : Thread nD τ).loc main_arg6)))
          (Spec.cur1 (n := 128) (m ((c.tc : Thread nD τ).loc main_arg7)))
          (Spec.cur1 (n := 128) (m ((c.tc : Thread nD τ).loc main_arg8)))
          (Spec.cur1 (n := 128) (m ((c.tc : Thread nD τ).loc main_arg9)))
          (Spec.cur2 (n0 := 128) (n1 := 16) (m ((c.tc : Thread nD τ).loc main_arg10)))
          (Spec.cur1 (n := 16) (m ((c.tc : Thread nD τ).loc main_arg11)))
          (Spec.cur1 (n := 16) (m ((c.tc : Thread nD τ).loc main_arg12)))
          (Spec.cur1 (n := 16) (m ((c.tc : Thread nD τ).loc main_arg13)))
          (Spec.cur2 (n0 := 128) (n1 := 16) (m ((c.tc : Thread nD τ).loc main_arg14)))
          (Spec.cur1 (n := 16) (m ((c.tc : Thread nD τ).loc main_arg15))) p q := by
  -- every operation of the line leaves the final contents fixed; so does every operation of each layer
  have hfix := Ssa.fixed (chain (F := Ideal)) (launchContents m c)
  have hfix1 : ∀ op ∈ (L1.ops (F := Ideal)), ∀ r : Ref sig .tc,
      op.result (after (ops (F := Ideal)) (launchContents m c)) (Proc.devRef .tc r)
        = after (ops (F := Ideal)) (launchContents m c) (Proc.devRef .tc r) :=
    fun op h => hfix op (List.mem_append_left _ h)
  have hfix2 : ∀ op ∈ (L2.ops (F := Ideal)), ∀ r : Ref sig .tc,
      op.result (after (ops (F := Ideal)) (launchContents m c)) (Proc.devRef .tc r)
        = after (ops (F := Ideal)) (launchContents m c) (Proc.devRef .tc r) :=
    fun op h => hfix op (List.mem_append_right _ (List.mem_append_left _ h))
  have hfix3 : ∀ op ∈ (L3.ops0 (F := Ideal)) ++ (L3.ops1 (F := Ideal)), ∀ r : Ref sig .tc,
      op.result (after (ops (F := Ideal)) (launchContents m c)) (Proc.devRef .tc r)
        = after (ops (F := Ideal)) (launchContents m c) (Proc.devRef .tc r) :=
    fun op h => hfix op (List.mem_append_right _ (List.mem_append_right _ h))
  -- the layers' equations at the final contents, the inner layers' as equations of whole arrays
  have e3 := L3.out_eq _ hfix3 p q
  have e2 := funext fun p => funext fun q => L2.out_eq _ hfix2 p q
  have e1 := funext fun p => funext fun q => L1.out_eq _ hfix1 p q
  rw [e3]
  unfold Spec.net
  rw [show Spec.cur2 (n0 := 10000) (n1 := 128) (after (ops (F := Ideal)) (launchContents m c) (Proc.devRef .tc main_v48)) = _ from e2,
    show Spec.cur2 (n0 := 10000) (n1 := 128) (after (ops (F := Ideal)) (launchContents m c) (Proc.devRef .tc main_v23)) = _ from e1]
  simp only [arg_eq m c main_arg0 (by decide), arg_eq m c main_arg1 (by decide), arg_eq m c main_arg2 (by decide),
    arg_eq m c main_arg3 (by decide), arg_eq m c main_arg4 (by decide), arg_eq m c main_arg5 (by decide),
    arg_eq m c main_arg6 (by decide), arg_eq m c main_arg7 (by decide), arg_eq m c main_arg8 (by decide),
    arg_eq m c main_arg9 (by decide), arg_eq m c main_arg10 (by decide), arg_eq m c main_arg11 (by decide),
    arg_eq m c main_arg12 (by decide), arg_eq m c main_arg13 (by decide), arg_eq m c main_arg14 (by decide),
    arg_eq m c main_arg15 (by decide)]

/-! ## The run -/

theorem scopedRefs_eq : (Finset.univ.filter fun b : Ref sig .tc => b.isScoped) = ∅ := by decide
theorem scopedSems_eq : (Finset.univ.filter fun sm : SemLoc sig => sm.isScoped .tc) = ∅ := by decide

/-- Each operation of the line touches TensorCore buffers only: each layer's do. -/
theorem ops_sub : (ops (F := F)).Forall fun op => op.bufs ⊆ tcRefs τ sig := by
  refine List.forall_iff_forall_mem.mpr fun op h => ?_
  rcases List.mem_append.mp h with h | h
  · exact List.forall_iff_forall_mem.mp L1.ops_sub op h
  rcases List.mem_append.mp h with h | h
  · exact List.forall_iff_forall_mem.mp L2.ops_sub op h
  rcases List.mem_append.mp h with h | h
  · exact List.forall_iff_forall_mem.mp L3.ops0_sub op h
  · exact List.forall_iff_forall_mem.mp L3.ops1_sub op h

/-- No operation of a layer's line leaves a result undetermined: each builder's set of such results is empty. -/
theorem fresh1 : ∀ op ∈ (L1.ops (F := F)), op.fresh = ∅ := by
  intro _ h; (repeat (cases h with | head => rfl | tail _ h => ?_)); exact nomatch h
theorem fresh2 : ∀ op ∈ (L2.ops (F := F)), op.fresh = ∅ := by
  intro _ h; (repeat (cases h with | head => rfl | tail _ h => ?_)); exact nomatch h
theorem fresh30 : ∀ op ∈ (L3.ops0 (F := F)), op.fresh = ∅ := by
  intro _ h; (repeat (cases h with | head => rfl | tail _ h => ?_)); exact nomatch h
theorem fresh31 : ∀ op ∈ (L3.ops1 (F := F)), op.fresh = ∅ := by
  intro _ h; (repeat (cases h with | head => rfl | tail _ h => ?_)); exact nomatch h

theorem ops_fresh : ∀ op ∈ (ops (F := F)), op.fresh = ∅ := by
  intro op h
  rcases List.mem_append.mp h with h | h
  · exact fresh1 op h
  rcases List.mem_append.mp h with h | h
  · exact fresh2 op h
  rcases List.mem_append.mp h with h | h
  · exact fresh30 op h
  · exact fresh31 op h

-- a hundred and eight binds re-associated: the rewriting under the chain recurses once per statement
set_option maxRecDepth 8192 in
/-- @main's first part is the first two layers' lines and the third's first three operations, in order: the called
    functions' definitions unfolded at their calls and the records at their fields, both sides are one chain of steps
    once sequencing is reassociated (the part ends in its last step, the line in a return after it: the same program). -/
theorem part0_eq (c : Dev nD) : main_part0 (F := F) c = seq (L1.ops ++ (L2.ops ++ L3.ops0)) := by
  rw [seq_append, seq_append]
  simp only [main_part0, fn_var.body, fn_where.body, fn_relu.body, seq, bind_assoc, pure_bind]
  rfl

set_option maxRecDepth 8192 in
/-- @main's second part is the rest of the third layer's line. -/
theorem part1_eq (c : Dev nD) : main_part1 (F := F) c = seq (L3.ops1 (F := F)) := by
  simp only [main_part1, fn_var_0.body, fn_where.body, seq, bind_assoc, pure_bind]

/-- @main is the whole line: its two parts one after the other. -/
theorem main_eq (c : Dev nD) : main (F := F) c = seq ops := by
  have e : (ops (F := F)) = (L1.ops ++ (L2.ops ++ L3.ops0)) ++ L3.ops1 := by
    simp only [List.append_assoc]
  rw [e, seq_append, ← part0_eq c, ← part1_eq c]
  rfl

/-- Every weakly fair execution of the reference terminates with each buffer at the operations' fold over the launch memory. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ (fun _ => ops_fresh)

end Cert.ReferenceIdeal.RefRun

end
-- ==== Proof.lean ====
/-
  The certificate of the residual graph network kernel against its reference.

  Both programs compute, on the extended reals, the same three-layer network (Proof/Spec.lean's `Spec.net`):
  u₁ = x · W_in, h₁ = relu (LN (adj · u₁ + b_in)), u₂ = h₁ · W_h, h₂ = relu (LN (adj · u₂ + b_h)) + h₁, u₃ = h₂ · W_out,
  out = LN (adj · u₃ + b_out) + 0.1 · (x · W_skip + b_skip). The kernel does it in four pipelined regions over row blocks
  (its changes of float format are the identity on the extended reals, its block products into a zero accumulator are plain
  sums), multiplying by the reciprocal square root of the variance plus ε; the reference in one line of host operations,
  dividing by the square root. The two spellings agree at every positive extended real, and a variance plus a positive ε
  is positive whatever the row holds, so no finiteness of the inputs is used.

  The kernel's result as a function of its arguments is Proof/KValue.lean (over the four regions' arrays, Proof/KReg0 … KReg3,
  and the launch of Proof/KRun.lean); the reference's is Proof/RefRun.lean (over the three layers' lines, Proof/RefL1 … RefL3).
-/
import proofs.«111547_g5291399708710_cont_9to1_m_243_4_alg».proof.Defs
import proofs.«111547_g5291399708710_cont_9to1_m_243_4_alg».proof.Proof.Gen.Kernel
import proofs.«111547_g5291399708710_cont_9to1_m_243_4_alg».proof.Proof.Gen.Kernel.Skeleton
import proofs.«111547_g5291399708710_cont_9to1_m_243_4_alg».proof.Proof.Gen.Kernel.Launch
import proofs.«111547_g5291399708710_cont_9to1_m_243_4_alg».proof.Proof.Gen.Kernel.Points
import proofs.«111547_g5291399708710_cont_9to1_m_243_4_alg».proof.Proof.Gen.Kernel.Frame
import proofs.«111547_g5291399708710_cont_9to1_m_243_4_alg».proof.Proof.Gen.KernelIdeal
import proofs.«111547_g5291399708710_cont_9to1_m_243_4_alg».proof.Proof.Gen.KernelIdeal.Skeleton
import proofs.«111547_g5291399708710_cont_9to1_m_243_4_alg».proof.Proof.Gen.KernelIdeal.Launch
import proofs.«111547_g5291399708710_cont_9to1_m_243_4_alg».proof.Proof.Gen.KernelIdeal.Points
import proofs.«111547_g5291399708710_cont_9to1_m_243_4_alg».proof.Proof.Gen.KernelIdeal.Frame
import proofs.«111547_g5291399708710_cont_9to1_m_243_4_alg».proof.Proof.Gen.ReferenceIdeal
import proofs.«111547_g5291399708710_cont_9to1_m_243_4_alg».proof.Proof.Gen.Pre_finite_inputs
import proofs.«111547_g5291399708710_cont_9to1_m_243_4_alg».proof.Proof.Spec
import proofs.«111547_g5291399708710_cont_9to1_m_243_4_alg».proof.Proof.KRun
import proofs.«111547_g5291399708710_cont_9to1_m_243_4_alg».proof.Proof.KValue
import proofs.«111547_g5291399708710_cont_9to1_m_243_4_alg».proof.Proof.RefRun
import Idealize.ShloMosaic.Adequacy
import Idealize.ShloMosaic.Init
import Idealize.ShloMosaic.Lib.ValueIdx

noncomputable section

namespace Cert.Proof

open Idealize.ShloMosaic Idealize.SL.Sem Idealize.ShloMosaic.ValueIdx

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The reference's frame: its run, read at the sixteen argument buffers, which no operation writes. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg_eq m c Cert.ReferenceIdeal.main_arg0 (by decide)),
     (h c Cert.ReferenceIdeal.main_arg1).trans (Cert.ReferenceIdeal.RefRun.arg_eq m c Cert.ReferenceIdeal.main_arg1 (by decide)),
     (h c Cert.ReferenceIdeal.main_arg2).trans (Cert.ReferenceIdeal.RefRun.arg_eq m c Cert.ReferenceIdeal.main_arg2 (by decide)),
     (h c Cert.ReferenceIdeal.main_arg3).trans (Cert.ReferenceIdeal.RefRun.arg_eq m c Cert.ReferenceIdeal.main_arg3 (by decide)),
     (h c Cert.ReferenceIdeal.main_arg4).trans (Cert.ReferenceIdeal.RefRun.arg_eq m c Cert.ReferenceIdeal.main_arg4 (by decide)),
     (h c Cert.ReferenceIdeal.main_arg5).trans (Cert.ReferenceIdeal.RefRun.arg_eq m c Cert.ReferenceIdeal.main_arg5 (by decide)),
     (h c Cert.ReferenceIdeal.main_arg6).trans (Cert.ReferenceIdeal.RefRun.arg_eq m c Cert.ReferenceIdeal.main_arg6 (by decide)),
     (h c Cert.ReferenceIdeal.main_arg7).trans (Cert.ReferenceIdeal.RefRun.arg_eq m c Cert.ReferenceIdeal.main_arg7 (by decide)),
     (h c Cert.ReferenceIdeal.main_arg8).trans (Cert.ReferenceIdeal.RefRun.arg_eq m c Cert.ReferenceIdeal.main_arg8 (by decide)),
     (h c Cert.ReferenceIdeal.main_arg9).trans (Cert.ReferenceIdeal.RefRun.arg_eq m c Cert.ReferenceIdeal.main_arg9 (by decide)),
     (h c Cert.ReferenceIdeal.main_arg10).trans (Cert.ReferenceIdeal.RefRun.arg_eq m c Cert.ReferenceIdeal.main_arg10 (by decide)),
     (h c Cert.ReferenceIdeal.main_arg11).trans (Cert.ReferenceIdeal.RefRun.arg_eq m c Cert.ReferenceIdeal.main_arg11 (by decide)),
     (h c Cert.ReferenceIdeal.main_arg12).trans (Cert.ReferenceIdeal.RefRun.arg_eq m c Cert.ReferenceIdeal.main_arg12 (by decide)),
     (h c Cert.ReferenceIdeal.main_arg13).trans (Cert.ReferenceIdeal.RefRun.arg_eq m c Cert.ReferenceIdeal.main_arg13 (by decide)),
     (h c Cert.ReferenceIdeal.main_arg14).trans (Cert.ReferenceIdeal.RefRun.arg_eq m c Cert.ReferenceIdeal.main_arg14 (by decide)),
     (h c Cert.ReferenceIdeal.main_arg15).trans (Cert.ReferenceIdeal.RefRun.arg_eq m c Cert.ReferenceIdeal.main_arg15 (by decide))⟩)
    (Cert.ReferenceIdeal.RefRun.run (F := Ideal) m ρ)

/-- Run from memories that agree on the arguments, the two idealized programs end with the same result array: both hold
    the network's output of the arguments, entry by entry. -/
theorem algebraic : Cert.algebraic_KernelIdeal_ReferenceIdeal := by
  intro m ρ m' ρ' _ hagree
  refine ⟨fun c => Cert.KernelIdeal.Gen.W5 (F := Ideal) m ρ c (Proc.devRef .tc Cert.KernelIdeal.main_v13),
    Cert.KernelIdeal.RunOut.run_out (F := Ideal) m ρ, ?_⟩
  refine (θ_run Cert.ReferenceIdeal.defs _ _).mono (fun r h c =>
    ⟨(h c Cert.ReferenceIdeal.main_v78).trans ?_,
     (h c Cert.ReferenceIdeal.main_arg0).trans (Cert.ReferenceIdeal.RefRun.arg_eq m' c Cert.ReferenceIdeal.main_arg0 (by decide)),
     (h c Cert.ReferenceIdeal.main_arg1).trans (Cert.ReferenceIdeal.RefRun.arg_eq m' c Cert.ReferenceIdeal.main_arg1 (by decide)),
     (h c Cert.ReferenceIdeal.main_arg2).trans (Cert.ReferenceIdeal.RefRun.arg_eq m' c Cert.ReferenceIdeal.main_arg2 (by decide)),
     (h c Cert.ReferenceIdeal.main_arg3).trans (Cert.ReferenceIdeal.RefRun.arg_eq m' c Cert.ReferenceIdeal.main_arg3 (by decide)),
     (h c Cert.ReferenceIdeal.main_arg4).trans (Cert.ReferenceIdeal.RefRun.arg_eq m' c Cert.ReferenceIdeal.main_arg4 (by decide)),
     (h c Cert.ReferenceIdeal.main_arg5).trans (Cert.ReferenceIdeal.RefRun.arg_eq m' c Cert.ReferenceIdeal.main_arg5 (by decide)),
     (h c Cert.ReferenceIdeal.main_arg6).trans (Cert.ReferenceIdeal.RefRun.arg_eq m' c Cert.ReferenceIdeal.main_arg6 (by decide)),
     (h c Cert.ReferenceIdeal.main_arg7).trans (Cert.ReferenceIdeal.RefRun.arg_eq m' c Cert.ReferenceIdeal.main_arg7 (by decide)),
     (h c Cert.ReferenceIdeal.main_arg8).trans (Cert.ReferenceIdeal.RefRun.arg_eq m' c Cert.ReferenceIdeal.main_arg8 (by decide)),
     (h c Cert.ReferenceIdeal.main_arg9).trans (Cert.ReferenceIdeal.RefRun.arg_eq m' c Cert.ReferenceIdeal.main_arg9 (by decide)),
     (h c Cert.ReferenceIdeal.main_arg10).trans (Cert.ReferenceIdeal.RefRun.arg_eq m' c Cert.ReferenceIdeal.main_arg10 (by decide)),
     (h c Cert.ReferenceIdeal.main_arg11).trans (Cert.ReferenceIdeal.RefRun.arg_eq m' c Cert.ReferenceIdeal.main_arg11 (by decide)),
     (h c Cert.ReferenceIdeal.main_arg12).trans (Cert.ReferenceIdeal.RefRun.arg_eq m' c Cert.ReferenceIdeal.main_arg12 (by decide)),
     (h c Cert.ReferenceIdeal.main_arg13).trans (Cert.ReferenceIdeal.RefRun.arg_eq m' c Cert.ReferenceIdeal.main_arg13 (by decide)),
     (h c Cert.ReferenceIdeal.main_arg14).trans (Cert.ReferenceIdeal.RefRun.arg_eq m' c Cert.ReferenceIdeal.main_arg14 (by decide)),
     (h c Cert.ReferenceIdeal.main_arg15).trans (Cert.ReferenceIdeal.RefRun.arg_eq m' c Cert.ReferenceIdeal.main_arg15 (by decide))⟩)
    (Cert.ReferenceIdeal.RefRun.run (F := Ideal) m' ρ')
  -- entry by entry, both sides are the network's output; the arguments agree
  obtain ⟨h0, h1, h2, h3, h4, h5, h6, h7, h8, h9, h10, h11, h12, h13, h14, h15⟩ := hagree c
  refine funext fun j => ?_
  obtain ⟨p, q, rfl⟩ : ∃ (p : Fin 10000) (q : Fin 16), j = ix2 p q := ⟨j 0, j 1, eq_ix2 j⟩
  refine (Cert.ReferenceIdeal.RefRun.out_eq m' c p q).trans (Eq.trans ?_ (Cert.KernelIdeal.KValue.out_eq m ρ c p q).symm)
  rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
